-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1048576x3 : Shape := ⟨3, ![1, 1048576, 3]⟩
abbrev S1x64x512 : Shape := ⟨3, ![1, 64, 512]⟩
abbrev S1x64x32 : Shape := ⟨3, ![1, 64, 32]⟩
abbrev S_ : Shape := ⟨0, ![]⟩

class Facts : Prop where
  bcast_S_S1x1048576x3 : S_.BroadcastsInDim S1x1048576x3 (![] : Fin 0 → Fin S1x1048576x3.rank)
  reducesTo_S1x1048576x3_S_d0_1_2 : S1x1048576x3.ReducesTo [0, 1, 2] S_
  h_S_ : 0 < S_.numel
  bcast_S_S1x64x512 : S_.BroadcastsInDim S1x64x512 (![] : Fin 0 → Fin S1x64x512.rank)
  reducesTo_S1x64x512_S_d0_1_2 : S1x64x512.ReducesTo [0, 1, 2] S_
  bcast_S_S1x64x32 : S_.BroadcastsInDim S1x64x32 (![] : Fin 0 → Fin S1x64x32.rank)
  reducesTo_S1x64x32_S_d0_1_2 : S1x64x32.ReducesTo [0, 1, 2] S_

variable [Facts]

def fn_part1 {F : FTy → Type} [FloatOps F] (main_arg0 : FVec F S1x1048576x3 .f32) (main_arg4 : FVec F S1x64x32 .f32) (main_v13 : IVec S_ 1) (main_v16 : IVec S1x64x512 1) : IVec S_ 1 :=
  let main_c_5 : IVec S_ 1 := constantI S_ 1 1#1
  let main_v17 : IVec S_ 1 := (fun x v => Host.reduce IntOp.andi x v reducesTo_S1x64x512_S_d0_1_2 h_S_) main_v16 main_c_5
  let main_v18 : IVec S_ 1 := andi main_v13 main_v17
  let main_v19 : FVec F S1x64x32 .f32 := Host.absf main_arg4
  let main_cst_6 : FVec F S_ .f32 := constant S_ .f32 0x7F800000#32
  let main_v20 : FVec F S1x64x32 .f32 := broadcastInDim S1x64x32 ![] bcast_S_S1x64x32 main_cst_6
  let main_v21 : IVec S1x64x32 1 := cmpf .olt main_v19 main_v20
  let main_c_7 : IVec S_ 1 := constantI S_ 1 1#1
  let main_v22 : IVec S_ 1 := (fun x v => Host.reduce IntOp.andi x v reducesTo_S1x64x32_S_d0_1_2 h_S_) main_v21 main_c_7
  let main_v23 : IVec S_ 1 := andi main_v18 main_v22
  let main_cst_8 : FVec F S_ .f32 := constant S_ .f32 0xBF800000#32
  let main_v24 : FVec F S1x1048576x3 .f32 := broadcastInDim S1x1048576x3 ![] bcast_S_S1x1048576x3 main_cst_8
  let main_v25 : IVec S1x1048576x3 1 := cmpf .oge main_arg0 main_v24
  let main_cst_9 : FVec F S_ .f32 := constant S_ .f32 0x3F800000#32
  let main_v26 : FVec F S1x1048576x3 .f32 := broadcastInDim S1x1048576x3 ![] bcast_S_S1x1048576x3 main_cst_9
  let main_v27 : IVec S1x1048576x3 1 := cmpf .ole main_arg0 main_v26
  let main_v28 : IVec S1x1048576x3 1 := andi main_v25 main_v27
  let main_c_10 : IVec S_ 1 := constantI S_ 1 1#1
  let main_v29 : IVec S_ 1 := (fun x v => Host.reduce IntOp.andi x v reducesTo_S1x1048576x3_S_d0_1_2 h_S_) main_v28 main_c_10
  let main_v30 : IVec S_ 1 := andi main_v23 main_v29
  main_v30

def fn {F : FTy → Type} [FloatOps F] (main_arg0 : FVec F S1x1048576x3 .f32) (main_arg1 : FVec F S1x64x512 .f32) (main_arg2 : FVec F S1x64x512 .f32) (main_arg3 : FVec F S1x64x512 .f32) (main_arg4 : FVec F S1x64x32 .f32) : IVec S_ 1 :=
  let main_v0 : FVec F S1x1048576x3 .f32 := Host.absf main_arg0
  let main_cst : FVec F S_ .f32 := constant S_ .f32 0x7F800000#32
  let main_v1 : FVec F S1x1048576x3 .f32 := broadcastInDim S1x1048576x3 ![] bcast_S_S1x1048576x3 main_cst
  let main_v2 : IVec S1x1048576x3 1 := cmpf .olt main_v0 main_v1
  let main_c : IVec S_ 1 := constantI S_ 1 1#1
  let main_v3 : IVec S_ 1 := (fun x v => Host.reduce IntOp.andi x v reducesTo_S1x1048576x3_S_d0_1_2 h_S_) main_v2 main_c
  let main_v4 : FVec F S1x64x512 .f32 := Host.absf main_arg1
  let main_cst_0 : FVec F S_ .f32 := constant S_ .f32 0x7F800000#32
  let main_v5 : FVec F S1x64x512 .f32 := broadcastInDim S1x64x512 ![] bcast_S_S1x64x512 main_cst_0
  let main_v6 : IVec S1x64x512 1 := cmpf .olt main_v4 main_v5
  let main_c_1 : IVec S_ 1 := constantI S_ 1 1#1
  let main_v7 : IVec S_ 1 := (fun x v => Host.reduce IntOp.andi x v reducesTo_S1x64x512_S_d0_1_2 h_S_) main_v6 main_c_1
  let main_v8 : IVec S_ 1 := andi main_v3 main_v7
  let main_v9 : FVec F S1x64x512 .f32 := Host.absf main_arg2
  let main_cst_2 : FVec F S_ .f32 := constant S_ .f32 0x7F800000#32
  let main_v10 : FVec F S1x64x512 .f32 := broadcastInDim S1x64x512 ![] bcast_S_S1x64x512 main_cst_2
  let main_v11 : IVec S1x64x512 1 := cmpf .olt main_v9 main_v10
  let main_c_3 : IVec S_ 1 := constantI S_ 1 1#1
  let main_v12 : IVec S_ 1 := (fun x v => Host.reduce IntOp.andi x v reducesTo_S1x64x512_S_d0_1_2 h_S_) main_v11 main_c_3
  let main_v13 : IVec S_ 1 := andi main_v8 main_v12
  let main_v14 : FVec F S1x64x512 .f32 := Host.absf main_arg3
  let main_cst_4 : FVec F S_ .f32 := constant S_ .f32 0x7F800000#32
  let main_v15 : FVec F S1x64x512 .f32 := broadcastInDim S1x64x512 ![] bcast_S_S1x64x512 main_cst_4
  let main_v16 : IVec S1x64x512 1 := cmpf .olt main_v14 main_v15
  fn_part1 (F := F) main_arg0 main_arg4 main_v13 main_v16
-- ==== Kernel.lean ====
abbrev S1x1048576x3 : Shape := ⟨3, ![1, 1048576, 3]⟩
abbrev S1x64x512 : Shape := ⟨3, ![1, 64, 512]⟩
abbrev S1x64x32 : Shape := ⟨3, ![1, 64, 32]⟩
abbrev S1048576x3 : Shape := ⟨2, ![1048576, 3]⟩
abbrev S64x512 : Shape := ⟨2, ![64, 512]⟩
abbrev S64x511 : Shape := ⟨2, ![64, 511]⟩
abbrev S_ : Shape := ⟨0, ![]⟩
abbrev S64x1 : Shape := ⟨2, ![64, 1]⟩
abbrev S512x64 : Shape := ⟨2, ![512, 64]⟩
abbrev S64x32 : Shape := ⟨2, ![64, 32]⟩
abbrev S1048576x32 : Shape := ⟨2, ![1048576, 32]⟩
abbrev S2048x3 : Shape := ⟨2, ![2048, 3]⟩
abbrev S2048x32 : Shape := ⟨2, ![2048, 32]⟩
abbrev S2048x1 : Shape := ⟨2, ![2048, 1]⟩
abbrev S2048x512 : Shape := ⟨2, ![2048, 512]⟩
abbrev S2048x64 : Shape := ⟨2, ![2048, 64]⟩
abbrev S1x1048576x32 : Shape := ⟨3, ![1, 1048576, 32]⟩

abbrev nBuf : Space → Nat
  | .hbm => 37
  | .vmem => 11
  | .smem => 0
  | _ => 0

abbrev bufTy : (tb : Table) → Fin (tcTables nBuf tb) → BufTy
  | .hbm, ⟨0, _⟩ => ⟨S1x1048576x3, .f32⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S1x64x32, .f32⟩
  | .hbm, ⟨5, _⟩ => ⟨S1048576x3, .f32⟩
  | .hbm, ⟨6, _⟩ => ⟨S64x512, .f32⟩
  | .hbm, ⟨7, _⟩ => ⟨S64x511, .f32⟩
  | .hbm, ⟨8, _⟩ => ⟨S_, .f32⟩
  | .hbm, ⟨9, _⟩ => ⟨S64x1, .f32⟩
  | .hbm, ⟨10, _⟩ => ⟨S64x512, .f32⟩
  | .hbm, ⟨11, _⟩ => ⟨S512x64, .f32⟩
  | .hbm, ⟨12, _⟩ => ⟨S512x64, .bf16⟩
  | .hbm, ⟨13, _⟩ => ⟨S512x64, .f32⟩
  | .hbm, ⟨14, _⟩ => ⟨S512x64, .bf16⟩
  | .hbm, ⟨15, _⟩ => ⟨S64x512, .f32⟩
  | .hbm, ⟨16, _⟩ => ⟨S64x511, .f32⟩
  | .hbm, ⟨17, _⟩ => ⟨S_, .f32⟩
  | .hbm, ⟨18, _⟩ => ⟨S64x1, .f32⟩
  | .hbm, ⟨19, _⟩ => ⟨S64x512, .f32⟩
  | .hbm, ⟨20, _⟩ => ⟨S512x64, .f32⟩
  | .hbm, ⟨21, _⟩ => ⟨S512x64, .bf16⟩
  | .hbm, ⟨22, _⟩ => ⟨S512x64, .f32⟩
  | .hbm, ⟨23, _⟩ => ⟨S512x64, .bf16⟩
  | .hbm, ⟨24, _⟩ => ⟨S64x512, .f32⟩
  | .hbm, ⟨25, _⟩ => ⟨S64x511, .f32⟩
  | .hbm, ⟨26, _⟩ => ⟨S_, .f32⟩
  | .hbm, ⟨27, _⟩ => ⟨S64x1, .f32⟩
  | .hbm, ⟨28, _⟩ => ⟨S64x512, .f32⟩
  | .hbm, ⟨29, _⟩ => ⟨S512x64, .f32⟩
  | .hbm, ⟨30, _⟩ => ⟨S512x64, .bf16⟩
  | .hbm, ⟨31, _⟩ => ⟨S512x64, .f32⟩
  | .hbm, ⟨32, _⟩ => ⟨S512x64, .bf16⟩
  | .hbm, ⟨33, _⟩ => ⟨S64x32, .f32⟩
  | .hbm, ⟨34, _⟩ => ⟨S64x32, .bf16⟩
  | .hbm, ⟨35, _⟩ => ⟨S1048576x32, .f32⟩
  | .hbm, ⟨36, _⟩ => ⟨S1x1048576x32, .f32⟩
  | .local _ .vmem, ⟨0, _⟩ => ⟨S2048x3, .f32⟩
  | .local _ .vmem, ⟨1, _⟩ => ⟨S2048x3, .f32⟩
  | .local _ .vmem, ⟨2, _⟩ => ⟨S512x64, .bf16⟩
  | .local _ .vmem, ⟨3, _⟩ => ⟨S512x64, .bf16⟩
  | .local _ .vmem, ⟨4, _⟩ => ⟨S512x64, .bf16⟩
  | .local _ .vmem, ⟨5, _⟩ => ⟨S512x64, .bf16⟩
  | .local _ .vmem, ⟨6, _⟩ => ⟨S512x64, .bf16⟩
  | .local _ .vmem, ⟨7, _⟩ => ⟨S512x64, .bf16⟩
  | .local _ .vmem, ⟨8, _⟩ => ⟨S64x32, .bf16⟩
  | .local _ .vmem, ⟨9, _⟩ => ⟨S2048x32, .f32⟩
  | .local _ .vmem, ⟨10, _⟩ => ⟨S2048x32, .f32⟩
  | _, _ => ⟨S1x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1x1048576x3_S1048576x3 : S1x1048576x3.ShapeCasts S1048576x3
  shapeCasts_S1x64x512_S64x512 : S1x64x512.ShapeCasts S64x512
  slices_S64x512_S64x511_0_1 : S64x512.Slices ![0, 1] S64x511
  bcast_S_S64x1 : S_.BroadcastsInDim S64x1 (![] : Fin 0 → Fin S64x1.rank)
  concatenates_S64x511_S64x1_S64x512_d1 : Shape.Concatenates [S64x511, S64x1] S64x512 1
  transposes_S64x512_S512x64_1_0 : S64x512.Transposes [1, 0] S512x64
  bitsLt_bf16_f32 : FTy.bits .bf16 < FTy.bits .f32
  shapeCasts_S1x64x32_S64x32 : S1x64x32.ShapeCasts S64x32
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  iota_S2048x512_d1_w32 : S2048x512.Iotas .tc 32 [1]
  broadcasts_S2048x1_S2048x512 : S2048x1.Broadcasts S2048x512
  natLt_1_32 : 1 < 32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S2048x1_S2048x64 : S2048x1.Broadcasts S2048x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2048x32_S2048x32_0_0 : ∀ a, (![0, 0] : Fin 2 → Nat) a + S2048x32.size a ≤ S2048x32.size a
  h_S2048x32 : 0 < S2048x32.numel
  shapeCasts_S1048576x32_S1x1048576x32 : S1048576x32.ShapeCasts S1x1048576x32
  dot_S2048x512_S512x64_S2048x64_1_0_0_1_n_n_wf : DotDims.WF S2048x512 S512x64 S2048x64 [1] [0] [0] [1] [] []
  dot_S2048x64_S64x32_S2048x32_1_0_0_1_n_n_wf : DotDims.WF S2048x64 S64x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S1048576x3.size a
  hwx0_0 : ∀ i : grid0.Coords, EltTy.bits .f32 = 32 ∨ (Rect.block (s := S1048576x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .bf16 = 32 ∨ (Rect.block (s := S512x64) S512x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .bf16 = 32 ∨ (Rect.block (s := S512x64) S512x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x32.size a ≤ S1048576x32.size a
  hwx0_8 : ∀ i : grid0.Coords, EltTy.bits .f32 = 32 ∨ (Rect.block (s := S1048576x32) S2048x32.size (cc0_transform_8 i) (hinb0_8 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

abbrev win0_0 : Pipeline.Window sig grid0 :=
  Pipeline.Window.ofSpec (Memref.whole main_v0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S2048x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x1048576x3 : Shape := ⟨3, ![1, 1048576, 3]⟩
abbrev S1x64x512 : Shape := ⟨3, ![1, 64, 512]⟩
abbrev S1x64x32 : Shape := ⟨3, ![1, 64, 32]⟩
abbrev S1x1048576x1 : Shape := ⟨3, ![1, 1048576, 1]⟩
abbrev S1x1048576 : Shape := ⟨2, ![1, 1048576]⟩
abbrev S_ : Shape := ⟨0, ![]⟩
abbrev S1x1x1048576 : Shape := ⟨3, ![1, 1, 1048576]⟩
abbrev S1048576x1 : Shape := ⟨2, ![1048576, 1]⟩
abbrev S1 : Shape := ⟨1, ![1]⟩
abbrev S1x1 : Shape := ⟨2, ![1, 1]⟩
abbrev S1048576 : Shape := ⟨1, ![1048576]⟩
abbrev S1x64x1048576 : Shape := ⟨3, ![1, 64, 1048576]⟩
abbrev S1x1048576x32 : Shape := ⟨3, ![1, 1048576, 32]⟩

abbrev nBuf : Space → Nat
  | .hbm => 344
  | .vmem => 0
  | .smem => 0
  | _ => 0

abbrev hbmTy0_0 (i : Nat) : BufTy := match i % 128 with
  | 0 => ⟨S1x1048576x3, .f32⟩
  | 1 => ⟨S1x64x512, .f32⟩
  | 2 => ⟨S1x64x512, .f32⟩
  | 3 => ⟨S1x64x512, .f32⟩
  | 4 => ⟨S1x64x32, .f32⟩
  | 5 => ⟨S1x1048576x1, .f32⟩
  | 6 => ⟨S1x1048576, .f32⟩
  | 7 => ⟨S_, .f32⟩
  | 8 => ⟨S1x1048576, .f32⟩
  | 9 => ⟨S1x1048576, .f32⟩
  | 10 => ⟨S_, .f32⟩
  | 11 => ⟨S1x1048576, .f32⟩
  | 12 => ⟨S1x1048576, .f32⟩
  | 13 => ⟨S_, .f32⟩
  | 14 => ⟨S1x1048576, .f32⟩
  | 15 => ⟨S1x1048576, .f32⟩
  | 16 => ⟨S1x1048576, .f32⟩
  | 17 => ⟨S1x1048576, .f32⟩
  | 18 => ⟨S1x1x1048576, .f32⟩
  | 19 => ⟨S1x1048576, .i32⟩
  | 20 => ⟨S_, .i32⟩
  | 21 => ⟨S1x1048576, .i32⟩
  | 22 => ⟨S1x1048576, .i1⟩
  | 23 => ⟨S_, .i32⟩
  | 24 => ⟨S1x1048576, .i32⟩
  | 25 => ⟨S1x1048576, .i1⟩
  | 26 => ⟨S1x1048576, .i1⟩
  | 27 => ⟨S1x1048576, .f32⟩
  | 28 => ⟨S1x1x1048576, .f32⟩
  | 29 => ⟨S_, .i32⟩
  | 30 => ⟨S_, .i32⟩
  | 31 => ⟨S_, .i32⟩
  | 32 => ⟨S1x1048576, .i32⟩
  | 33 => ⟨S1x1048576, .i32⟩
  | 34 => ⟨S_, .i32⟩
  | 35 => ⟨S1x1048576, .i32⟩
  | 36 => ⟨S1x1048576, .i32⟩
  | 37 => ⟨S1x1x1048576, .i32⟩
  | 38 => ⟨S_, .i32⟩
  | 39 => ⟨S1x1x1048576, .i32⟩
  | 40 => ⟨S1x1x1048576, .i1⟩
  | 41 => ⟨S_, .i32⟩
  | 42 => ⟨S1x1x1048576, .i32⟩
  | 43 => ⟨S1x1x1048576, .i32⟩
  | 44 => ⟨S1x1x1048576, .i32⟩
  | 45 => ⟨S1048576x1, .i32⟩
  | 46 => ⟨S1, .i32⟩
  | 47 => ⟨S_, .i32⟩
  | 48 => ⟨S1048576x1, .i32⟩
  | 49 => ⟨S1048576x1, .i1⟩
  | 50 => ⟨S1x1, .i32⟩
  | 51 => ⟨S1048576x1, .i32⟩
  | 52 => ⟨S1048576x1, .i1⟩
  | 53 => ⟨S1048576x1, .i1⟩
  | 54 => ⟨S_, .i1⟩
  | 55 => ⟨S1048576, .i1⟩
  | 56 => ⟨S1x64x1048576, .f32⟩
  | 57 => ⟨S1x64x1048576, .i1⟩
  | 58 => ⟨S_, .f32⟩
  | 59 => ⟨S1x64x1048576, .f32⟩
  | 60 => ⟨S1x64x1048576, .f32⟩
  | 61 => ⟨S1x64x1048576, .f32⟩
  | 62 => ⟨S1x64x1048576, .f32⟩
  | 63 => ⟨S_, .f32⟩
  | 64 => ⟨S1x1x1048576, .f32⟩
  | 65 => ⟨S1x1x1048576, .f32⟩
  | 66 => ⟨S1x64x1048576, .f32⟩
  | 67 => ⟨S1x64x1048576, .f32⟩
  | 68 => ⟨S_, .i32⟩
  | 69 => ⟨S1x1048576, .i32⟩
  | 70 => ⟨S1x1048576, .i32⟩
  | 71 => ⟨S_, .i32⟩
  | 72 => ⟨S1x1048576, .i32⟩
  | 73 => ⟨S1x1048576, .i1⟩
  | 74 => ⟨S_, .i32⟩
  | 75 => ⟨S1x1048576, .i32⟩
  | 76 => ⟨S1x1048576, .i1⟩
  | 77 => ⟨S1x1048576, .i1⟩
  | 78 => ⟨S1x1048576, .f32⟩
  | 79 => ⟨S1x1x1048576, .f32⟩
  | 80 => ⟨S_, .i32⟩
  | 81 => ⟨S_, .i32⟩
  | 82 => ⟨S_, .i32⟩
  | 83 => ⟨S1x1048576, .i32⟩
  | 84 => ⟨S1x1048576, .i32⟩
  | 85 => ⟨S_, .i32⟩
  | 86 => ⟨S1x1048576, .i32⟩
  | 87 => ⟨S1x1048576, .i32⟩
  | 88 => ⟨S1x1x1048576, .i32⟩
  | 89 => ⟨S_, .i32⟩
  | 90 => ⟨S1x1x1048576, .i32⟩
  | 91 => ⟨S1x1x1048576, .i1⟩
  | 92 => ⟨S_, .i32⟩
  | 93 => ⟨S1x1x1048576, .i32⟩
  | 94 => ⟨S1x1x1048576, .i32⟩
  | 95 => ⟨S1x1x1048576, .i32⟩
  | 96 => ⟨S1048576x1, .i32⟩
  | 97 => ⟨S1, .i32⟩
  | 98 => ⟨S_, .i32⟩
  | 99 => ⟨S1048576x1, .i32⟩
  | 100 => ⟨S1048576x1, .i1⟩
  | 101 => ⟨S1x1, .i32⟩
  | 102 => ⟨S1048576x1, .i32⟩
  | 103 => ⟨S1048576x1, .i1⟩
  | 104 => ⟨S1048576x1, .i1⟩
  | 105 => ⟨S_, .i1⟩
  | 106 => ⟨S1048576, .i1⟩
  | 107 => ⟨S1x64x1048576, .f32⟩
  | 108 => ⟨S1x64x1048576, .i1⟩
  | 109 => ⟨S_, .f32⟩
  | 110 => ⟨S1x64x1048576, .f32⟩
  | 111 => ⟨S1x64x1048576, .f32⟩
  | 112 => ⟨S1x64x1048576, .f32⟩
  | 113 => ⟨S1x64x1048576, .f32⟩
  | 114 => ⟨S1x64x1048576, .f32⟩
  | 115 => ⟨S1x64x1048576, .f32⟩
  | 116 => ⟨S1x64x1048576, .f32⟩
  | 117 => ⟨S1x1048576x1, .f32⟩
  | 118 => ⟨S1x1048576, .f32⟩
  | 119 => ⟨S_, .f32⟩
  | 120 => ⟨S1x1048576, .f32⟩
  | 121 => ⟨S1x1048576, .f32⟩
  | 122 => ⟨S_, .f32⟩
  | 123 => ⟨S1x1048576, .f32⟩
  | 124 => ⟨S1x1048576, .f32⟩
  | 125 => ⟨S_, .f32⟩
  | 126 => ⟨S1x1048576, .f32⟩
  | 127 => ⟨S1x1048576, .f32⟩
  | _ => ⟨S1x1048576x3, .f32⟩

abbrev hbmTy0_1 (i : Nat) : BufTy := match i % 128 with
  | 0 => ⟨S1x1048576, .f32⟩
  | 1 => ⟨S1x1048576, .f32⟩
  | 2 => ⟨S1x1x1048576, .f32⟩
  | 3 => ⟨S1x1048576, .i32⟩
  | 4 => ⟨S_, .i32⟩
  | 5 => ⟨S1x1048576, .i32⟩
  | 6 => ⟨S1x1048576, .i1⟩
  | 7 => ⟨S_, .i32⟩
  | 8 => ⟨S1x1048576, .i32⟩
  | 9 => ⟨S1x1048576, .i1⟩
  | 10 => ⟨S1x1048576, .i1⟩
  | 11 => ⟨S1x1048576, .f32⟩
  | 12 => ⟨S1x1x1048576, .f32⟩
  | 13 => ⟨S_, .i32⟩
  | 14 => ⟨S_, .i32⟩
  | 15 => ⟨S_, .i32⟩
  | 16 => ⟨S1x1048576, .i32⟩
  | 17 => ⟨S1x1048576, .i32⟩
  | 18 => ⟨S_, .i32⟩
  | 19 => ⟨S1x1048576, .i32⟩
  | 20 => ⟨S1x1048576, .i32⟩
  | 21 => ⟨S1x1x1048576, .i32⟩
  | 22 => ⟨S_, .i32⟩
  | 23 => ⟨S1x1x1048576, .i32⟩
  | 24 => ⟨S1x1x1048576, .i1⟩
  | 25 => ⟨S_, .i32⟩
  | 26 => ⟨S1x1x1048576, .i32⟩
  | 27 => ⟨S1x1x1048576, .i32⟩
  | 28 => ⟨S1x1x1048576, .i32⟩
  | 29 => ⟨S1048576x1, .i32⟩
  | 30 => ⟨S1, .i32⟩
  | 31 => ⟨S_, .i32⟩
  | 32 => ⟨S1048576x1, .i32⟩
  | 33 => ⟨S1048576x1, .i1⟩
  | 34 => ⟨S1x1, .i32⟩
  | 35 => ⟨S1048576x1, .i32⟩
  | 36 => ⟨S1048576x1, .i1⟩
  | 37 => ⟨S1048576x1, .i1⟩
  | 38 => ⟨S_, .i1⟩
  | 39 => ⟨S1048576, .i1⟩
  | 40 => ⟨S1x64x1048576, .f32⟩
  | 41 => ⟨S1x64x1048576, .i1⟩
  | 42 => ⟨S_, .f32⟩
  | 43 => ⟨S1x64x1048576, .f32⟩
  | 44 => ⟨S1x64x1048576, .f32⟩
  | 45 => ⟨S1x64x1048576, .f32⟩
  | 46 => ⟨S1x64x1048576, .f32⟩
  | 47 => ⟨S_, .f32⟩
  | 48 => ⟨S1x1x1048576, .f32⟩
  | 49 => ⟨S1x1x1048576, .f32⟩
  | 50 => ⟨S1x64x1048576, .f32⟩
  | 51 => ⟨S1x64x1048576, .f32⟩
  | 52 => ⟨S_, .i32⟩
  | 53 => ⟨S1x1048576, .i32⟩
  | 54 => ⟨S1x1048576, .i32⟩
  | 55 => ⟨S_, .i32⟩
  | 56 => ⟨S1x1048576, .i32⟩
  | 57 => ⟨S1x1048576, .i1⟩
  | 58 => ⟨S_, .i32⟩
  | 59 => ⟨S1x1048576, .i32⟩
  | 60 => ⟨S1x1048576, .i1⟩
  | 61 => ⟨S1x1048576, .i1⟩
  | 62 => ⟨S1x1048576, .f32⟩
  | 63 => ⟨S1x1x1048576, .f32⟩
  | 64 => ⟨S_, .i32⟩
  | 65 => ⟨S_, .i32⟩
  | 66 => ⟨S_, .i32⟩
  | 67 => ⟨S1x1048576, .i32⟩
  | 68 => ⟨S1x1048576, .i32⟩
  | 69 => ⟨S_, .i32⟩
  | 70 => ⟨S1x1048576, .i32⟩
  | 71 => ⟨S1x1048576, .i32⟩
  | 72 => ⟨S1x1x1048576, .i32⟩
  | 73 => ⟨S_, .i32⟩
  | 74 => ⟨S1x1x1048576, .i32⟩
  | 75 => ⟨S1x1x1048576, .i1⟩
  | 76 => ⟨S_, .i32⟩
  | 77 => ⟨S1x1x1048576, .i32⟩
  | 78 => ⟨S1x1x1048576, .i32⟩
  | 79 => ⟨S1x1x1048576, .i32⟩
  | 80 => ⟨S1048576x1, .i32⟩
  | 81 => ⟨S1, .i32⟩
  | 82 => ⟨S_, .i32⟩
  | 83 => ⟨S1048576x1, .i32⟩
  | 84 => ⟨S1048576x1, .i1⟩
  | 85 => ⟨S1x1, .i32⟩
  | 86 => ⟨S1048576x1, .i32⟩
  | 87 => ⟨S1048576x1, .i1⟩
  | 88 => ⟨S1048576x1, .i1⟩
  | 89 => ⟨S_, .i1⟩
  | 90 => ⟨S1048576, .i1⟩
  | 91 => ⟨S1x64x1048576, .f32⟩
  | 92 => ⟨S1x64x1048576, .i1⟩
  | 93 => ⟨S_, .f32⟩
  | 94 => ⟨S1x64x1048576, .f32⟩
  | 95 => ⟨S1x64x1048576, .f32⟩
  | 96 => ⟨S1x64x1048576, .f32⟩
  | 97 => ⟨S1x64x1048576, .f32⟩
  | 98 => ⟨S1x64x1048576, .f32⟩
  | 99 => ⟨S1x64x1048576, .f32⟩
  | 100 => ⟨S1x64x1048576, .f32⟩
  | 101 => ⟨S1x1048576x1, .f32⟩
  | 102 => ⟨S1x1048576, .f32⟩
  | 103 => ⟨S_, .f32⟩
  | 104 => ⟨S1x1048576, .f32⟩
  | 105 => ⟨S1x1048576, .f32⟩
  | 106 => ⟨S_, .f32⟩
  | 107 => ⟨S1x1048576, .f32⟩
  | 108 => ⟨S1x1048576, .f32⟩
  | 109 => ⟨S_, .f32⟩
  | 110 => ⟨S1x1048576, .f32⟩
  | 111 => ⟨S1x1048576, .f32⟩
  | 112 => ⟨S1x1048576, .f32⟩
  | 113 => ⟨S1x1048576, .f32⟩
  | 114 => ⟨S1x1x1048576, .f32⟩
  | 115 => ⟨S1x1048576, .i32⟩
  | 116 => ⟨S_, .i32⟩
  | 117 => ⟨S1x1048576, .i32⟩
  | 118 => ⟨S1x1048576, .i1⟩
  | 119 => ⟨S_, .i32⟩
  | 120 => ⟨S1x1048576, .i32⟩
  | 121 => ⟨S1x1048576, .i1⟩
  | 122 => ⟨S1x1048576, .i1⟩
  | 123 => ⟨S1x1048576, .f32⟩
  | 124 => ⟨S1x1x1048576, .f32⟩
  | 125 => ⟨S_, .i32⟩
  | 126 => ⟨S_, .i32⟩
  | 127 => ⟨S_, .i32⟩
  | _ => ⟨S1x1048576x3, .f32⟩

abbrev hbmTy0_2 (i : Nat) : BufTy := match i % 128 with
  | 0 => ⟨S1x1048576, .i32⟩
  | 1 => ⟨S1x1048576, .i32⟩
  | 2 => ⟨S_, .i32⟩
  | 3 => ⟨S1x1048576, .i32⟩
  | 4 => ⟨S1x1048576, .i32⟩
  | 5 => ⟨S1x1x1048576, .i32⟩
  | 6 => ⟨S_, .i32⟩
  | 7 => ⟨S1x1x1048576, .i32⟩
  | 8 => ⟨S1x1x1048576, .i1⟩
  | 9 => ⟨S_, .i32⟩
  | 10 => ⟨S1x1x1048576, .i32⟩
  | 11 => ⟨S1x1x1048576, .i32⟩
  | 12 => ⟨S1x1x1048576, .i32⟩
  | 13 => ⟨S1048576x1, .i32⟩
  | 14 => ⟨S1, .i32⟩
  | 15 => ⟨S_, .i32⟩
  | 16 => ⟨S1048576x1, .i32⟩
  | 17 => ⟨S1048576x1, .i1⟩
  | 18 => ⟨S1x1, .i32⟩
  | 19 => ⟨S1048576x1, .i32⟩
  | 20 => ⟨S1048576x1, .i1⟩
  | 21 => ⟨S1048576x1, .i1⟩
  | 22 => ⟨S_, .i1⟩
  | 23 => ⟨S1048576, .i1⟩
  | 24 => ⟨S1x64x1048576, .f32⟩
  | 25 => ⟨S1x64x1048576, .i1⟩
  | 26 => ⟨S_, .f32⟩
  | 27 => ⟨S1x64x1048576, .f32⟩
  | 28 => ⟨S1x64x1048576, .f32⟩
  | 29 => ⟨S1x64x1048576, .f32⟩
  | 30 => ⟨S1x64x1048576, .f32⟩
  | 31 => ⟨S_, .f32⟩
  | 32 => ⟨S1x1x1048576, .f32⟩
  | 33 => ⟨S1x1x1048576, .f32⟩
  | 34 => ⟨S1x64x1048576, .f32⟩
  | 35 => ⟨S1x64x1048576, .f32⟩
  | 36 => ⟨S_, .i32⟩
  | 37 => ⟨S1x1048576, .i32⟩
  | 38 => ⟨S1x1048576, .i32⟩
  | 39 => ⟨S_, .i32⟩
  | 40 => ⟨S1x1048576, .i32⟩
  | 41 => ⟨S1x1048576, .i1⟩
  | 42 => ⟨S_, .i32⟩
  | 43 => ⟨S1x1048576, .i32⟩
  | 44 => ⟨S1x1048576, .i1⟩
  | 45 => ⟨S1x1048576, .i1⟩
  | 46 => ⟨S1x1048576, .f32⟩
  | 47 => ⟨S1x1x1048576, .f32⟩
  | 48 => ⟨S_, .i32⟩
  | 49 => ⟨S_, .i32⟩
  | 50 => ⟨S_, .i32⟩
  | 51 => ⟨S1x1048576, .i32⟩
  | 52 => ⟨S1x1048576, .i32⟩
  | 53 => ⟨S_, .i32⟩
  | 54 => ⟨S1x1048576, .i32⟩
  | 55 => ⟨S1x1048576, .i32⟩
  | 56 => ⟨S1x1x1048576, .i32⟩
  | 57 => ⟨S_, .i32⟩
  | 58 => ⟨S1x1x1048576, .i32⟩
  | 59 => ⟨S1x1x1048576, .i1⟩
  | 60 => ⟨S_, .i32⟩
  | 61 => ⟨S1x1x1048576, .i32⟩
  | 62 => ⟨S1x1x1048576, .i32⟩
  | 63 => ⟨S1x1x1048576, .i32⟩
  | 64 => ⟨S1048576x1, .i32⟩
  | 65 => ⟨S1, .i32⟩
  | 66 => ⟨S_, .i32⟩
  | 67 => ⟨S1048576x1, .i32⟩
  | 68 => ⟨S1048576x1, .i1⟩
  | 69 => ⟨S1x1, .i32⟩
  | 70 => ⟨S1048576x1, .i32⟩
  | 71 => ⟨S1048576x1, .i1⟩
  | 72 => ⟨S1048576x1, .i1⟩
  | 73 => ⟨S_, .i1⟩
  | 74 => ⟨S1048576, .i1⟩
  | 75 => ⟨S1x64x1048576, .f32⟩
  | 76 => ⟨S1x64x1048576, .i1⟩
  | 77 => ⟨S_, .f32⟩
  | 78 => ⟨S1x64x1048576, .f32⟩
  | 79 => ⟨S1x64x1048576, .f32⟩
  | 80 => ⟨S1x64x1048576, .f32⟩
  | 81 => ⟨S1x64x1048576, .f32⟩
  | 82 => ⟨S1x64x1048576, .f32⟩
  | 83 => ⟨S1x64x1048576, .f32⟩
  | 84 => ⟨S1x64x1048576, .f32⟩
  | 85 => ⟨S1x64x1048576, .f32⟩
  | 86 => ⟨S1x64x1048576, .f32⟩
  | 87 => ⟨S1x1048576x32, .f32⟩
  | _ => ⟨S1x1048576x3, .f32⟩

abbrev hbmTy (i : Nat) : BufTy := match i / 128 with
  | 0 => hbmTy0_0 i
  | 1 => hbmTy0_1 i
  | 2 => hbmTy0_2 i
  | _ => ⟨S1x1048576x3, .f32⟩

abbrev bufTy : (tb : Table) → Fin (tcTables nBuf tb) → BufTy
  | .hbm, ⟨i, _⟩ => hbmTy i
  | _, _ => ⟨S1x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩
abbrev main_v20 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_6 : Ref sig .tc := ⟨.hbm, 68, rfl⟩
abbrev main_v28 : Ref sig .tc := ⟨.hbm, 69, rfl⟩
abbrev main_v29 : Ref sig .tc := ⟨.hbm, 70, rfl⟩
abbrev main_c_7 : Ref sig .tc := ⟨.hbm, 71, rfl⟩
abbrev main_v30 : Ref sig .tc := ⟨.hbm, 72, rfl⟩
abbrev main_v31 : Ref sig .tc := ⟨.hbm, 73, rfl⟩
abbrev main_c_8 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_c_9 : Ref sig .tc := ⟨.hbm, 80, rfl⟩
abbrev main_c_10 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v37 : Ref sig .tc := ⟨.hbm, 87, rfl⟩
abbrev main_v38 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_11 : Ref sig .tc := ⟨.hbm, 119, rfl⟩
abbrev main_v47 : Ref sig .tc := ⟨.hbm, 120, rfl⟩
abbrev main_v48 : Ref sig .tc := ⟨.hbm, 121, rfl⟩
abbrev main_cst_12 : Ref sig .tc := ⟨.hbm, 122, rfl⟩
abbrev main_v49 : Ref sig .tc := ⟨.hbm, 123, rfl⟩
abbrev main_v50 : Ref sig .tc := ⟨.hbm, 124, rfl⟩
abbrev main_cst_13 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_c_14 : Ref sig .tc := ⟨.hbm, 132, rfl⟩
abbrev main_v57 : Ref sig .tc := ⟨.hbm, 133, rfl⟩
abbrev main_v58 : Ref sig .tc := ⟨.hbm, 134, rfl⟩
abbrev main_c_15 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_c_16 : Ref sig .tc := ⟨.hbm, 141, rfl⟩
abbrev main_c_17 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v64 : Ref sig .tc := ⟨.hbm, 148, rfl⟩
abbrev main_v65 : Ref sig .tc := ⟨.hbm, 149, rfl⟩
abbrev main_call5_c : Ref sig .tc := ⟨.hbm, 150, rfl⟩
abbrev main_call5_v0 : Ref sig .tc := ⟨.hbm, 151, rfl⟩
abbrev main_call5_v1 : Ref sig .tc := ⟨.hbm, 152, rfl⟩
abbrev main_call5_c_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_c_1 : Ref sig .tc := ⟨.hbm, 158, rfl⟩
abbrev main_call5_c_2 : Ref sig .tc := ⟨.hbm, 159, rfl⟩
abbrev main_call5_v6 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_3 : Ref sig .tc := ⟨.hbm, 166, rfl⟩
abbrev main_call5_v12 : Ref sig .tc := ⟨.hbm, 167, rfl⟩
abbrev main_call5_v13 : Ref sig .tc := ⟨.hbm, 168, rfl⟩
abbrev main_call5_v14 : Ref sig .tc := ⟨.hbm, 169, rfl⟩
abbrev main_call5_cst : Ref sig .tc := ⟨.hbm, 170, rfl⟩
abbrev main_call5_v15 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_cst_18 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_c_19 : Ref sig .tc := ⟨.hbm, 180, rfl⟩
abbrev main_v73 : Ref sig .tc := ⟨.hbm, 181, rfl⟩
abbrev main_v74 : Ref sig .tc := ⟨.hbm, 182, rfl⟩
abbrev main_c_20 : Ref sig .tc := ⟨.hbm, 183, rfl⟩
abbrev main_v75 : Ref sig .tc := ⟨.hbm, 184, rfl⟩
abbrev main_v76 : Ref sig .tc := ⟨.hbm, 185, rfl⟩
abbrev main_c_21 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_c_22 : Ref sig .tc := ⟨.hbm, 192, rfl⟩
abbrev main_c_23 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_v82 : Ref sig .tc := ⟨.hbm, 199, rfl⟩
abbrev main_v83 : Ref sig .tc := ⟨.hbm, 200, rfl⟩
abbrev main_call7_c : Ref sig .tc := ⟨.hbm, 201, rfl⟩
abbrev main_call7_v0 : Ref sig .tc := ⟨.hbm, 202, rfl⟩
abbrev main_call7_v1 : Ref sig .tc := ⟨.hbm, 203, rfl⟩
abbrev main_call7_c_0 : Ref sig .tc := ⟨.hbm, 204, rfl⟩
abbrev main_call7_v2 : Ref sig .tc := ⟨.hbm, 205, rfl⟩
abbrev main_call7_v3 : Ref sig .tc := ⟨.hbm, 206, rfl⟩
abbrev main_call7_v4 : Ref sig .tc := ⟨.hbm, 207, rfl⟩
abbrev main_call7_v5 : Ref sig .tc := ⟨.hbm, 208, rfl⟩
abbrev main_call7_c_1 : Ref sig .tc := ⟨.hbm, 209, rfl⟩
abbrev main_call7_c_2 : Ref sig .tc := ⟨.hbm, 210, rfl⟩
abbrev main_call7_v6 : Ref sig .tc := ⟨.hbm, 211, rfl⟩
abbrev main_call7_v7 : Ref sig .tc := ⟨.hbm, 212, rfl⟩
abbrev main_call7_v8 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_call7_c_3 : Ref sig .tc := ⟨.hbm, 217, rfl⟩
abbrev main_call7_v12 : Ref sig .tc := ⟨.hbm, 218, rfl⟩
abbrev main_call7_v13 : Ref sig .tc := ⟨.hbm, 219, rfl⟩
abbrev main_call7_v14 : Ref sig .tc := ⟨.hbm, 220, rfl⟩
abbrev main_call7_cst : Ref sig .tc := ⟨.hbm, 221, rfl⟩
abbrev main_call7_v15 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_cst_24 : Ref sig .tc := ⟨.hbm, 231, rfl⟩
abbrev main_v92 : Ref sig .tc := ⟨.hbm, 232, rfl⟩
abbrev main_v93 : Ref sig .tc := ⟨.hbm, 233, rfl⟩
abbrev main_cst_25 : Ref sig .tc := ⟨.hbm, 234, rfl⟩
abbrev main_v94 : Ref sig .tc := ⟨.hbm, 235, rfl⟩
abbrev main_v95 : Ref sig .tc := ⟨.hbm, 236, rfl⟩
abbrev main_cst_26 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_v101 : Ref sig .tc := ⟨.hbm, 243, rfl⟩
abbrev main_c_27 : Ref sig .tc := ⟨.hbm, 244, rfl⟩
abbrev main_v102 : Ref sig .tc := ⟨.hbm, 245, rfl⟩
abbrev main_v103 : Ref sig .tc := ⟨.hbm, 246, rfl⟩
abbrev main_c_28 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_c_29 : Ref sig .tc := ⟨.hbm, 253, rfl⟩
abbrev main_c_30 : Ref sig .tc := ⟨.hbm, 254, rfl⟩
abbrev main_call8_v0 : Ref sig .tc := ⟨.hbm, 255, rfl⟩
abbrev main_call8_v1 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_v109 : Ref sig .tc := ⟨.hbm, 260, rfl⟩
abbrev main_v110 : Ref sig .tc := ⟨.hbm, 261, rfl⟩
abbrev main_call9_c : Ref sig .tc := ⟨.hbm, 262, rfl⟩
abbrev main_call9_v0 : Ref sig .tc := ⟨.hbm, 263, rfl⟩
abbrev main_call9_v1 : Ref sig .tc := ⟨.hbm, 264, rfl⟩
abbrev main_call9_c_0 : Ref sig .tc := ⟨.hbm, 265, rfl⟩
abbrev main_call9_v2 : Ref sig .tc := ⟨.hbm, 266, rfl⟩
abbrev main_call9_v3 : Ref sig .tc := ⟨.hbm, 267, rfl⟩
abbrev main_call9_v4 : Ref sig .tc := ⟨.hbm, 268, rfl⟩
abbrev main_call9_v5 : Ref sig .tc := ⟨.hbm, 269, rfl⟩
abbrev main_call9_c_1 : Ref sig .tc := ⟨.hbm, 270, rfl⟩
abbrev main_call9_c_2 : Ref sig .tc := ⟨.hbm, 271, rfl⟩
abbrev main_call9_v6 : Ref sig .tc := ⟨.hbm, 272, rfl⟩
abbrev main_call9_v7 : Ref sig .tc := ⟨.hbm, 273, rfl⟩
abbrev main_call9_v8 : Ref sig .tc := ⟨.hbm, 274, rfl⟩
abbrev main_call9_v9 : Ref sig .tc := ⟨.hbm, 275, rfl⟩
abbrev main_call9_v10 : Ref sig .tc := ⟨.hbm, 276, rfl⟩
abbrev main_call9_v11 : Ref sig .tc := ⟨.hbm, 277, rfl⟩
abbrev main_call9_c_3 : Ref sig .tc := ⟨.hbm, 278, rfl⟩
abbrev main_call9_v12 : Ref sig .tc := ⟨.hbm, 279, rfl⟩
abbrev main_call9_v13 : Ref sig .tc := ⟨.hbm, 280, rfl⟩
abbrev main_call9_v14 : Ref sig .tc := ⟨.hbm, 281, rfl⟩
abbrev main_call9_cst : Ref sig .tc := ⟨.hbm, 282, rfl⟩
abbrev main_call9_v15 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩
abbrev main_cst_31 : Ref sig .tc := ⟨.hbm, 287, rfl⟩
abbrev main_v114 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_c_32 : Ref sig .tc := ⟨.hbm, 292, rfl⟩
abbrev main_v118 : Ref sig .tc := ⟨.hbm, 293, rfl⟩
abbrev main_v119 : Ref sig .tc := ⟨.hbm, 294, rfl⟩
abbrev main_c_33 : Ref sig .tc := ⟨.hbm, 295, rfl⟩
abbrev main_v120 : Ref sig .tc := ⟨.hbm, 296, rfl⟩
abbrev main_v121 : Ref sig .tc := ⟨.hbm, 297, rfl⟩
abbrev main_c_34 : Ref sig .tc := ⟨.hbm, 298, rfl⟩
abbrev main_v122 : Ref sig .tc := ⟨.hbm, 299, rfl⟩
abbrev main_v123 : Ref sig .tc := ⟨.hbm, 300, rfl⟩
abbrev main_v124 : Ref sig .tc := ⟨.hbm, 301, rfl⟩
abbrev main_v125 : Ref sig .tc := ⟨.hbm, 302, rfl⟩
abbrev main_v126 : Ref sig .tc := ⟨.hbm, 303, rfl⟩
abbrev main_c_35 : Ref sig .tc := ⟨.hbm, 304, rfl⟩
abbrev main_c_36 : Ref sig .tc := ⟨.hbm, 305, rfl⟩
abbrev main_call10_v0 : Ref sig .tc := ⟨.hbm, 306, rfl⟩
abbrev main_call10_v1 : Ref sig .tc := ⟨.hbm, 307, rfl⟩
abbrev main_call10_v2 : Ref sig .tc := ⟨.hbm, 308, rfl⟩
abbrev main_call10_v3 : Ref sig .tc := ⟨.hbm, 309, rfl⟩
abbrev main_call10_v4 : Ref sig .tc := ⟨.hbm, 310, rfl⟩
abbrev main_v127 : Ref sig .tc := ⟨.hbm, 311, rfl⟩
abbrev main_v128 : Ref sig .tc := ⟨.hbm, 312, rfl⟩
abbrev main_call11_c : Ref sig .tc := ⟨.hbm, 313, rfl⟩
abbrev main_call11_v0 : Ref sig .tc := ⟨.hbm, 314, rfl⟩
abbrev main_call11_v1 : Ref sig .tc := ⟨.hbm, 315, rfl⟩
abbrev main_call11_c_0 : Ref sig .tc := ⟨.hbm, 316, rfl⟩
abbrev main_call11_v2 : Ref sig .tc := ⟨.hbm, 317, rfl⟩
abbrev main_call11_v3 : Ref sig .tc := ⟨.hbm, 318, rfl⟩
abbrev main_call11_v4 : Ref sig .tc := ⟨.hbm, 319, rfl⟩
abbrev main_call11_v5 : Ref sig .tc := ⟨.hbm, 320, rfl⟩
abbrev main_call11_c_1 : Ref sig .tc := ⟨.hbm, 321, rfl⟩
abbrev main_call11_c_2 : Ref sig .tc := ⟨.hbm, 322, rfl⟩
abbrev main_call11_v6 : Ref sig .tc := ⟨.hbm, 323, rfl⟩
abbrev main_call11_v7 : Ref sig .tc := ⟨.hbm, 324, rfl⟩
abbrev main_call11_v8 : Ref sig .tc := ⟨.hbm, 325, rfl⟩
abbrev main_call11_v9 : Ref sig .tc := ⟨.hbm, 326, rfl⟩
abbrev main_call11_v10 : Ref sig .tc := ⟨.hbm, 327, rfl⟩
abbrev main_call11_v11 : Ref sig .tc := ⟨.hbm, 328, rfl⟩
abbrev main_call11_c_3 : Ref sig .tc := ⟨.hbm, 329, rfl⟩
abbrev main_call11_v12 : Ref sig .tc := ⟨.hbm, 330, rfl⟩
abbrev main_call11_v13 : Ref sig .tc := ⟨.hbm, 331, rfl⟩
abbrev main_call11_v14 : Ref sig .tc := ⟨.hbm, 332, rfl⟩
abbrev main_call11_cst : Ref sig .tc := ⟨.hbm, 333, rfl⟩
abbrev main_call11_v15 : Ref sig .tc := ⟨.hbm, 334, rfl⟩
abbrev main_v129 : Ref sig .tc := ⟨.hbm, 335, rfl⟩
abbrev main_v130 : Ref sig .tc := ⟨.hbm, 336, rfl⟩
abbrev main_v131 : Ref sig .tc := ⟨.hbm, 337, rfl⟩
abbrev main_v132 : Ref sig .tc := ⟨.hbm, 338, rfl⟩
abbrev main_v133 : Ref sig .tc := ⟨.hbm, 339, rfl⟩
abbrev main_v134 : Ref sig .tc := ⟨.hbm, 340, rfl⟩
abbrev main_v135 : Ref sig .tc := ⟨.hbm, 341, rfl⟩
abbrev main_v136 : Ref sig .tc := ⟨.hbm, 342, rfl⟩
abbrev main_v137 : Ref sig .tc := ⟨.hbm, 343, rfl⟩

abbrev nD : Nat := 1
abbrev τ : Topo := Topo.v7x

variable {F : FTy → Type} [FloatOps F]

class Facts₀ : Prop where
  slices_S1x1048576x3_S1x1048576x1_0_0_0 : S1x1048576x3.Slices ![0, 0, 0] S1x1048576x1
  shapeCasts_S1x1048576x1_S1x1048576 : S1x1048576x1.ShapeCasts S1x1048576
  bcast_S_S1x1048576 : S_.BroadcastsInDim S1x1048576 (![] : Fin 0 → Fin S1x1048576.rank)
  bcast_S1x1048576_S1x1x1048576_0_2 : S1x1048576.BroadcastsInDim S1x1x1048576 (![0, 2] : Fin 2 → Fin S1x1x1048576.rank)
  bcast_S_S1x1x1048576 : S_.BroadcastsInDim S1x1x1048576 (![] : Fin 0 → Fin S1x1x1048576.rank)
  shapeCasts_S1x1x1048576_S1048576x1 : S1x1x1048576.ShapeCasts S1048576x1
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1x64x1048576_2 : S1048576.BroadcastsInDim S1x64x1048576 (![2] : Fin 1 → Fin S1x64x1048576.rank)
  bcast_S_S1x64x1048576 : S_.BroadcastsInDim S1x64x1048576 (![] : Fin 0 → Fin S1x64x1048576.rank)
  bcast_S1x1x1048576_S1x64x1048576_0_1_2 : S1x1x1048576.BroadcastsInDim S1x64x1048576 (![0, 1, 2] : Fin 3 → Fin S1x64x1048576.rank)
  slices_S1x1048576x3_S1x1048576x1_0_0_1 : S1x1048576x3.Slices ![0, 0, 1] S1x1048576x1
  slices_S1x1048576x3_S1x1048576x1_0_0_2 : S1x1048576x3.Slices ![0, 0, 2] S1x1048576x1
  gather_S1x64x512_S1048576x1_S1x64x1048576_01_2_n_n_2_1_1641_wf : GatherDims.WF S1x64x512 S1048576x1 S1x64x1048576 [0, 1] [2] [] [2] [] 1 ![1, 64, 1]
  dot_S1x64x1048576_S1x64x32_S1x1048576x32_1_1_2_2_0_0_wf : DotDims.WF S1x64x1048576 S1x64x32 S1x1048576x32 [1] [1] [2] [2] [0] [0]

variable [Facts₀]

def gather_S1x64x512_S1048576x1_S1x64x1048576_01_2_n_n_2_1_1641 : GatherDims S1x64x512 S1048576x1 S1x64x1048576 where
  offsetDims := [0, 1]
  collapsedSliceDims := [2]
  operandBatchingDims := []
  startIndicesBatchingDims := []
  startIndexMap := [2]
  indexVectorDim := 1
  sliceSizes := ![1, 64, 1]
  wf := gather_S1x64x512_S1048576x1_S1x64x1048576_01_2_n_n_2_1_1641_wf
def dot_S1x64x1048576_S1x64x32_S1x1048576x32_1_1_2_2_0_0 : DotDims S1x64x1048576 S1x64x32 S1x1048576x32 where
  lhsContracting := [1]
  rhsContracting := [1]
  lhsNonContracting := [2]
  rhsNonContracting := [2]
  lhsBatch := [0]
  rhsBatch := [0]
  wf := dot_S1x64x1048576_S1x64x32_S1x1048576x32_1_1_2_2_0_0_wf

class Facts : Prop extends Facts₀ where

variable [Facts]
-- ==== Proof.RefStretches.lean ====
/-
  The reference's list of host operations in four stretches.

  In order: the x axis' interpolation (operations 1 to 112), the y axis' (113 to 224), the z axis' (225 to 336), and the
  three closing operations (the two products and the contraction with the basis).
-/
import proofs.«413230_j69423851373082_3_alg».proof.Proof.RefRun

noncomputable section

namespace Cert.Voxel.RefRunSide

open Idealize.ShloMosaic Idealize.ShloMosaic.StableHlo
open Cert.ReferenceIdeal Cert.ReferenceIdeal.ValueP

variable {F : FTy → Type} [FloatOps F]

/-- The operations from the y axis' on, from the z axis' on, and the three closing ones. -/
abbrev opsFromY : List (HloOp τ sig (Elt F)) := ops.drop 112
abbrev opsFromZ : List (HloOp τ sig (Elt F)) := (ops.drop 112).drop 112
abbrev opsClose : List (HloOp τ sig (Elt F)) := ((ops.drop 112).drop 112).drop 112

/-- The list is its four stretches in order. -/
theorem ops_stretches : (ops : List (HloOp τ sig (Elt F)))
    = ops.take 112 ++ ((opsFromY (F := F)).take 112 ++ ((opsFromZ (F := F)).take 112 ++ opsClose)) := by
  show _ = ops.take 112 ++ ((ops.drop 112).take 112 ++ (((ops.drop 112).drop 112).take 112 ++ ((ops.drop 112).drop 112).drop 112))
  rw [List.take_append_drop, List.take_append_drop, List.take_append_drop]

end Cert.Voxel.RefRunSide

end
-- ==== Proof.RefAxisX.lean ====
/-
  The x axis of the reference, read off its 112 operations.

  An axis' interpolation is: the grid coordinate, its cell and weight; the left neighbour read by a clamped gather under
  an in-bounds mask (an AND-reduction over an axis of size one, operation 51) times the on-line indicator, times 1 − weight
  (the left term, operation 63); the same for the right neighbour (its reduction is operation 102) times the weight; and
  their sum. Each reduction is read on its own; every buffer that does not depend on a reduction's result is read off a
  prefix of the list in one pass; only the chain mask → left term → axis value is threaded through hypotheses.
-/
import proofs.«413230_j69423851373082_3_alg».proof.Proof.RefStretches
import proofs.«413230_j69423851373082_3_alg».proof.Proof.RefRead
import Idealize.ShloMosaic.Lib.Pipeline.Frame

set_option maxRecDepth 65536

noncomputable section

namespace Cert.Voxel.RefRunSide

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

set_option maxHeartbeats 4000000 in
/-- Before the left reduction: its operand and its initial value. -/
theorem x_pre_left (V : Valuation τ sig (Elt F)) :
    after (ops.take 50) V (Proc.devRef .tc main_call1_v11) = val_main_call1_v11 (F := F) (V (Proc.devRef .tc main_arg0))
    ∧ after (ops.take 50) V (Proc.devRef .tc main_call1_c_3) = val_main_call1_c_3 (F := F) := by
  simp only [ops, List.take_succ_cons, List.take_zero]
  refine ⟨?_, ?_⟩
  all_goals after_results_simp
  all_goals (try simp only [TRef.ofBuf, TRef.toBuf, cast_eq])
  all_goals rfl

set_option maxHeartbeats 4000000 in
/-- The left reduction alone. -/
theorem x_red_left (W : Valuation τ sig (Elt F)) :
    after ((ops.drop 50).take 1) W (Proc.devRef .tc main_call1_v12)
      = Host.reduce IntOp.andi (W (Proc.devRef .tc main_call1_v11)) (W (Proc.devRef .tc main_call1_c_3)) reducesTo_S1048576x1_S1048576_d1 h_S_ := by
  have h : after ((ops.drop 50).take 1) W (Proc.devRef .tc main_call1_v12)
      = (TRef.of (T := ⟨S1048576, .i1⟩) main_call1_v12).toBuf (Val := Elt F)
          (Host.reduce IntOp.andi
            ((TRef.of (T := ⟨S1048576x1, .i1⟩) main_call1_v11).ofBuf (Val := Elt F) (W (Proc.devRef .tc main_call1_v11)))
            ((TRef.of (T := ⟨S_, .i1⟩) main_call1_c_3).ofBuf (Val := Elt F) (W (Proc.devRef .tc main_call1_c_3)))
            reducesTo_S1048576x1_S1048576_d1 h_S_) := by
    simp only [ops, List.drop_succ_cons, List.drop_zero, List.take_succ_cons, List.take_zero]
    rw [after_cons, after_nil, binary_result']
  refine h.trans ?_
  simp only [TRef.ofBuf, TRef.toBuf, cast_eq]

/-- After the left reduction: the in-bounds mask. -/
theorem x_mask_left (V : Valuation τ sig (Elt F)) :
    after (ops.take 51) V (Proc.devRef .tc main_call1_v12) = val_main_call1_v12 (F := F) (V (Proc.devRef .tc main_arg0)) := by
  have hs : (ops.take 51 : List (HloOp τ sig (Elt F))) = ops.take 50 ++ (ops.drop 50).take 1 :=
    List.take_add (l := ops) (i := 50) (j := 1)
  rw [hs, after_append, x_red_left, (x_pre_left (F := F) V).1, (x_pre_left (F := F) V).2]
  unfold val_main_call1_v12
  rfl

set_option maxHeartbeats 4000000 in
/-- What else the left term reads, none of it depending on the reduction. -/
theorem x_side_left (V : Valuation τ sig (Elt F)) :
    after (ops.take 51) V (Proc.devRef .tc main_arg1) = V (Proc.devRef .tc main_arg1)
    ∧ after (ops.take 51) V (Proc.devRef .tc main_call1_v5) = val_main_call1_v5 (F := F) (V (Proc.devRef .tc main_arg0))
    ∧ after (ops.take 51) V (Proc.devRef .tc main_v18) = val_main_v18 (F := F) (V (Proc.devRef .tc main_arg0))
    ∧ after (ops.take 51) V (Proc.devRef .tc main_v10) = val_main_v10 (F := F) (V (Proc.devRef .tc main_arg0)) := by
  simp only [ops, List.take_succ_cons, List.take_zero]
  refine ⟨?_, ?_, ?_, ?_⟩
  all_goals after_results_simp
  all_goals (try simp only [TRef.ofBuf, TRef.toBuf, cast_eq])
  all_goals rfl

set_option maxHeartbeats 4000000 in
/-- The twelve operations from the gather to the left term. -/
theorem x_mid (W : Valuation τ sig (Elt F)) (A0 : (⟨S1x1048576x3, .f32⟩ : BufTy).Contents (Elt F))
    (A1 : (⟨S1x64x512, .f32⟩ : BufTy).Contents (Elt F))
    (h12 : W (Proc.devRef .tc main_call1_v12) = val_main_call1_v12 (F := F) A0)
    (h1 : W (Proc.devRef .tc main_arg1) = A1)
    (h5 : W (Proc.devRef .tc main_call1_v5) = val_main_call1_v5 (F := F) A0)
    (h18 : W (Proc.devRef .tc main_v18) = val_main_v18 (F := F) A0)
    (h10 : W (Proc.devRef .tc main_v10) = val_main_v10 (F := F) A0) :
    after ((ops.drop 51).take 12) W (Proc.devRef .tc main_v27) = val_main_v27 (F := F) A0 A1 := by
  simp only [ops, List.drop_succ_cons, List.drop_zero, List.take_succ_cons, List.take_zero]
  after_results_simp
  simp only [TRef.ofBuf, TRef.toBuf, cast_eq]
  rw [h12, h1, h5, h18, h10]
  rfl

/-- The left term, after the first 63 operations. -/
theorem x_left (V : Valuation τ sig (Elt F)) :
    after (ops.take 63) V (Proc.devRef .tc main_v27)
      = val_main_v27 (F := F) (V (Proc.devRef .tc main_arg0)) (V (Proc.devRef .tc main_arg1)) := by
  have hs : (ops.take 63 : List (HloOp τ sig (Elt F))) = ops.take 51 ++ (ops.drop 51).take 12 :=
    List.take_add (l := ops) (i := 51) (j := 12)
  rw [hs, after_append]
  obtain ⟨h1, h5, h18, h10⟩ := x_side_left (F := F) V
  exact x_mid _ _ _ (x_mask_left V) h1 h5 h18 h10

set_option maxHeartbeats 4000000 in
/-- Before the right reduction: its operand and its initial value. -/
theorem x_pre_right (V : Valuation τ sig (Elt F)) :
    after (ops.take 101) V (Proc.devRef .tc main_call3_v11) = val_main_call3_v11 (F := F) (V (Proc.devRef .tc main_arg0))
    ∧ after (ops.take 101) V (Proc.devRef .tc main_call3_c_3) = val_main_call3_c_3 (F := F) := by
  simp only [ops, List.take_succ_cons, List.take_zero]
  refine ⟨?_, ?_⟩
  all_goals after_results_simp
  all_goals (try simp only [TRef.ofBuf, TRef.toBuf, cast_eq])
  all_goals rfl

set_option maxHeartbeats 4000000 in
/-- The right reduction alone. -/
theorem x_red_right (W : Valuation τ sig (Elt F)) :
    after ((ops.drop 101).take 1) W (Proc.devRef .tc main_call3_v12)
      = Host.reduce IntOp.andi (W (Proc.devRef .tc main_call3_v11)) (W (Proc.devRef .tc main_call3_c_3)) reducesTo_S1048576x1_S1048576_d1 h_S_ := by
  have h : after ((ops.drop 101).take 1) W (Proc.devRef .tc main_call3_v12)
      = (TRef.of (T := ⟨S1048576, .i1⟩) main_call3_v12).toBuf (Val := Elt F)
          (Host.reduce IntOp.andi
            ((TRef.of (T := ⟨S1048576x1, .i1⟩) main_call3_v11).ofBuf (Val := Elt F) (W (Proc.devRef .tc main_call3_v11)))
            ((TRef.of (T := ⟨S_, .i1⟩) main_call3_c_3).ofBuf (Val := Elt F) (W (Proc.devRef .tc main_call3_c_3)))
            reducesTo_S1048576x1_S1048576_d1 h_S_) := by
    simp only [ops, List.drop_succ_cons, List.drop_zero, List.take_succ_cons, List.take_zero]
    rw [after_cons, after_nil, binary_result']
  refine h.trans ?_
  simp only [TRef.ofBuf, TRef.toBuf, cast_eq]

/-- After the right reduction: the in-bounds mask. -/
theorem x_mask_right (V : Valuation τ sig (Elt F)) :
    after (ops.take 102) V (Proc.devRef .tc main_call3_v12) = val_main_call3_v12 (F := F) (V (Proc.devRef .tc main_arg0)) := by
  have hs : (ops.take 102 : List (HloOp τ sig (Elt F))) = ops.take 101 ++ (ops.drop 101).take 1 :=
    List.take_add (l := ops) (i := 101) (j := 1)
  rw [hs, after_append, x_red_right, (x_pre_right (F := F) V).1, (x_pre_right (F := F) V).2]
  unfold val_main_call3_v12
  rfl

set_option maxHeartbeats 4000000 in
/-- What else the right term reads, none of it depending on a reduction. -/
theorem x_side_right (V : Valuation τ sig (Elt F)) :
    after (ops.take 102) V (Proc.devRef .tc main_arg1) = V (Proc.devRef .tc main_arg1)
    ∧ after (ops.take 102) V (Proc.devRef .tc main_call3_v5) = val_main_call3_v5 (F := F) (V (Proc.devRef .tc main_arg0))
    ∧ after (ops.take 102) V (Proc.devRef .tc main_v36) = val_main_v36 (F := F) (V (Proc.devRef .tc main_arg0))
    ∧ after (ops.take 102) V (Proc.devRef .tc main_v10) = val_main_v10 (F := F) (V (Proc.devRef .tc main_arg0)) := by
  simp only [ops, List.take_succ_cons, List.take_zero]
  refine ⟨?_, ?_, ?_, ?_⟩
  all_goals after_results_simp
  all_goals (try simp only [TRef.ofBuf, TRef.toBuf, cast_eq])
  all_goals rfl

set_option maxHeartbeats 4000000 in
/-- Operations 64 to 102 do not write the left term. -/
theorem x_keep_left (W : Valuation τ sig (Elt F)) :
    after ((ops.drop 63).take 39) W (Proc.devRef .tc main_v27) = W (Proc.devRef .tc main_v27) := by
  simp only [ops, List.drop_succ_cons, List.drop_zero, List.take_succ_cons, List.take_zero]
  after_results_simp

set_option maxHeartbeats 4000000 in
/-- The last ten operations: the right term, added to the left one. -/
theorem x_last (W : Valuation τ sig (Elt F)) (A0 : (⟨S1x1048576x3, .f32⟩ : BufTy).Contents (Elt F))
    (A1 : (⟨S1x64x512, .f32⟩ : BufTy).Contents (Elt F))
    (h12 : W (Proc.devRef .tc main_call3_v12) = val_main_call3_v12 (F := F) A0)
    (h1 : W (Proc.devRef .tc main_arg1) = A1)
    (h5 : W (Proc.devRef .tc main_call3_v5) = val_main_call3_v5 (F := F) A0)
    (h36 : W (Proc.devRef .tc main_v36) = val_main_v36 (F := F) A0)
    (h10 : W (Proc.devRef .tc main_v10) = val_main_v10 (F := F) A0)
    (h27 : W (Proc.devRef .tc main_v27) = val_main_v27 (F := F) A0 A1) :
    after ((ops.drop 102).take 10) W (Proc.devRef .tc main_v44) = val_main_v44 (F := F) A0 A1 := by
  simp only [ops, List.drop_succ_cons, List.drop_zero, List.take_succ_cons, List.take_zero]
  after_results_simp
  simp only [TRef.ofBuf, TRef.toBuf, cast_eq]
  rw [h12, h1, h5, h36, h10, h27]
  rfl

/-- The x axis' 112 operations leave its interpolated value. -/
theorem x_axis (V : Valuation τ sig (Elt F)) :
    after (ops.take 112) V (Proc.devRef .tc main_v44)
      = val_main_v44 (F := F) (V (Proc.devRef .tc main_arg0)) (V (Proc.devRef .tc main_arg1)) := by
  have hs : (ops.take 112 : List (HloOp τ sig (Elt F))) = ops.take 102 ++ (ops.drop 102).take 10 :=
    List.take_add (l := ops) (i := 102) (j := 10)
  rw [hs, after_append]
  obtain ⟨h1, h5, h36, h10⟩ := x_side_right (F := F) V
  have h27 : after (ops.take 102) V (Proc.devRef .tc main_v27)
      = val_main_v27 (F := F) (V (Proc.devRef .tc main_arg0)) (V (Proc.devRef .tc main_arg1)) := by
    have hs2 : (ops.take 102 : List (HloOp τ sig (Elt F))) = ops.take 63 ++ (ops.drop 63).take 39 :=
      List.take_add (l := ops) (i := 63) (j := 39)
    rw [hs2, after_append, x_keep_left, x_left]
  exact x_last _ _ _ (x_mask_right V) h1 h5 h36 h10 h27

end Cert.Voxel.RefRunSide

end
-- ==== Proof.RefAxisY.lean ====
/-
  The y axis of the reference, read off its 112 operations (113 to 224 of the list).

  The same walk as for the x axis over the y axis' own buffers: the two in-bounds reductions (the axis' operations 51 and
  102) are read on their own, every buffer that does not depend on a reduction's result is read off a prefix in one pass,
  and the chain mask → left term → axis value is threaded through hypotheses.
-/
import proofs.«413230_j69423851373082_3_alg».proof.Proof.RefStretches
import proofs.«413230_j69423851373082_3_alg».proof.Proof.RefRead
import Idealize.ShloMosaic.Lib.Pipeline.Frame

set_option maxRecDepth 65536

noncomputable section

namespace Cert.Voxel.RefRunSide

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

set_option maxHeartbeats 4000000 in
/-- Before the left reduction: its operand and its initial value. -/
theorem y_pre_left (V : Valuation τ sig (Elt F)) :
    after ((opsFromY (F := F)).take 50) V (Proc.devRef .tc main_call5_v11) = val_main_call5_v11 (F := F) (V (Proc.devRef .tc main_arg0))
    ∧ after ((opsFromY (F := F)).take 50) V (Proc.devRef .tc main_call5_c_3) = val_main_call5_c_3 (F := F) := by
  simp only [opsFromY, ops, List.drop_succ_cons, List.drop_zero, List.take_succ_cons, List.take_zero]
  refine ⟨?_, ?_⟩
  all_goals after_results_simp
  all_goals (try simp only [TRef.ofBuf, TRef.toBuf, cast_eq])
  all_goals rfl

set_option maxHeartbeats 4000000 in
/-- The left reduction alone. -/
theorem y_red_left (W : Valuation τ sig (Elt F)) :
    after (((opsFromY (F := F)).drop 50).take 1) W (Proc.devRef .tc main_call5_v12)
      = Host.reduce IntOp.andi (W (Proc.devRef .tc main_call5_v11)) (W (Proc.devRef .tc main_call5_c_3)) reducesTo_S1048576x1_S1048576_d1 h_S_ := by
  have h : after (((opsFromY (F := F)).drop 50).take 1) W (Proc.devRef .tc main_call5_v12)
      = (TRef.of (T := ⟨S1048576, .i1⟩) main_call5_v12).toBuf (Val := Elt F)
          (Host.reduce IntOp.andi
            ((TRef.of (T := ⟨S1048576x1, .i1⟩) main_call5_v11).ofBuf (Val := Elt F) (W (Proc.devRef .tc main_call5_v11)))
            ((TRef.of (T := ⟨S_, .i1⟩) main_call5_c_3).ofBuf (Val := Elt F) (W (Proc.devRef .tc main_call5_c_3)))
            reducesTo_S1048576x1_S1048576_d1 h_S_) := by
    simp only [opsFromY, ops, List.drop_succ_cons, List.drop_zero, List.take_succ_cons, List.take_zero]
    rw [after_cons, after_nil, binary_result']
  refine h.trans ?_
  simp only [TRef.ofBuf, TRef.toBuf, cast_eq]

/-- After the left reduction: the in-bounds mask. -/
theorem y_mask_left (V : Valuation τ sig (Elt F)) :
    after ((opsFromY (F := F)).take 51) V (Proc.devRef .tc main_call5_v12) = val_main_call5_v12 (F := F) (V (Proc.devRef .tc main_arg0)) := by
  have hs : ((opsFromY (F := F)).take 51 : List (HloOp τ sig (Elt F))) = opsFromY.take 50 ++ (opsFromY.drop 50).take 1 :=
    List.take_add (l := opsFromY) (i := 50) (j := 1)
  rw [hs, after_append, y_red_left, (y_pre_left (F := F) V).1, (y_pre_left (F := F) V).2]
  unfold val_main_call5_v12
  rfl

set_option maxHeartbeats 4000000 in
/-- What else the left term reads, none of it depending on the reduction. -/
theorem y_side_left (V : Valuation τ sig (Elt F)) :
    after ((opsFromY (F := F)).take 51) V (Proc.devRef .tc main_arg2) = V (Proc.devRef .tc main_arg2)
    ∧ after ((opsFromY (F := F)).take 51) V (Proc.devRef .tc main_call5_v5) = val_main_call5_v5 (F := F) (V (Proc.devRef .tc main_arg0))
    ∧ after ((opsFromY (F := F)).take 51) V (Proc.devRef .tc main_v63) = val_main_v63 (F := F) (V (Proc.devRef .tc main_arg0))
    ∧ after ((opsFromY (F := F)).take 51) V (Proc.devRef .tc main_v55) = val_main_v55 (F := F) (V (Proc.devRef .tc main_arg0)) := by
  simp only [opsFromY, ops, List.drop_succ_cons, List.drop_zero, List.take_succ_cons, List.take_zero]
  refine ⟨?_, ?_, ?_, ?_⟩
  all_goals after_results_simp
  all_goals (try simp only [TRef.ofBuf, TRef.toBuf, cast_eq])
  all_goals rfl

set_option maxHeartbeats 4000000 in
/-- The twelve operations from the gather to the left term. -/
theorem y_mid (W : Valuation τ sig (Elt F)) (A0 : (⟨S1x1048576x3, .f32⟩ : BufTy).Contents (Elt F))
    (A2 : (⟨S1x64x512, .f32⟩ : BufTy).Contents (Elt F))
    (h12 : W (Proc.devRef .tc main_call5_v12) = val_main_call5_v12 (F := F) A0)
    (h2 : W (Proc.devRef .tc main_arg2) = A2)
    (h5 : W (Proc.devRef .tc main_call5_v5) = val_main_call5_v5 (F := F) A0)
    (h63 : W (Proc.devRef .tc main_v63) = val_main_v63 (F := F) A0)
    (h55 : W (Proc.devRef .tc main_v55) = val_main_v55 (F := F) A0) :
    after (((opsFromY (F := F)).drop 51).take 12) W (Proc.devRef .tc main_v72) = val_main_v72 (F := F) A0 A2 := by
  simp only [opsFromY, ops, List.drop_succ_cons, List.drop_zero, List.take_succ_cons, List.take_zero]
  after_results_simp
  simp only [TRef.ofBuf, TRef.toBuf, cast_eq]
  rw [h12, h2, h5, h63, h55]
  rfl

/-- The left term, after the axis' first 63 operations. -/
theorem y_left (V : Valuation τ sig (Elt F)) :
    after ((opsFromY (F := F)).take 63) V (Proc.devRef .tc main_v72)
      = val_main_v72 (F := F) (V (Proc.devRef .tc main_arg0)) (V (Proc.devRef .tc main_arg2)) := by
  have hs : ((opsFromY (F := F)).take 63 : List (HloOp τ sig (Elt F))) = opsFromY.take 51 ++ (opsFromY.drop 51).take 12 :=
    List.take_add (l := opsFromY) (i := 51) (j := 12)
  rw [hs, after_append]
  obtain ⟨h2, h5, h63, h55⟩ := y_side_left (F := F) V
  exact y_mid _ _ _ (y_mask_left V) h2 h5 h63 h55

set_option maxHeartbeats 4000000 in
/-- Before the right reduction: its operand and its initial value. -/
theorem y_pre_right (V : Valuation τ sig (Elt F)) :
    after ((opsFromY (F := F)).take 101) V (Proc.devRef .tc main_call7_v11) = val_main_call7_v11 (F := F) (V (Proc.devRef .tc main_arg0))
    ∧ after ((opsFromY (F := F)).take 101) V (Proc.devRef .tc main_call7_c_3) = val_main_call7_c_3 (F := F) := by
  simp only [opsFromY, ops, List.drop_succ_cons, List.drop_zero, List.take_succ_cons, List.take_zero]
  refine ⟨?_, ?_⟩
  all_goals after_results_simp
  all_goals (try simp only [TRef.ofBuf, TRef.toBuf, cast_eq])
  all_goals rfl

set_option maxHeartbeats 4000000 in
/-- The right reduction alone. -/
theorem y_red_right (W : Valuation τ sig (Elt F)) :
    after (((opsFromY (F := F)).drop 101).take 1) W (Proc.devRef .tc main_call7_v12)
      = Host.reduce IntOp.andi (W (Proc.devRef .tc main_call7_v11)) (W (Proc.devRef .tc main_call7_c_3)) reducesTo_S1048576x1_S1048576_d1 h_S_ := by
  have h : after (((opsFromY (F := F)).drop 101).take 1) W (Proc.devRef .tc main_call7_v12)
      = (TRef.of (T := ⟨S1048576, .i1⟩) main_call7_v12).toBuf (Val := Elt F)
          (Host.reduce IntOp.andi
            ((TRef.of (T := ⟨S1048576x1, .i1⟩) main_call7_v11).ofBuf (Val := Elt F) (W (Proc.devRef .tc main_call7_v11)))
            ((TRef.of (T := ⟨S_, .i1⟩) main_call7_c_3).ofBuf (Val := Elt F) (W (Proc.devRef .tc main_call7_c_3)))
            reducesTo_S1048576x1_S1048576_d1 h_S_) := by
    simp only [opsFromY, ops, List.drop_succ_cons, List.drop_zero, List.take_succ_cons, List.take_zero]
    rw [after_cons, after_nil, binary_result']
  refine h.trans ?_
  simp only [TRef.ofBuf, TRef.toBuf, cast_eq]

/-- After the right reduction: the in-bounds mask. -/
theorem y_mask_right (V : Valuation τ sig (Elt F)) :
    after ((opsFromY (F := F)).take 102) V (Proc.devRef .tc main_call7_v12) = val_main_call7_v12 (F := F) (V (Proc.devRef .tc main_arg0)) := by
  have hs : ((opsFromY (F := F)).take 102 : List (HloOp τ sig (Elt F))) = opsFromY.take 101 ++ (opsFromY.drop 101).take 1 :=
    List.take_add (l := opsFromY) (i := 101) (j := 1)
  rw [hs, after_append, y_red_right, (y_pre_right (F := F) V).1, (y_pre_right (F := F) V).2]
  unfold val_main_call7_v12
  rfl

set_option maxHeartbeats 4000000 in
/-- What else the right term reads, none of it depending on a reduction. -/
theorem y_side_right (V : Valuation τ sig (Elt F)) :
    after ((opsFromY (F := F)).take 102) V (Proc.devRef .tc main_arg2) = V (Proc.devRef .tc main_arg2)
    ∧ after ((opsFromY (F := F)).take 102) V (Proc.devRef .tc main_call7_v5) = val_main_call7_v5 (F := F) (V (Proc.devRef .tc main_arg0))
    ∧ after ((opsFromY (F := F)).take 102) V (Proc.devRef .tc main_v81) = val_main_v81 (F := F) (V (Proc.devRef .tc main_arg0))
    ∧ after ((opsFromY (F := F)).take 102) V (Proc.devRef .tc main_v55) = val_main_v55 (F := F) (V (Proc.devRef .tc main_arg0)) := by
  simp only [opsFromY, ops, List.drop_succ_cons, List.drop_zero, List.take_succ_cons, List.take_zero]
  refine ⟨?_, ?_, ?_, ?_⟩
  all_goals after_results_simp
  all_goals (try simp only [TRef.ofBuf, TRef.toBuf, cast_eq])
  all_goals rfl

set_option maxHeartbeats 4000000 in
/-- The axis' operations 64 to 102 do not write the left term. -/
theorem y_keep_left (W : Valuation τ sig (Elt F)) :
    after (((opsFromY (F := F)).drop 63).take 39) W (Proc.devRef .tc main_v72) = W (Proc.devRef .tc main_v72) := by
  simp only [opsFromY, ops, List.drop_succ_cons, List.drop_zero, List.take_succ_cons, List.take_zero]
  after_results_simp

set_option maxHeartbeats 4000000 in
/-- The last ten operations: the right term, added to the left one. -/
theorem y_last (W : Valuation τ sig (Elt F)) (A0 : (⟨S1x1048576x3, .f32⟩ : BufTy).Contents (Elt F))
    (A2 : (⟨S1x64x512, .f32⟩ : BufTy).Contents (Elt F))
    (h12 : W (Proc.devRef .tc main_call7_v12) = val_main_call7_v12 (F := F) A0)
    (h2 : W (Proc.devRef .tc main_arg2) = A2)
    (h5 : W (Proc.devRef .tc main_call7_v5) = val_main_call7_v5 (F := F) A0)
    (h81 : W (Proc.devRef .tc main_v81) = val_main_v81 (F := F) A0)
    (h55 : W (Proc.devRef .tc main_v55) = val_main_v55 (F := F) A0)
    (h72 : W (Proc.devRef .tc main_v72) = val_main_v72 (F := F) A0 A2) :
    after (((opsFromY (F := F)).drop 102).take 10) W (Proc.devRef .tc main_v89) = val_main_v89 (F := F) A0 A2 := by
  simp only [opsFromY, ops, List.drop_succ_cons, List.drop_zero, List.take_succ_cons, List.take_zero]
  after_results_simp
  simp only [TRef.ofBuf, TRef.toBuf, cast_eq]
  rw [h12, h2, h5, h81, h55, h72]
  rfl

/-- The y axis' 112 operations leave its interpolated value. -/
theorem y_axis (V : Valuation τ sig (Elt F)) :
    after ((opsFromY (F := F)).take 112) V (Proc.devRef .tc main_v89)
      = val_main_v89 (F := F) (V (Proc.devRef .tc main_arg0)) (V (Proc.devRef .tc main_arg2)) := by
  have hs : ((opsFromY (F := F)).take 112 : List (HloOp τ sig (Elt F))) = opsFromY.take 102 ++ (opsFromY.drop 102).take 10 :=
    List.take_add (l := opsFromY) (i := 102) (j := 10)
  rw [hs, after_append]
  obtain ⟨h2, h5, h81, h55⟩ := y_side_right (F := F) V
  have h72 : after ((opsFromY (F := F)).take 102) V (Proc.devRef .tc main_v72)
      = val_main_v72 (F := F) (V (Proc.devRef .tc main_arg0)) (V (Proc.devRef .tc main_arg2)) := by
    have hs2 : ((opsFromY (F := F)).take 102 : List (HloOp τ sig (Elt F))) = opsFromY.take 63 ++ (opsFromY.drop 63).take 39 :=
      List.take_add (l := opsFromY) (i := 63) (j := 39)
    rw [hs2, after_append, y_keep_left, y_left]
  exact y_last _ _ _ (y_mask_right V) h2 h5 h81 h55 h72

end Cert.Voxel.RefRunSide

end
-- ==== Proof.RefAxisZ.lean ====
/-
  The z axis of the reference, read off its 112 operations (225 to 336 of the list).

  The same walk as for the x axis over the z axis' own buffers: the two in-bounds reductions (the axis' operations 51 and
  102) are read on their own, every buffer that does not depend on a reduction's result is read off a prefix in one pass,
  and the chain mask → left term → axis value is threaded through hypotheses.
-/
import proofs.«413230_j69423851373082_3_alg».proof.Proof.RefStretches
import proofs.«413230_j69423851373082_3_alg».proof.Proof.RefRead
import Idealize.ShloMosaic.Lib.Pipeline.Frame

set_option maxRecDepth 65536

noncomputable section

namespace Cert.Voxel.RefRunSide

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

set_option maxHeartbeats 4000000 in
/-- Before the left reduction: its operand and its initial value. -/
theorem z_pre_left (V : Valuation τ sig (Elt F)) :
    after ((opsFromZ (F := F)).take 50) V (Proc.devRef .tc main_call9_v11) = val_main_call9_v11 (F := F) (V (Proc.devRef .tc main_arg0))
    ∧ after ((opsFromZ (F := F)).take 50) V (Proc.devRef .tc main_call9_c_3) = val_main_call9_c_3 (F := F) := by
  simp only [opsFromZ, ops, List.drop_succ_cons, List.drop_zero, List.take_succ_cons, List.take_zero]
  refine ⟨?_, ?_⟩
  all_goals after_results_simp
  all_goals (try simp only [TRef.ofBuf, TRef.toBuf, cast_eq])
  all_goals rfl

set_option maxHeartbeats 4000000 in
/-- The left reduction alone. -/
theorem z_red_left (W : Valuation τ sig (Elt F)) :
    after (((opsFromZ (F := F)).drop 50).take 1) W (Proc.devRef .tc main_call9_v12)
      = Host.reduce IntOp.andi (W (Proc.devRef .tc main_call9_v11)) (W (Proc.devRef .tc main_call9_c_3)) reducesTo_S1048576x1_S1048576_d1 h_S_ := by
  have h : after (((opsFromZ (F := F)).drop 50).take 1) W (Proc.devRef .tc main_call9_v12)
      = (TRef.of (T := ⟨S1048576, .i1⟩) main_call9_v12).toBuf (Val := Elt F)
          (Host.reduce IntOp.andi
            ((TRef.of (T := ⟨S1048576x1, .i1⟩) main_call9_v11).ofBuf (Val := Elt F) (W (Proc.devRef .tc main_call9_v11)))
            ((TRef.of (T := ⟨S_, .i1⟩) main_call9_c_3).ofBuf (Val := Elt F) (W (Proc.devRef .tc main_call9_c_3)))
            reducesTo_S1048576x1_S1048576_d1 h_S_) := by
    simp only [opsFromZ, ops, List.drop_succ_cons, List.drop_zero, List.take_succ_cons, List.take_zero]
    rw [after_cons, after_nil, binary_result']
  refine h.trans ?_
  simp only [TRef.ofBuf, TRef.toBuf, cast_eq]

/-- After the left reduction: the in-bounds mask. -/
theorem z_mask_left (V : Valuation τ sig (Elt F)) :
    after ((opsFromZ (F := F)).take 51) V (Proc.devRef .tc main_call9_v12) = val_main_call9_v12 (F := F) (V (Proc.devRef .tc main_arg0)) := by
  have hs : ((opsFromZ (F := F)).take 51 : List (HloOp τ sig (Elt F))) = opsFromZ.take 50 ++ (opsFromZ.drop 50).take 1 :=
    List.take_add (l := opsFromZ) (i := 50) (j := 1)
  rw [hs, after_append, z_red_left, (z_pre_left (F := F) V).1, (z_pre_left (F := F) V).2]
  unfold val_main_call9_v12
  rfl

set_option maxHeartbeats 4000000 in
/-- What else the left term reads, none of it depending on the reduction. -/
theorem z_side_left (V : Valuation τ sig (Elt F)) :
    after ((opsFromZ (F := F)).take 51) V (Proc.devRef .tc main_arg3) = V (Proc.devRef .tc main_arg3)
    ∧ after ((opsFromZ (F := F)).take 51) V (Proc.devRef .tc main_call9_v5) = val_main_call9_v5 (F := F) (V (Proc.devRef .tc main_arg0))
    ∧ after ((opsFromZ (F := F)).take 51) V (Proc.devRef .tc main_v108) = val_main_v108 (F := F) (V (Proc.devRef .tc main_arg0))
    ∧ after ((opsFromZ (F := F)).take 51) V (Proc.devRef .tc main_v100) = val_main_v100 (F := F) (V (Proc.devRef .tc main_arg0)) := by
  simp only [opsFromZ, ops, List.drop_succ_cons, List.drop_zero, List.take_succ_cons, List.take_zero]
  refine ⟨?_, ?_, ?_, ?_⟩
  all_goals after_results_simp
  all_goals (try simp only [TRef.ofBuf, TRef.toBuf, cast_eq])
  all_goals rfl

set_option maxHeartbeats 4000000 in
/-- The twelve operations from the gather to the left term. -/
theorem z_mid (W : Valuation τ sig (Elt F)) (A0 : (⟨S1x1048576x3, .f32⟩ : BufTy).Contents (Elt F))
    (A3 : (⟨S1x64x512, .f32⟩ : BufTy).Contents (Elt F))
    (h12 : W (Proc.devRef .tc main_call9_v12) = val_main_call9_v12 (F := F) A0)
    (h3 : W (Proc.devRef .tc main_arg3) = A3)
    (h5 : W (Proc.devRef .tc main_call9_v5) = val_main_call9_v5 (F := F) A0)
    (h108 : W (Proc.devRef .tc main_v108) = val_main_v108 (F := F) A0)
    (h100 : W (Proc.devRef .tc main_v100) = val_main_v100 (F := F) A0) :
    after (((opsFromZ (F := F)).drop 51).take 12) W (Proc.devRef .tc main_v117) = val_main_v117 (F := F) A0 A3 := by
  simp only [opsFromZ, ops, List.drop_succ_cons, List.drop_zero, List.take_succ_cons, List.take_zero]
  after_results_simp
  simp only [TRef.ofBuf, TRef.toBuf, cast_eq]
  rw [h12, h3, h5, h108, h100]
  rfl

/-- The left term, after the axis' first 63 operations. -/
theorem z_left (V : Valuation τ sig (Elt F)) :
    after ((opsFromZ (F := F)).take 63) V (Proc.devRef .tc main_v117)
      = val_main_v117 (F := F) (V (Proc.devRef .tc main_arg0)) (V (Proc.devRef .tc main_arg3)) := by
  have hs : ((opsFromZ (F := F)).take 63 : List (HloOp τ sig (Elt F))) = opsFromZ.take 51 ++ (opsFromZ.drop 51).take 12 :=
    List.take_add (l := opsFromZ) (i := 51) (j := 12)
  rw [hs, after_append]
  obtain ⟨h3, h5, h108, h100⟩ := z_side_left (F := F) V
  exact z_mid _ _ _ (z_mask_left V) h3 h5 h108 h100

set_option maxHeartbeats 4000000 in
/-- Before the right reduction: its operand and its initial value. -/
theorem z_pre_right (V : Valuation τ sig (Elt F)) :
    after ((opsFromZ (F := F)).take 101) V (Proc.devRef .tc main_call11_v11) = val_main_call11_v11 (F := F) (V (Proc.devRef .tc main_arg0))
    ∧ after ((opsFromZ (F := F)).take 101) V (Proc.devRef .tc main_call11_c_3) = val_main_call11_c_3 (F := F) := by
  simp only [opsFromZ, ops, List.drop_succ_cons, List.drop_zero, List.take_succ_cons, List.take_zero]
  refine ⟨?_, ?_⟩
  all_goals after_results_simp
  all_goals (try simp only [TRef.ofBuf, TRef.toBuf, cast_eq])
  all_goals rfl

set_option maxHeartbeats 4000000 in
/-- The right reduction alone. -/
theorem z_red_right (W : Valuation τ sig (Elt F)) :
    after (((opsFromZ (F := F)).drop 101).take 1) W (Proc.devRef .tc main_call11_v12)
      = Host.reduce IntOp.andi (W (Proc.devRef .tc main_call11_v11)) (W (Proc.devRef .tc main_call11_c_3)) reducesTo_S1048576x1_S1048576_d1 h_S_ := by
  have h : after (((opsFromZ (F := F)).drop 101).take 1) W (Proc.devRef .tc main_call11_v12)
      = (TRef.of (T := ⟨S1048576, .i1⟩) main_call11_v12).toBuf (Val := Elt F)
          (Host.reduce IntOp.andi
            ((TRef.of (T := ⟨S1048576x1, .i1⟩) main_call11_v11).ofBuf (Val := Elt F) (W (Proc.devRef .tc main_call11_v11)))
            ((TRef.of (T := ⟨S_, .i1⟩) main_call11_c_3).ofBuf (Val := Elt F) (W (Proc.devRef .tc main_call11_c_3)))
            reducesTo_S1048576x1_S1048576_d1 h_S_) := by
    simp only [opsFromZ, ops, List.drop_succ_cons, List.drop_zero, List.take_succ_cons, List.take_zero]
    rw [after_cons, after_nil, binary_result']
  refine h.trans ?_
  simp only [TRef.ofBuf, TRef.toBuf, cast_eq]

/-- After the right reduction: the in-bounds mask. -/
theorem z_mask_right (V : Valuation τ sig (Elt F)) :
    after ((opsFromZ (F := F)).take 102) V (Proc.devRef .tc main_call11_v12) = val_main_call11_v12 (F := F) (V (Proc.devRef .tc main_arg0)) := by
  have hs : ((opsFromZ (F := F)).take 102 : List (HloOp τ sig (Elt F))) = opsFromZ.take 101 ++ (opsFromZ.drop 101).take 1 :=
    List.take_add (l := opsFromZ) (i := 101) (j := 1)
  rw [hs, after_append, z_red_right, (z_pre_right (F := F) V).1, (z_pre_right (F := F) V).2]
  unfold val_main_call11_v12
  rfl

set_option maxHeartbeats 4000000 in
/-- What else the right term reads, none of it depending on a reduction. -/
theorem z_side_right (V : Valuation τ sig (Elt F)) :
    after ((opsFromZ (F := F)).take 102) V (Proc.devRef .tc main_arg3) = V (Proc.devRef .tc main_arg3)
    ∧ after ((opsFromZ (F := F)).take 102) V (Proc.devRef .tc main_call11_v5) = val_main_call11_v5 (F := F) (V (Proc.devRef .tc main_arg0))
    ∧ after ((opsFromZ (F := F)).take 102) V (Proc.devRef .tc main_v126) = val_main_v126 (F := F) (V (Proc.devRef .tc main_arg0))
    ∧ after ((opsFromZ (F := F)).take 102) V (Proc.devRef .tc main_v100) = val_main_v100 (F := F) (V (Proc.devRef .tc main_arg0)) := by
  simp only [opsFromZ, ops, List.drop_succ_cons, List.drop_zero, List.take_succ_cons, List.take_zero]
  refine ⟨?_, ?_, ?_, ?_⟩
  all_goals after_results_simp
  all_goals (try simp only [TRef.ofBuf, TRef.toBuf, cast_eq])
  all_goals rfl

set_option maxHeartbeats 4000000 in
/-- The axis' operations 64 to 102 do not write the left term. -/
theorem z_keep_left (W : Valuation τ sig (Elt F)) :
    after (((opsFromZ (F := F)).drop 63).take 39) W (Proc.devRef .tc main_v117) = W (Proc.devRef .tc main_v117) := by
  simp only [opsFromZ, ops, List.drop_succ_cons, List.drop_zero, List.take_succ_cons, List.take_zero]
  after_results_simp

set_option maxHeartbeats 4000000 in
/-- The last ten operations: the right term, added to the left one. -/
theorem z_last (W : Valuation τ sig (Elt F)) (A0 : (⟨S1x1048576x3, .f32⟩ : BufTy).Contents (Elt F))
    (A3 : (⟨S1x64x512, .f32⟩ : BufTy).Contents (Elt F))
    (h12 : W (Proc.devRef .tc main_call11_v12) = val_main_call11_v12 (F := F) A0)
    (h3 : W (Proc.devRef .tc main_arg3) = A3)
    (h5 : W (Proc.devRef .tc main_call11_v5) = val_main_call11_v5 (F := F) A0)
    (h126 : W (Proc.devRef .tc main_v126) = val_main_v126 (F := F) A0)
    (h100 : W (Proc.devRef .tc main_v100) = val_main_v100 (F := F) A0)
    (h117 : W (Proc.devRef .tc main_v117) = val_main_v117 (F := F) A0 A3) :
    after (((opsFromZ (F := F)).drop 102).take 10) W (Proc.devRef .tc main_v134) = val_main_v134 (F := F) A0 A3 := by
  simp only [opsFromZ, ops, List.drop_succ_cons, List.drop_zero, List.take_succ_cons, List.take_zero]
  after_results_simp
  simp only [TRef.ofBuf, TRef.toBuf, cast_eq]
  rw [h12, h3, h5, h126, h100, h117]
  rfl

/-- The z axis' 112 operations leave its interpolated value. -/
theorem z_axis (V : Valuation τ sig (Elt F)) :
    after ((opsFromZ (F := F)).take 112) V (Proc.devRef .tc main_v134)
      = val_main_v134 (F := F) (V (Proc.devRef .tc main_arg0)) (V (Proc.devRef .tc main_arg3)) := by
  have hs : ((opsFromZ (F := F)).take 112 : List (HloOp τ sig (Elt F))) = opsFromZ.take 102 ++ (opsFromZ.drop 102).take 10 :=
    List.take_add (l := opsFromZ) (i := 102) (j := 10)
  rw [hs, after_append]
  obtain ⟨h3, h5, h126, h100⟩ := z_side_right (F := F) V
  have h117 : after ((opsFromZ (F := F)).take 102) V (Proc.devRef .tc main_v117)
      = val_main_v117 (F := F) (V (Proc.devRef .tc main_arg0)) (V (Proc.devRef .tc main_arg3)) := by
    have hs2 : ((opsFromZ (F := F)).take 102 : List (HloOp τ sig (Elt F))) = opsFromZ.take 63 ++ (opsFromZ.drop 63).take 39 :=
      List.take_add (l := opsFromZ) (i := 63) (j := 39)
    rw [hs2, after_append, z_keep_left, z_left]
  exact z_last _ _ _ (z_mask_right V) h3 h5 h126 h100 h117

end Cert.Voxel.RefRunSide

end
-- ==== Proof.RefRunValue.lean ====
/-
  The reference's result buffer, read off its list of operations in stretches, and its run.

  The reference's 339 host operations are, in order: the x axis' interpolation (112 operations), the y axis' and the z
  axis' (112 each, the same shape), and three closing operations (two products and the contraction with the basis).
  Each buffer is written once, and a stretch reads only the arguments and the earlier axes' values, so the valuation after
  the whole list is computed stretch by stretch: an axis' stretch leaves the axis' interpolated value (the three axis
  modules), keeps what it does not write, and the closing operations combine the three values with the basis.
-/
import proofs.«413230_j69423851373082_3_alg».proof.Proof.RefAxisX
import proofs.«413230_j69423851373082_3_alg».proof.Proof.RefAxisY
import proofs.«413230_j69423851373082_3_alg».proof.Proof.RefAxisZ

set_option maxRecDepth 65536

noncomputable section

namespace Cert.Voxel.RefRunSide

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

/-! ## What each axis' stretch keeps -/

set_option maxHeartbeats 4000000 in
/-- The x axis' operations keep the points, the other axes' lines and the basis. -/
theorem x_keeps (V : Valuation τ sig (Elt F)) :
    after (ops.take 112) V (Proc.devRef .tc main_arg0) = V (Proc.devRef .tc main_arg0)
    ∧ after (ops.take 112) V (Proc.devRef .tc main_arg2) = V (Proc.devRef .tc main_arg2)
    ∧ after (ops.take 112) V (Proc.devRef .tc main_arg3) = V (Proc.devRef .tc main_arg3)
    ∧ after (ops.take 112) V (Proc.devRef .tc main_arg4) = V (Proc.devRef .tc main_arg4) := by
  simp only [ops, List.take_succ_cons, List.take_zero]
  refine ⟨?_, ?_, ?_, ?_⟩
  all_goals after_results_simp

set_option maxHeartbeats 4000000 in
/-- The y axis' operations keep the x axis' value, the points, the z axis' lines and the basis. -/
theorem y_keeps (V : Valuation τ sig (Elt F)) :
    after ((opsFromY (F := F)).take 112) V (Proc.devRef .tc main_v44) = V (Proc.devRef .tc main_v44)
    ∧ after ((opsFromY (F := F)).take 112) V (Proc.devRef .tc main_arg0) = V (Proc.devRef .tc main_arg0)
    ∧ after ((opsFromY (F := F)).take 112) V (Proc.devRef .tc main_arg3) = V (Proc.devRef .tc main_arg3)
    ∧ after ((opsFromY (F := F)).take 112) V (Proc.devRef .tc main_arg4) = V (Proc.devRef .tc main_arg4) := by
  simp only [opsFromY, ops, List.drop_succ_cons, List.drop_zero, List.take_succ_cons, List.take_zero]
  refine ⟨?_, ?_, ?_, ?_⟩
  all_goals after_results_simp

set_option maxHeartbeats 4000000 in
/-- The z axis' operations keep the other two axes' values and the basis. -/
theorem z_keeps (V : Valuation τ sig (Elt F)) :
    after ((opsFromZ (F := F)).take 112) V (Proc.devRef .tc main_v44) = V (Proc.devRef .tc main_v44)
    ∧ after ((opsFromZ (F := F)).take 112) V (Proc.devRef .tc main_v89) = V (Proc.devRef .tc main_v89)
    ∧ after ((opsFromZ (F := F)).take 112) V (Proc.devRef .tc main_arg4) = V (Proc.devRef .tc main_arg4) := by
  simp only [opsFromZ, ops, List.drop_succ_cons, List.drop_zero, List.take_succ_cons, List.take_zero]
  refine ⟨?_, ?_, ?_⟩
  all_goals after_results_simp

/-! ## The three closing operations, and the whole list -/

set_option maxHeartbeats 4000000 in
/-- The closing operations: the product of the three axes' values contracted with the basis. -/
theorem close_eq (W : Valuation τ sig (Elt F)) (A0 : (⟨S1x1048576x3, .f32⟩ : BufTy).Contents (Elt F))
    (A1 A2 A3 : (⟨S1x64x512, .f32⟩ : BufTy).Contents (Elt F)) (A4 : (⟨S1x64x32, .f32⟩ : BufTy).Contents (Elt F))
    (h44 : W (Proc.devRef .tc main_v44) = val_main_v44 (F := F) A0 A1)
    (h89 : W (Proc.devRef .tc main_v89) = val_main_v89 (F := F) A0 A2)
    (h134 : W (Proc.devRef .tc main_v134) = val_main_v134 (F := F) A0 A3)
    (h4 : W (Proc.devRef .tc main_arg4) = A4) :
    after (opsClose (F := F)) W (Proc.devRef .tc main_v137) = val_main_v137 (F := F) A0 A1 A2 A3 A4 := by
  simp only [opsClose, ops, List.drop_succ_cons, List.drop_zero]
  after_results_simp
  rw [h44, h89, h134, h4]
  rfl

/-- THE RESULT: after all 339 operations the result buffer holds the last stage of the reference read one operation
    at a time, of the five arguments as the valuation had them. -/
theorem result_eq (V : Valuation τ sig (Elt F)) :
    after ops V (Proc.devRef .tc main_v137)
      = val_main_v137 (F := F) (V (Proc.devRef .tc main_arg0)) (V (Proc.devRef .tc main_arg1)) (V (Proc.devRef .tc main_arg2))
          (V (Proc.devRef .tc main_arg3)) (V (Proc.devRef .tc main_arg4)) := by
  have e := congrArg (fun l => after l V (Proc.devRef .tc main_v137)) (ops_stretches (F := F))
  refine e.trans ?_
  show after (ops.take 112 ++ ((opsFromY (F := F)).take 112 ++ ((opsFromZ (F := F)).take 112 ++ opsClose))) V (Proc.devRef .tc main_v137) = _
  rw [after_append, after_append, after_append]
  obtain ⟨kx0, kx2, kx3, kx4⟩ := x_keeps (F := F) V
  obtain ⟨ky44, ky0, ky3, ky4⟩ := y_keeps (F := F) (after (ops.take 112) V)
  obtain ⟨kz44, kz89, kz4⟩ := z_keeps (F := F) (after ((opsFromY (F := F)).take 112) (after (ops.take 112) V))
  refine close_eq _ _ _ _ _ _ ?_ ?_ ?_ ?_
  · rw [kz44, ky44]; exact x_axis V
  · rw [kz89, y_axis, kx0, kx2]
  · rw [z_axis, ky0, ky3, kx0, kx3]
  · rw [kz4, ky4, kx4]

/-! ## The run -/

set_option maxHeartbeats 16000000 in
/-- On every device, from any memory with zero counters: every weakly fair execution of the reference's program
    terminates with the result buffer at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137)
        = val_main_v137 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v137).trans ((result_eq (F := F) (launchContents m c)).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.Voxel.RefRunSide

end
-- ==== Proof.Spec.lean ====
/-
  The function both programs compute, on the extended reals.

  A point coordinate `p` in [-1, 1] is sent to the grid coordinate `x = (p + 1) · ½ · 511` of a line of 512 samples;
  `base p = ⌊x⌋` is its left neighbour, `cell p` that integer as a 32-bit word, `frac p = x − ⌊x⌋` the weight of the
  right neighbour. `tapAt src n` is sample `n` of a line, and zero off the line (zero padding). One axis contributes
  `lerp src p = src[cell] · (1 − frac) + src[cell + 1] · frac`; a point's feature `f` is the sum over the 64 components
  `c` of the product of the three axes' interpolated values times `basis[c, f]`.
-/
import Idealize.ShloMosaic.PureOps.Ideal
import Idealize.ShloMosaic.Lib.ValueIdx

noncomputable section

open scoped BigOperators

namespace Cert.Voxel

open Idealize.ShloMosaic Idealize.ShloMosaic.ValueIdx

/-- The points: one batch, 2^20 points, three coordinates. -/
abbrev SPts : Shape := ⟨3, ![1, 1048576, 3]⟩
/-- One axis' lines: one batch, 64 components, 512 samples. -/
abbrev SLines : Shape := ⟨3, ![1, 64, 512]⟩
/-- The basis: one batch, 64 components, 32 features. -/
abbrev SBasis : Shape := ⟨3, ![1, 64, 32]⟩
/-- The result: one batch, 2^20 points, 32 features. -/
abbrev SFeat : Shape := ⟨3, ![1, 1048576, 32]⟩

/-- The words of 1, ½ and 511, as the extended reals they denote. -/
abbrev oneW : EReal := Ideal.ofBits .f32 0x3F800000#32
abbrev halfW : EReal := Ideal.ofBits .f32 0x3F000000#32
abbrev lastW : EReal := Ideal.ofBits .f32 0x43FF8000#32

/-- The grid coordinate of a normalized coordinate: `(p + 1) · ½ · 511`. -/
def coord (p : EReal) : EReal := (p + oneW) * halfW * lastW
/-- Its integer part. -/
def base (p : EReal) : EReal := Ideal.liftRound Int.floor (coord p)
/-- The integer part as a 32-bit word: the left neighbour's sample number. -/
def cell (p : EReal) : BitVec 32 := Ideal.fptosi 32 (base p)
/-- The fractional part: the right neighbour's weight. -/
def frac (p : EReal) : EReal := coord p - base p

/-- Sample `n` of a line of 512, zero off the line. -/
def tapAt (src : Fin 512 → EReal) (n : ℕ) : EReal := if h : n < 512 then src ⟨n, h⟩ else 0

/-- Linear interpolation of a line at a normalized coordinate, zero-padded. -/
def lerp (src : Fin 512 → EReal) (p : EReal) : EReal :=
  tapAt src (cell p).toNat * (oneW - frac p) + tapAt src ((cell p).toNat + 1) * frac p

/-- The result array as one function of the five argument arrays. -/
def feat (pts : SPts.Idx → EReal) (vx vy vz : SLines.Idx → EReal) (basis : SBasis.Idx → EReal) : SFeat.Idx → EReal :=
  fun i => ∑ c : Fin 64,
    (lerp (fun l => vx (ix3 0 c l)) (pts (ix3 0 (i 1) 0))
      * lerp (fun l => vy (ix3 0 c l)) (pts (ix3 0 (i 1) 1))
      * lerp (fun l => vz (ix3 0 c l)) (pts (ix3 0 (i 1) 2)))
    * basis (ix3 0 c (i 2))

/-- Every point coordinate's cell is on the line: what the range [-1, 1] of the points gives. -/
def CellsOnLine (pts : SPts.Idx → EReal) : Prop := ∀ i : SPts.Idx, (cell (pts i)).toNat ≤ 511

end Cert.Voxel

end
-- ==== Proof.RefValue.lean ====
/-
  The reference computes the specification.

  Per axis the reference reads the left neighbour `cell` and the right neighbour `cell + 1` of a line through a clamped
  gather, and multiplies each by the indicator that the unclamped sample number lies on the line (zero padding). When
  `cell` is at most 511 the clamp is idle for both, the left indicator is one, and the right indicator is one exactly when
  `cell + 1` is still on the line: the two reads are `tapAt` at `cell` and `cell + 1`. The three axes' interpolated values
  are multiplied and contracted with the basis over the 64 components.

  The module first treats one read on words (the clamp, the wrap of a negative number, the gather's in-bounds test, the
  on-the-line indicator: `readW_eq`), then the two operations that are not elementwise (a reduction by `and` over an
  axis of size one, `reduce_col`; the gather of a line, `gather_line`), then walks each axis' operations in program
  order at one component `k` and one point `r`. The three axes are the same walk over their own operations.
-/
import proofs.«413230_j69423851373082_3_alg».proof.Proof.RefRead
import proofs.«413230_j69423851373082_3_alg».proof.Proof.Spec
import Idealize.ShloMosaic.Lib.StableHlo.Predicate
import Idealize.ShloMosaic.Lib.ReduceAll

noncomputable section

open scoped BigOperators

namespace Cert.Voxel.RefSide

open Idealize.ShloMosaic Idealize.ShloMosaic.ValueIdx
open Cert.ReferenceIdeal Cert.ReferenceIdeal.Gen Cert.ReferenceIdeal.ReadP Cert.Voxel
open Idealize.ShloMosaic.StableHlo.Predicate

/-! ## Words -/

/-- The clamp of a sample number into the line, as the reference spells it. -/
private def clipW (j : BitVec 32) : BitVec 32 := IntOp.minsi 511#32 (IntOp.maxsi 0#32 j)
/-- The wrap of a negative sample number by the line's length. -/
private def wrapW (c : BitVec 32) : BitVec 32 := Scalar.select (IntOp.cmpi .slt c 0#32) (IntOp.addi c 512#32) c
/-- The gather's own in-bounds test. -/
private def inbW (w : BitVec 32) : BitVec 1 := IntOp.andi (IntOp.cmpi .sge w 0#32) (IntOp.cmpi .sle w 511#32)
/-- The indicator that the unclamped sample number is on the line. -/
private def validW (j : BitVec 32) : BitVec 1 := IntOp.andi (IntOp.cmpi .sge j 0#32) (IntOp.cmpi .slt j 512#32)

/-- The sample a start index reads: the index as a signed number, clamped into the line. -/
private def sampleOf (w : BitVec 32) : Fin 512 := ⟨min w.toInt.toNat 511, by omega⟩

private theorem toInt_small {j : BitVec 32} (hj : j.toNat ≤ 512) : j.toInt = j.toNat :=
  toInt_eq_toNat_of_lt (by omega)

private theorem clipW_of_le {j : BitVec 32} (hj : j.toNat ≤ 511) : clipW j = j := by
  have hti : j.toInt = j.toNat := toInt_small (by omega)
  have h0 : (0#32 : BitVec 32).toInt = 0 := by decide
  have h511 : (511#32 : BitVec 32).toInt = 511 := by decide
  have hmax : IntOp.maxsi 0#32 j = j := by
    unfold IntOp.maxsi
    rw [if_neg]
    simp only [BitVec.slt, hti, h0, decide_eq_true_eq]; omega
  unfold clipW
  rw [hmax]
  unfold IntOp.minsi
  rw [if_neg]
  simp only [BitVec.slt, hti, h511, decide_eq_true_eq]; omega

private theorem wrapW_of_le {c : BitVec 32} (hc : c.toNat ≤ 511) : wrapW c = c := by
  unfold wrapW
  have : IntOp.cmpi .slt c 0#32 ≠ 1#1 := by
    intro e
    have := (slt_iff_toNat (a := c) (b := 0#32) (by omega) (by decide)).1 e
    simp at this
  exact if_neg this

private theorem inbW_of_le {w : BitVec 32} (hw : w.toNat ≤ 511) : inbW w = 1#1 := by
  unfold inbW
  rw [IntOp.andi_eq_one]
  exact ⟨(sge_iff_toNat (a := w) (b := 0#32) (by omega) (by decide)).2 (by simp),
    (sle_iff_toNat (a := w) (b := 511#32) (by omega) (by decide)).2 (by simpa using hw)⟩

private theorem validW_of_lt {j : BitVec 32} (hj : j.toNat < 512) : validW j = 1#1 := by
  unfold validW
  rw [IntOp.andi_eq_one]
  exact ⟨(sge_iff_toNat (a := j) (b := 0#32) (by omega) (by decide)).2 (by simp),
    (slt_iff_toNat (a := j) (b := 512#32) (by omega) (by decide)).2 (by simpa using hj)⟩

private theorem validW_512 {j : BitVec 32} (hj : j.toNat = 512) : validW j = 0#1 := by
  apply eq_zero_of_ne_one
  intro e
  unfold validW at e
  rw [IntOp.andi_eq_one] at e
  have := (slt_iff_toNat (a := j) (b := 512#32) (by omega) (by decide)).1 e.2
  simp at this
  omega

/-- The word after a cell on the line is the next sample number. -/
private theorem toNat_succ {j : BitVec 32} (hj : j.toNat ≤ 511) : (IntOp.addi j 1#32).toNat = j.toNat + 1 := by
  unfold IntOp.addi
  rw [BitVec.toNat_add]
  show (j.toNat + 1) % 2 ^ 32 = j.toNat + 1
  omega

/-! ## The two operations read at an index by hand -/

/-- A reduction by `and` over an axis of size one is the one element (and the initial value). -/
private theorem reduce_col (m : IVec S1048576x1 1) (init : IVec S_ 1) (r : Fin 1048576) :
    Host.reduce IntOp.andi m init reducesTo_S1048576x1_S1048576_d1 h_S_ (ix1 r)
      = IntOp.andi (m (ix2 r 0)) (init (Shape.Idx.first h_S_)) := by
  have hR : Shape.Reduces S1048576x1 [1] S1048576 := by decide
  rw [Host.reduce_eq_fold_single IntOp.andi m init reducesTo_S1048576x1_S1048576_d1 hR h_S_ (ix1 r)]
  have key : ∀ (n : ℕ) (hn : n = 1) (g : Fin n → BitVec 1) (b : BitVec 1),
      (Finset.univ : Finset (Fin n)).fold IntOp.andi b g = IntOp.andi (g ⟨0, by omega⟩) b := by
    intro n hn g b; subst hn; rw [Finset.univ_unique, Finset.fold_singleton]; rfl
  refine (key (S1048576x1.size 1) rfl (m ∘ hR.lift (ix1 r)) _).trans ?_
  rw [Function.comp_apply]
  have hl : hR.lift (ix1 r) ⟨0, by decide⟩ = ix2 r 0 := by
    funext a
    refine Fin.ext ?_
    match a with
    | ⟨0, _⟩ => rfl
    | ⟨1, _⟩ => rfl
  rw [hl]

/-- The gather's dimension numbers, under a short name. -/
private abbrev gd : GatherDims S1x64x512 S1048576x1 S1x64x1048576 := gather_S1x64x512_S1048576x1_S1x64x1048576_01_2_n_n_2_1_1641

/-- The batch axis of the lines is an offset axis of the gather: it reads the result's own coordinate. -/
private theorem gd_axis0 (idx : IVec S1048576x1 32) (k : Fin 64) (r : Fin 1048576) :
    (gd.operandIdx (ix3 (0 : Fin 1) k r) idx 0).val = 0 := by
  show gd.start (ix3 (0 : Fin 1) k r) idx 0 + gd.batchCoord (ix3 (0 : Fin 1) k r) 0 + gd.offCoord (ix3 (0 : Fin 1) k r) 0 = 0
  rw [GatherDims.batchCoord_eq_zero gd _ 0 List.not_mem_nil]
  unfold GatherDims.start GatherDims.offCoord
  rw [dif_neg (show ¬(0 : Fin S1x64x512.rank) ∈ gd.startIndexMap by decide),
    dif_pos (show (0 : Fin S1x64x512.rank) ∈ gd.sKept by decide)]
  rfl

/-- The component axis likewise. -/
private theorem gd_axis1 (idx : IVec S1048576x1 32) (k : Fin 64) (r : Fin 1048576) :
    (gd.operandIdx (ix3 (0 : Fin 1) k r) idx 1).val = k.val := by
  show gd.start (ix3 (0 : Fin 1) k r) idx 1 + gd.batchCoord (ix3 (0 : Fin 1) k r) 1 + gd.offCoord (ix3 (0 : Fin 1) k r) 1 = k.val
  rw [GatherDims.batchCoord_eq_zero gd _ 1 List.not_mem_nil]
  unfold GatherDims.start GatherDims.offCoord
  rw [dif_neg (show ¬(1 : Fin S1x64x512.rank) ∈ gd.startIndexMap by decide),
    dif_pos (show (1 : Fin S1x64x512.rank) ∈ gd.sKept by decide), Nat.add_zero, Nat.zero_add]
  rfl

/-- The sample axis is the collapsed, start-indexed one: the start index of point `r`, read signed and clamped. -/
private theorem gd_axis2 (idx : IVec S1048576x1 32) (k : Fin 64) (r : Fin 1048576) :
    (gd.operandIdx (ix3 (0 : Fin 1) k r) idx 2).val = min (idx (ix2 r 0)).toInt.toNat 511 := by
  show gd.start (ix3 (0 : Fin 1) k r) idx 2 + gd.batchCoord (ix3 (0 : Fin 1) k r) 2 + gd.offCoord (ix3 (0 : Fin 1) k r) 2 = _
  rw [GatherDims.batchCoord_eq_zero gd _ 2 List.not_mem_nil,
    GatherDims.offCoord_eq_zero gd _ 2 (show ¬(2 : Fin S1x64x512.rank) ∈ gd.sKept by decide)]
  show gd.start (ix3 (0 : Fin 1) k r) idx 2 = _
  unfold GatherDims.start
  rw [dif_pos (show (2 : Fin S1x64x512.rank) ∈ gd.startIndexMap by decide)]
  have hsi : gd.siIdx (ix3 (0 : Fin 1) k r) ⟨List.idxOf (2 : Fin S1x64x512.rank) gd.startIndexMap,
      List.idxOf_lt_length_iff.2 (show (2 : Fin S1x64x512.rank) ∈ gd.startIndexMap by decide)⟩ = ix2 r 0 := by
    funext b; refine Fin.ext ?_
    match b with
    | ⟨0, _⟩ => rfl
    | ⟨1, _⟩ => rfl
  rw [hsi]
  rfl

/-- The gather of a line: result element `(0, k, r)` is component `k` of the lines at the sample whose number is start
    index `r`, read signed and clamped into the line. -/
private theorem gather_line {α : Type} (x : S1x64x512.Idx → α) (idx : IVec S1048576x1 32) (k : Fin 64) (r : Fin 1048576) :
    Host.gather gather_S1x64x512_S1048576x1_S1x64x1048576_01_2_n_n_2_1_1641 x idx (ix3 (0 : Fin 1) k r)
      = x (ix3 0 k (sampleOf (idx (ix2 r 0)))) := by
  unfold Host.gather
  congr 1
  funext a
  refine Fin.ext ?_
  match a with
  | ⟨0, _⟩ => exact gd_axis0 idx k r
  | ⟨1, _⟩ => exact gd_axis1 idx k r
  | ⟨2, _⟩ => exact gd_axis2 idx k r

/-! ## One read of a line -/

/-- One read of a line as the reference spells it, at the unclamped sample number `j`: the clamped, wrapped gather,
    guarded by the gather's own in-bounds test, times the indicator that `j` is on the line. -/
private def readW (src : Fin 512 → EReal) (j : BitVec 32) : EReal :=
  Scalar.select (IntOp.andi (inbW (wrapW (clipW j))) 1#1)
      (src (sampleOf (wrapW (clipW j))))
      (Ideal.ofBits .f32 0x7FC00000#32)
    * (((validW j).toNat : ℝ) : EReal)

/-- For a sample number in `[0, 512]` the read is the zero-padded sample. -/
private theorem readW_eq (src : Fin 512 → EReal) (j : BitVec 32) (hj : j.toNat ≤ 512) : readW src j = tapAt src j.toNat := by
  unfold readW tapAt
  rcases Nat.lt_or_ge j.toNat 512 with hlt | hge
  · have hc : clipW j = j := clipW_of_le (by omega)
    rw [validW_of_lt hlt, dif_pos hlt]
    have hw : wrapW (clipW j) = j := by rw [hc]; exact wrapW_of_le (by omega)
    have h1 : IntOp.andi (inbW (wrapW (clipW j))) 1#1 = 1#1 := by rw [hw, inbW_of_le (by omega)]; decide
    rw [h1, select_one]
    have hf : sampleOf (wrapW (clipW j)) = ⟨j.toNat, hlt⟩ := by
      rw [hw]; refine Fin.ext ?_
      show min j.toInt.toNat 511 = j.toNat
      rw [toInt_small hj, Int.toNat_natCast]; omega
    rw [hf]
    simp
  · have h512 : j.toNat = 512 := by omega
    rw [validW_512 h512, dif_neg (by omega)]
    simp

/-! ## Indices from their coordinates -/

private theorem idx3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d; refine Fin.ext ?_
  match d with
  | ⟨0, _⟩ => exact h0
  | ⟨1, _⟩ => exact h1
  | ⟨2, _⟩ => exact h2

private theorem idx2_ext {n0 n1 : Nat} (i : (⟨2, ![n0, n1]⟩ : Shape).Idx) (a : Fin n0) (b : Fin n1)
    (h0 : (i 0).val = a.val) (h1 : (i 1).val = b.val) : i = ix2 a b := by
  funext d; refine Fin.ext ?_
  match d with
  | ⟨0, _⟩ => exact h0
  | ⟨1, _⟩ => exact h1

private theorem idx1_ext {n0 : Nat} (i : (⟨1, ![n0]⟩ : Shape).Idx) (a : Fin n0) (h0 : (i 0).val = a.val) : i = ix1 a := by
  funext d; refine Fin.ext ?_
  match d with
  | ⟨0, _⟩ => exact h0

/-! ## The x axis: operations %0 to %44, at component `k` and point `r` -/

section AxisX
variable (x0 : FVec Ideal SPts .f32) (x1 : FVec Ideal SLines .f32) (k : Fin 64) (r : Fin 1048576)

/-- The sliced, reshaped coordinate. -/
private theorem x_pt : val_main_v1 (F := Ideal) x0 (ix2 (0 : Fin 1) r) = x0 (ix3 0 r 0) := by
  rw [val_main_v1_apply, val_main_v0_apply]
  congr 1
  exact idx3_ext _ _ _ _ rfl (by have := r.isLt; show (0 * 1048576 + r.val) / 1 % 1048576 = r.val; omega) rfl

private theorem x_coord : val_main_v7 (F := Ideal) x0 (ix2 (0 : Fin 1) r) = coord (x0 (ix3 0 r 0)) := by
  rw [val_main_v7_apply, val_main_v5_apply, val_main_v3_apply, x_pt, val_main_v2_apply, val_main_cst_apply,
    val_main_v4_apply, val_main_cst_0_apply, val_main_v6_apply, val_main_cst_1_apply]
  rfl

private theorem x_base : val_main_v8 (F := Ideal) x0 (ix2 (0 : Fin 1) r) = base (x0 (ix3 0 r 0)) := by
  rw [val_main_v8_apply, x_coord]; rfl

private theorem x_frac : val_main_v9 (F := Ideal) x0 (ix2 (0 : Fin 1) r) = frac (x0 (ix3 0 r 0)) := by
  rw [val_main_v9_apply, x_coord, x_base]; rfl

private theorem x_cell : val_main_v11 (F := Ideal) x0 (ix2 (0 : Fin 1) r) = cell (x0 (ix3 0 r 0)) := by
  rw [val_main_v11_apply, x_base]; rfl

private theorem x_frac3 : val_main_v10 (F := Ideal) x0 (ix3 (0 : Fin 1) (0 : Fin 1) r) = frac (x0 (ix3 0 r 0)) := by
  rw [val_main_v10_apply, show idx_main_v10 (ix3 (0 : Fin 1) (0 : Fin 1) r) = ix2 (0 : Fin 1) r from idx2_ext _ _ _ rfl rfl,
    x_frac]

/-- The left neighbour's indicator. -/
private theorem x_valid0 : val_main_v17 (F := Ideal) x0 (ix2 (0 : Fin 1) r)
    = (((validW (cell (x0 (ix3 0 r 0)))).toNat : ℝ) : EReal) := by
  rw [val_main_v17_apply, val_main_v16_apply, val_main_v13_apply, val_main_v15_apply, x_cell, val_main_v12_apply,
    val_main_c_apply, val_main_v14_apply, val_main_c_2_apply]
  rfl

private theorem x_valid0b : val_main_v22 (F := Ideal) x0 (ix3 (0 : Fin 1) k r)
    = (((validW (cell (x0 (ix3 0 r 0)))).toNat : ℝ) : EReal) := by
  rw [val_main_v22_apply,
    show idx_main_v22 (ix3 (0 : Fin 1) k r) = ix3 (0 : Fin 1) (0 : Fin 1) r from idx3_ext _ _ _ _ rfl rfl rfl,
    val_main_v18_apply,
    show idx_main_v18 (ix3 (0 : Fin 1) (0 : Fin 1) r) = ix2 (0 : Fin 1) r from idx2_ext _ _ _ rfl rfl, x_valid0]

/-- The left neighbour's weight. -/
private theorem x_w0 : val_main_v26 (F := Ideal) x0 (ix3 (0 : Fin 1) k r) = oneW - frac (x0 (ix3 0 r 0)) := by
  rw [val_main_v26_apply,
    show idx_main_v26 (ix3 (0 : Fin 1) k r) = ix3 (0 : Fin 1) (0 : Fin 1) r from idx3_ext _ _ _ _ rfl rfl rfl,
    val_main_v25_apply, val_main_v24_apply, val_main_cst_5_apply, x_frac3]
  rfl

/-- The right neighbour's weight. -/
private theorem x_w1 : val_main_v42 (F := Ideal) x0 (ix3 (0 : Fin 1) k r) = frac (x0 (ix3 0 r 0)) := by
  rw [val_main_v42_apply,
    show idx_main_v42 (ix3 (0 : Fin 1) k r) = ix3 (0 : Fin 1) (0 : Fin 1) r from idx3_ext _ _ _ _ rfl rfl rfl, x_frac3]

private theorem x_clip0 : val_main_v19 (F := Ideal) x0 (ix2 (0 : Fin 1) r) = clipW (cell (x0 (ix3 0 r 0))) := by
  rw [val_main_v19_apply, val_main_call0_v4_apply, val_main_call0_v3_apply, val_main_c_4_apply, val_main_call0_v2_apply,
    val_main_call0_v1_apply, val_main_call0_v0_apply, val_main_c_3_apply, x_cell]
  rfl

/-- The left neighbour's start index. -/
private theorem x_idx0 : val_main_call1_v5 (F := Ideal) x0 (ix2 r (0 : Fin 1)) = wrapW (clipW (cell (x0 (ix3 0 r 0)))) := by
  rw [val_main_call1_v5_apply,
    show idx_main_call1_v5 (ix2 r (0 : Fin 1)) = ix3 (0 : Fin 1) (0 : Fin 1) r from
      idx3_ext _ _ _ _ rfl rfl (by have := r.isLt; show (r.val * 1 + 0) % 1048576 = r.val; omega),
    val_main_call1_v4_apply, val_main_call1_v1_apply, val_main_call1_v3_apply, val_main_v20_apply,
    show idx_main_v20 (ix3 (0 : Fin 1) (0 : Fin 1) r) = ix2 (0 : Fin 1) r from idx2_ext _ _ _ rfl rfl, x_clip0,
    val_main_call1_v0_apply, val_main_call1_c_apply, val_main_call1_v2_apply, val_main_call1_c_0_apply]
  rfl

private theorem x_inb0 : val_main_call1_v12 (F := Ideal) x0 (ix1 r)
    = IntOp.andi (inbW (wrapW (clipW (cell (x0 (ix3 0 r 0)))))) 1#1 := by
  unfold val_main_call1_v12
  rw [reduce_col, val_main_call1_v11_apply, val_main_call1_v7_apply, val_main_call1_v10_apply, x_idx0,
    val_main_call1_v6_apply, val_main_call1_c_2_apply, val_main_call1_v9_apply, val_main_call1_v8_apply,
    val_main_call1_c_1_apply, val_main_call1_c_3_apply]
  rfl

/-- The left neighbour's read. -/
private theorem x_read0 : val_main_v23 (F := Ideal) x0 x1 (ix3 (0 : Fin 1) k r)
    = readW (fun l => x1 (ix3 0 k l)) (cell (x0 (ix3 0 r 0))) := by
  rw [val_main_v23_apply, val_main_v21_apply, val_main_call1_v14_apply,
    show idx_main_call1_v14 (ix3 (0 : Fin 1) k r) = ix1 r from idx1_ext _ _ rfl, x_inb0, x_valid0b,
    val_main_call1_v15_apply, val_main_call1_cst_apply]
  unfold val_main_call1_v13
  rw [gather_line, x_idx0]
  rfl

private theorem x_next : val_main_v29 (F := Ideal) x0 (ix2 (0 : Fin 1) r) = IntOp.addi (cell (x0 (ix3 0 r 0))) 1#32 := by
  rw [val_main_v29_apply, x_cell, val_main_v28_apply, val_main_c_6_apply]

/-- The right neighbour's indicator. -/
private theorem x_valid1 : val_main_v35 (F := Ideal) x0 (ix2 (0 : Fin 1) r)
    = (((validW (IntOp.addi (cell (x0 (ix3 0 r 0))) 1#32)).toNat : ℝ) : EReal) := by
  rw [val_main_v35_apply, val_main_v34_apply, val_main_v31_apply, val_main_v33_apply, x_next, val_main_v30_apply,
    val_main_c_7_apply, val_main_v32_apply, val_main_c_8_apply]
  rfl

private theorem x_valid1b : val_main_v40 (F := Ideal) x0 (ix3 (0 : Fin 1) k r)
    = (((validW (IntOp.addi (cell (x0 (ix3 0 r 0))) 1#32)).toNat : ℝ) : EReal) := by
  rw [val_main_v40_apply,
    show idx_main_v40 (ix3 (0 : Fin 1) k r) = ix3 (0 : Fin 1) (0 : Fin 1) r from idx3_ext _ _ _ _ rfl rfl rfl,
    val_main_v36_apply,
    show idx_main_v36 (ix3 (0 : Fin 1) (0 : Fin 1) r) = ix2 (0 : Fin 1) r from idx2_ext _ _ _ rfl rfl, x_valid1]

private theorem x_clip1 : val_main_v37 (F := Ideal) x0 (ix2 (0 : Fin 1) r)
    = clipW (IntOp.addi (cell (x0 (ix3 0 r 0))) 1#32) := by
  rw [val_main_v37_apply, val_main_call2_v4_apply, val_main_call2_v3_apply, val_main_c_10_apply, val_main_call2_v2_apply,
    val_main_call2_v1_apply, val_main_call2_v0_apply, val_main_c_9_apply, x_next]
  rfl

/-- The right neighbour's start index. -/
private theorem x_idx1 : val_main_call3_v5 (F := Ideal) x0 (ix2 r (0 : Fin 1))
    = wrapW (clipW (IntOp.addi (cell (x0 (ix3 0 r 0))) 1#32)) := by
  rw [val_main_call3_v5_apply,
    show idx_main_call3_v5 (ix2 r (0 : Fin 1)) = ix3 (0 : Fin 1) (0 : Fin 1) r from
      idx3_ext _ _ _ _ rfl rfl (by have := r.isLt; show (r.val * 1 + 0) % 1048576 = r.val; omega),
    val_main_call3_v4_apply, val_main_call3_v1_apply, val_main_call3_v3_apply, val_main_v38_apply,
    show idx_main_v38 (ix3 (0 : Fin 1) (0 : Fin 1) r) = ix2 (0 : Fin 1) r from idx2_ext _ _ _ rfl rfl, x_clip1,
    val_main_call3_v0_apply, val_main_call3_c_apply, val_main_call3_v2_apply, val_main_call3_c_0_apply]
  rfl

private theorem x_inb1 : val_main_call3_v12 (F := Ideal) x0 (ix1 r)
    = IntOp.andi (inbW (wrapW (clipW (IntOp.addi (cell (x0 (ix3 0 r 0))) 1#32)))) 1#1 := by
  unfold val_main_call3_v12
  rw [reduce_col, val_main_call3_v11_apply, val_main_call3_v7_apply, val_main_call3_v10_apply, x_idx1,
    val_main_call3_v6_apply, val_main_call3_c_2_apply, val_main_call3_v9_apply, val_main_call3_v8_apply,
    val_main_call3_c_1_apply, val_main_call3_c_3_apply]
  rfl

/-- The right neighbour's read. -/
private theorem x_read1 : val_main_v41 (F := Ideal) x0 x1 (ix3 (0 : Fin 1) k r)
    = readW (fun l => x1 (ix3 0 k l)) (IntOp.addi (cell (x0 (ix3 0 r 0))) 1#32) := by
  rw [val_main_v41_apply, val_main_v39_apply, val_main_call3_v14_apply,
    show idx_main_call3_v14 (ix3 (0 : Fin 1) k r) = ix1 r from idx1_ext _ _ rfl, x_inb1, x_valid1b,
    val_main_call3_v15_apply, val_main_call3_cst_apply]
  unfold val_main_call3_v13
  rw [gather_line, x_idx1]
  rfl

end AxisX

/-- The x axis' interpolated value at component `k` and point `r`. -/
theorem axis_x (x0 : FVec Ideal SPts .f32) (x1 : FVec Ideal SLines .f32) (h : CellsOnLine x0) (k : Fin 64) (r : Fin 1048576) :
    val_main_v44 (F := Ideal) x0 x1 (ix3 (0 : Fin 1) k r) = lerp (fun l => x1 (ix3 0 k l)) (x0 (ix3 0 r 0)) := by
  have hc : (cell (x0 (ix3 0 r 0))).toNat ≤ 511 := h (ix3 0 r 0)
  rw [val_main_v44_apply, val_main_v27_apply, val_main_v43_apply, x_read0, x_w0, x_read1, x_w1,
    readW_eq _ _ (by omega), readW_eq _ _ (by rw [toNat_succ hc]; omega), toNat_succ hc]
  rfl

/-! ## The y axis: operations %45 to %89, the same walk -/

section AxisY
variable (x0 : FVec Ideal SPts .f32) (x2 : FVec Ideal SLines .f32) (k : Fin 64) (r : Fin 1048576)

/-- The sliced, reshaped coordinate. -/
private theorem y_pt : val_main_v46 (F := Ideal) x0 (ix2 (0 : Fin 1) r) = x0 (ix3 0 r 1) := by
  rw [val_main_v46_apply, val_main_v45_apply]
  congr 1
  exact idx3_ext _ _ _ _ rfl (by have := r.isLt; show (0 * 1048576 + r.val) / 1 % 1048576 = r.val; omega) rfl

private theorem y_coord : val_main_v52 (F := Ideal) x0 (ix2 (0 : Fin 1) r) = coord (x0 (ix3 0 r 1)) := by
  rw [val_main_v52_apply, val_main_v50_apply, val_main_v48_apply, y_pt, val_main_v47_apply, val_main_cst_11_apply,
    val_main_v49_apply, val_main_cst_12_apply, val_main_v51_apply, val_main_cst_13_apply]
  rfl

private theorem y_base : val_main_v53 (F := Ideal) x0 (ix2 (0 : Fin 1) r) = base (x0 (ix3 0 r 1)) := by
  rw [val_main_v53_apply, y_coord]; rfl

private theorem y_frac : val_main_v54 (F := Ideal) x0 (ix2 (0 : Fin 1) r) = frac (x0 (ix3 0 r 1)) := by
  rw [val_main_v54_apply, y_coord, y_base]; rfl

private theorem y_cell : val_main_v56 (F := Ideal) x0 (ix2 (0 : Fin 1) r) = cell (x0 (ix3 0 r 1)) := by
  rw [val_main_v56_apply, y_base]; rfl

private theorem y_frac3 : val_main_v55 (F := Ideal) x0 (ix3 (0 : Fin 1) (0 : Fin 1) r) = frac (x0 (ix3 0 r 1)) := by
  rw [val_main_v55_apply, show idx_main_v55 (ix3 (0 : Fin 1) (0 : Fin 1) r) = ix2 (0 : Fin 1) r from idx2_ext _ _ _ rfl rfl,
    y_frac]

/-- The left neighbour's indicator. -/
private theorem y_valid0 : val_main_v62 (F := Ideal) x0 (ix2 (0 : Fin 1) r)
    = (((validW (cell (x0 (ix3 0 r 1)))).toNat : ℝ) : EReal) := by
  rw [val_main_v62_apply, val_main_v61_apply, val_main_v58_apply, val_main_v60_apply, y_cell, val_main_v57_apply,
    val_main_c_14_apply, val_main_v59_apply, val_main_c_15_apply]
  rfl

private theorem y_valid0b : val_main_v67 (F := Ideal) x0 (ix3 (0 : Fin 1) k r)
    = (((validW (cell (x0 (ix3 0 r 1)))).toNat : ℝ) : EReal) := by
  rw [val_main_v67_apply,
    show idx_main_v67 (ix3 (0 : Fin 1) k r) = ix3 (0 : Fin 1) (0 : Fin 1) r from idx3_ext _ _ _ _ rfl rfl rfl,
    val_main_v63_apply,
    show idx_main_v63 (ix3 (0 : Fin 1) (0 : Fin 1) r) = ix2 (0 : Fin 1) r from idx2_ext _ _ _ rfl rfl, y_valid0]

/-- The left neighbour's weight. -/
private theorem y_w0 : val_main_v71 (F := Ideal) x0 (ix3 (0 : Fin 1) k r) = oneW - frac (x0 (ix3 0 r 1)) := by
  rw [val_main_v71_apply,
    show idx_main_v71 (ix3 (0 : Fin 1) k r) = ix3 (0 : Fin 1) (0 : Fin 1) r from idx3_ext _ _ _ _ rfl rfl rfl,
    val_main_v70_apply, val_main_v69_apply, val_main_cst_18_apply, y_frac3]
  rfl

/-- The right neighbour's weight. -/
private theorem y_w1 : val_main_v87 (F := Ideal) x0 (ix3 (0 : Fin 1) k r) = frac (x0 (ix3 0 r 1)) := by
  rw [val_main_v87_apply,
    show idx_main_v87 (ix3 (0 : Fin 1) k r) = ix3 (0 : Fin 1) (0 : Fin 1) r from idx3_ext _ _ _ _ rfl rfl rfl, y_frac3]

private theorem y_clip0 : val_main_v64 (F := Ideal) x0 (ix2 (0 : Fin 1) r) = clipW (cell (x0 (ix3 0 r 1))) := by
  rw [val_main_v64_apply, val_main_call4_v4_apply, val_main_call4_v3_apply, val_main_c_17_apply, val_main_call4_v2_apply,
    val_main_call4_v1_apply, val_main_call4_v0_apply, val_main_c_16_apply, y_cell]
  rfl

/-- The left neighbour's start index. -/
private theorem y_idx0 : val_main_call5_v5 (F := Ideal) x0 (ix2 r (0 : Fin 1)) = wrapW (clipW (cell (x0 (ix3 0 r 1)))) := by
  rw [val_main_call5_v5_apply,
    show idx_main_call5_v5 (ix2 r (0 : Fin 1)) = ix3 (0 : Fin 1) (0 : Fin 1) r from
      idx3_ext _ _ _ _ rfl rfl (by have := r.isLt; show (r.val * 1 + 0) % 1048576 = r.val; omega),
    val_main_call5_v4_apply, val_main_call5_v1_apply, val_main_call5_v3_apply, val_main_v65_apply,
    show idx_main_v65 (ix3 (0 : Fin 1) (0 : Fin 1) r) = ix2 (0 : Fin 1) r from idx2_ext _ _ _ rfl rfl, y_clip0,
    val_main_call5_v0_apply, val_main_call5_c_apply, val_main_call5_v2_apply, val_main_call5_c_0_apply]
  rfl

private theorem y_inb0 : val_main_call5_v12 (F := Ideal) x0 (ix1 r)
    = IntOp.andi (inbW (wrapW (clipW (cell (x0 (ix3 0 r 1)))))) 1#1 := by
  unfold val_main_call5_v12
  rw [reduce_col, val_main_call5_v11_apply, val_main_call5_v7_apply, val_main_call5_v10_apply, y_idx0,
    val_main_call5_v6_apply, val_main_call5_c_2_apply, val_main_call5_v9_apply, val_main_call5_v8_apply,
    val_main_call5_c_1_apply, val_main_call5_c_3_apply]
  rfl

/-- The left neighbour's read. -/
private theorem y_read0 : val_main_v68 (F := Ideal) x0 x2 (ix3 (0 : Fin 1) k r)
    = readW (fun l => x2 (ix3 0 k l)) (cell (x0 (ix3 0 r 1))) := by
  rw [val_main_v68_apply, val_main_v66_apply, val_main_call5_v14_apply,
    show idx_main_call5_v14 (ix3 (0 : Fin 1) k r) = ix1 r from idx1_ext _ _ rfl, y_inb0, y_valid0b,
    val_main_call5_v15_apply, val_main_call5_cst_apply]
  unfold val_main_call5_v13
  rw [gather_line, y_idx0]
  rfl

private theorem y_next : val_main_v74 (F := Ideal) x0 (ix2 (0 : Fin 1) r) = IntOp.addi (cell (x0 (ix3 0 r 1))) 1#32 := by
  rw [val_main_v74_apply, y_cell, val_main_v73_apply, val_main_c_19_apply]

/-- The right neighbour's indicator. -/
private theorem y_valid1 : val_main_v80 (F := Ideal) x0 (ix2 (0 : Fin 1) r)
    = (((validW (IntOp.addi (cell (x0 (ix3 0 r 1))) 1#32)).toNat : ℝ) : EReal) := by
  rw [val_main_v80_apply, val_main_v79_apply, val_main_v76_apply, val_main_v78_apply, y_next, val_main_v75_apply,
    val_main_c_20_apply, val_main_v77_apply, val_main_c_21_apply]
  rfl

private theorem y_valid1b : val_main_v85 (F := Ideal) x0 (ix3 (0 : Fin 1) k r)
    = (((validW (IntOp.addi (cell (x0 (ix3 0 r 1))) 1#32)).toNat : ℝ) : EReal) := by
  rw [val_main_v85_apply,
    show idx_main_v85 (ix3 (0 : Fin 1) k r) = ix3 (0 : Fin 1) (0 : Fin 1) r from idx3_ext _ _ _ _ rfl rfl rfl,
    val_main_v81_apply,
    show idx_main_v81 (ix3 (0 : Fin 1) (0 : Fin 1) r) = ix2 (0 : Fin 1) r from idx2_ext _ _ _ rfl rfl, y_valid1]

private theorem y_clip1 : val_main_v82 (F := Ideal) x0 (ix2 (0 : Fin 1) r)
    = clipW (IntOp.addi (cell (x0 (ix3 0 r 1))) 1#32) := by
  rw [val_main_v82_apply, val_main_call6_v4_apply, val_main_call6_v3_apply, val_main_c_23_apply, val_main_call6_v2_apply,
    val_main_call6_v1_apply, val_main_call6_v0_apply, val_main_c_22_apply, y_next]
  rfl

/-- The right neighbour's start index. -/
private theorem y_idx1 : val_main_call7_v5 (F := Ideal) x0 (ix2 r (0 : Fin 1))
    = wrapW (clipW (IntOp.addi (cell (x0 (ix3 0 r 1))) 1#32)) := by
  rw [val_main_call7_v5_apply,
    show idx_main_call7_v5 (ix2 r (0 : Fin 1)) = ix3 (0 : Fin 1) (0 : Fin 1) r from
      idx3_ext _ _ _ _ rfl rfl (by have := r.isLt; show (r.val * 1 + 0) % 1048576 = r.val; omega),
    val_main_call7_v4_apply, val_main_call7_v1_apply, val_main_call7_v3_apply, val_main_v83_apply,
    show idx_main_v83 (ix3 (0 : Fin 1) (0 : Fin 1) r) = ix2 (0 : Fin 1) r from idx2_ext _ _ _ rfl rfl, y_clip1,
    val_main_call7_v0_apply, val_main_call7_c_apply, val_main_call7_v2_apply, val_main_call7_c_0_apply]
  rfl

private theorem y_inb1 : val_main_call7_v12 (F := Ideal) x0 (ix1 r)
    = IntOp.andi (inbW (wrapW (clipW (IntOp.addi (cell (x0 (ix3 0 r 1))) 1#32)))) 1#1 := by
  unfold val_main_call7_v12
  rw [reduce_col, val_main_call7_v11_apply, val_main_call7_v7_apply, val_main_call7_v10_apply, y_idx1,
    val_main_call7_v6_apply, val_main_call7_c_2_apply, val_main_call7_v9_apply, val_main_call7_v8_apply,
    val_main_call7_c_1_apply, val_main_call7_c_3_apply]
  rfl

/-- The right neighbour's read. -/
private theorem y_read1 : val_main_v86 (F := Ideal) x0 x2 (ix3 (0 : Fin 1) k r)
    = readW (fun l => x2 (ix3 0 k l)) (IntOp.addi (cell (x0 (ix3 0 r 1))) 1#32) := by
  rw [val_main_v86_apply, val_main_v84_apply, val_main_call7_v14_apply,
    show idx_main_call7_v14 (ix3 (0 : Fin 1) k r) = ix1 r from idx1_ext _ _ rfl, y_inb1, y_valid1b,
    val_main_call7_v15_apply, val_main_call7_cst_apply]
  unfold val_main_call7_v13
  rw [gather_line, y_idx1]
  rfl

end AxisY

/-- The y axis' interpolated value. -/
theorem axis_y (x0 : FVec Ideal SPts .f32) (x2 : FVec Ideal SLines .f32) (h : CellsOnLine x0) (k : Fin 64) (r : Fin 1048576) :
    val_main_v89 (F := Ideal) x0 x2 (ix3 (0 : Fin 1) k r) = lerp (fun l => x2 (ix3 0 k l)) (x0 (ix3 0 r 1)) := by
  have hc : (cell (x0 (ix3 0 r 1))).toNat ≤ 511 := h (ix3 0 r 1)
  rw [val_main_v89_apply, val_main_v72_apply, val_main_v88_apply, y_read0, y_w0, y_read1, y_w1,
    readW_eq _ _ (by omega), readW_eq _ _ (by rw [toNat_succ hc]; omega), toNat_succ hc]
  rfl

/-! ## The z axis: operations %90 to %134, the same walk -/

section AxisZ
variable (x0 : FVec Ideal SPts .f32) (x3 : FVec Ideal SLines .f32) (k : Fin 64) (r : Fin 1048576)

/-- The sliced, reshaped coordinate. -/
private theorem z_pt : val_main_v91 (F := Ideal) x0 (ix2 (0 : Fin 1) r) = x0 (ix3 0 r 2) := by
  rw [val_main_v91_apply, val_main_v90_apply]
  congr 1
  exact idx3_ext _ _ _ _ rfl (by have := r.isLt; show (0 * 1048576 + r.val) / 1 % 1048576 = r.val; omega) rfl

private theorem z_coord : val_main_v97 (F := Ideal) x0 (ix2 (0 : Fin 1) r) = coord (x0 (ix3 0 r 2)) := by
  rw [val_main_v97_apply, val_main_v95_apply, val_main_v93_apply, z_pt, val_main_v92_apply, val_main_cst_24_apply,
    val_main_v94_apply, val_main_cst_25_apply, val_main_v96_apply, val_main_cst_26_apply]
  rfl

private theorem z_base : val_main_v98 (F := Ideal) x0 (ix2 (0 : Fin 1) r) = base (x0 (ix3 0 r 2)) := by
  rw [val_main_v98_apply, z_coord]; rfl

private theorem z_frac : val_main_v99 (F := Ideal) x0 (ix2 (0 : Fin 1) r) = frac (x0 (ix3 0 r 2)) := by
  rw [val_main_v99_apply, z_coord, z_base]; rfl

private theorem z_cell : val_main_v101 (F := Ideal) x0 (ix2 (0 : Fin 1) r) = cell (x0 (ix3 0 r 2)) := by
  rw [val_main_v101_apply, z_base]; rfl

private theorem z_frac3 : val_main_v100 (F := Ideal) x0 (ix3 (0 : Fin 1) (0 : Fin 1) r) = frac (x0 (ix3 0 r 2)) := by
  rw [val_main_v100_apply, show idx_main_v100 (ix3 (0 : Fin 1) (0 : Fin 1) r) = ix2 (0 : Fin 1) r from idx2_ext _ _ _ rfl rfl,
    z_frac]

/-- The left neighbour's indicator. -/
private theorem z_valid0 : val_main_v107 (F := Ideal) x0 (ix2 (0 : Fin 1) r)
    = (((validW (cell (x0 (ix3 0 r 2)))).toNat : ℝ) : EReal) := by
  rw [val_main_v107_apply, val_main_v106_apply, val_main_v103_apply, val_main_v105_apply, z_cell, val_main_v102_apply,
    val_main_c_27_apply, val_main_v104_apply, val_main_c_28_apply]
  rfl

private theorem z_valid0b : val_main_v112 (F := Ideal) x0 (ix3 (0 : Fin 1) k r)
    = (((validW (cell (x0 (ix3 0 r 2)))).toNat : ℝ) : EReal) := by
  rw [val_main_v112_apply,
    show idx_main_v112 (ix3 (0 : Fin 1) k r) = ix3 (0 : Fin 1) (0 : Fin 1) r from idx3_ext _ _ _ _ rfl rfl rfl,
    val_main_v108_apply,
    show idx_main_v108 (ix3 (0 : Fin 1) (0 : Fin 1) r) = ix2 (0 : Fin 1) r from idx2_ext _ _ _ rfl rfl, z_valid0]

/-- The left neighbour's weight. -/
private theorem z_w0 : val_main_v116 (F := Ideal) x0 (ix3 (0 : Fin 1) k r) = oneW - frac (x0 (ix3 0 r 2)) := by
  rw [val_main_v116_apply,
    show idx_main_v116 (ix3 (0 : Fin 1) k r) = ix3 (0 : Fin 1) (0 : Fin 1) r from idx3_ext _ _ _ _ rfl rfl rfl,
    val_main_v115_apply, val_main_v114_apply, val_main_cst_31_apply, z_frac3]
  rfl

/-- The right neighbour's weight. -/
private theorem z_w1 : val_main_v132 (F := Ideal) x0 (ix3 (0 : Fin 1) k r) = frac (x0 (ix3 0 r 2)) := by
  rw [val_main_v132_apply,
    show idx_main_v132 (ix3 (0 : Fin 1) k r) = ix3 (0 : Fin 1) (0 : Fin 1) r from idx3_ext _ _ _ _ rfl rfl rfl, z_frac3]

private theorem z_clip0 : val_main_v109 (F := Ideal) x0 (ix2 (0 : Fin 1) r) = clipW (cell (x0 (ix3 0 r 2))) := by
  rw [val_main_v109_apply, val_main_call8_v4_apply, val_main_call8_v3_apply, val_main_c_30_apply, val_main_call8_v2_apply,
    val_main_call8_v1_apply, val_main_call8_v0_apply, val_main_c_29_apply, z_cell]
  rfl

/-- The left neighbour's start index. -/
private theorem z_idx0 : val_main_call9_v5 (F := Ideal) x0 (ix2 r (0 : Fin 1)) = wrapW (clipW (cell (x0 (ix3 0 r 2)))) := by
  rw [val_main_call9_v5_apply,
    show idx_main_call9_v5 (ix2 r (0 : Fin 1)) = ix3 (0 : Fin 1) (0 : Fin 1) r from
      idx3_ext _ _ _ _ rfl rfl (by have := r.isLt; show (r.val * 1 + 0) % 1048576 = r.val; omega),
    val_main_call9_v4_apply, val_main_call9_v1_apply, val_main_call9_v3_apply, val_main_v110_apply,
    show idx_main_v110 (ix3 (0 : Fin 1) (0 : Fin 1) r) = ix2 (0 : Fin 1) r from idx2_ext _ _ _ rfl rfl, z_clip0,
    val_main_call9_v0_apply, val_main_call9_c_apply, val_main_call9_v2_apply, val_main_call9_c_0_apply]
  rfl

private theorem z_inb0 : val_main_call9_v12 (F := Ideal) x0 (ix1 r)
    = IntOp.andi (inbW (wrapW (clipW (cell (x0 (ix3 0 r 2)))))) 1#1 := by
  unfold val_main_call9_v12
  rw [reduce_col, val_main_call9_v11_apply, val_main_call9_v7_apply, val_main_call9_v10_apply, z_idx0,
    val_main_call9_v6_apply, val_main_call9_c_2_apply, val_main_call9_v9_apply, val_main_call9_v8_apply,
    val_main_call9_c_1_apply, val_main_call9_c_3_apply]
  rfl

/-- The left neighbour's read. -/
private theorem z_read0 : val_main_v113 (F := Ideal) x0 x3 (ix3 (0 : Fin 1) k r)
    = readW (fun l => x3 (ix3 0 k l)) (cell (x0 (ix3 0 r 2))) := by
  rw [val_main_v113_apply, val_main_v111_apply, val_main_call9_v14_apply,
    show idx_main_call9_v14 (ix3 (0 : Fin 1) k r) = ix1 r from idx1_ext _ _ rfl, z_inb0, z_valid0b,
    val_main_call9_v15_apply, val_main_call9_cst_apply]
  unfold val_main_call9_v13
  rw [gather_line, z_idx0]
  rfl

private theorem z_next : val_main_v119 (F := Ideal) x0 (ix2 (0 : Fin 1) r) = IntOp.addi (cell (x0 (ix3 0 r 2))) 1#32 := by
  rw [val_main_v119_apply, z_cell, val_main_v118_apply, val_main_c_32_apply]

/-- The right neighbour's indicator. -/
private theorem z_valid1 : val_main_v125 (F := Ideal) x0 (ix2 (0 : Fin 1) r)
    = (((validW (IntOp.addi (cell (x0 (ix3 0 r 2))) 1#32)).toNat : ℝ) : EReal) := by
  rw [val_main_v125_apply, val_main_v124_apply, val_main_v121_apply, val_main_v123_apply, z_next, val_main_v120_apply,
    val_main_c_33_apply, val_main_v122_apply, val_main_c_34_apply]
  rfl

private theorem z_valid1b : val_main_v130 (F := Ideal) x0 (ix3 (0 : Fin 1) k r)
    = (((validW (IntOp.addi (cell (x0 (ix3 0 r 2))) 1#32)).toNat : ℝ) : EReal) := by
  rw [val_main_v130_apply,
    show idx_main_v130 (ix3 (0 : Fin 1) k r) = ix3 (0 : Fin 1) (0 : Fin 1) r from idx3_ext _ _ _ _ rfl rfl rfl,
    val_main_v126_apply,
    show idx_main_v126 (ix3 (0 : Fin 1) (0 : Fin 1) r) = ix2 (0 : Fin 1) r from idx2_ext _ _ _ rfl rfl, z_valid1]

private theorem z_clip1 : val_main_v127 (F := Ideal) x0 (ix2 (0 : Fin 1) r)
    = clipW (IntOp.addi (cell (x0 (ix3 0 r 2))) 1#32) := by
  rw [val_main_v127_apply, val_main_call10_v4_apply, val_main_call10_v3_apply, val_main_c_36_apply, val_main_call10_v2_apply,
    val_main_call10_v1_apply, val_main_call10_v0_apply, val_main_c_35_apply, z_next]
  rfl

/-- The right neighbour's start index. -/
private theorem z_idx1 : val_main_call11_v5 (F := Ideal) x0 (ix2 r (0 : Fin 1))
    = wrapW (clipW (IntOp.addi (cell (x0 (ix3 0 r 2))) 1#32)) := by
  rw [val_main_call11_v5_apply,
    show idx_main_call11_v5 (ix2 r (0 : Fin 1)) = ix3 (0 : Fin 1) (0 : Fin 1) r from
      idx3_ext _ _ _ _ rfl rfl (by have := r.isLt; show (r.val * 1 + 0) % 1048576 = r.val; omega),
    val_main_call11_v4_apply, val_main_call11_v1_apply, val_main_call11_v3_apply, val_main_v128_apply,
    show idx_main_v128 (ix3 (0 : Fin 1) (0 : Fin 1) r) = ix2 (0 : Fin 1) r from idx2_ext _ _ _ rfl rfl, z_clip1,
    val_main_call11_v0_apply, val_main_call11_c_apply, val_main_call11_v2_apply, val_main_call11_c_0_apply]
  rfl

private theorem z_inb1 : val_main_call11_v12 (F := Ideal) x0 (ix1 r)
    = IntOp.andi (inbW (wrapW (clipW (IntOp.addi (cell (x0 (ix3 0 r 2))) 1#32)))) 1#1 := by
  unfold val_main_call11_v12
  rw [reduce_col, val_main_call11_v11_apply, val_main_call11_v7_apply, val_main_call11_v10_apply, z_idx1,
    val_main_call11_v6_apply, val_main_call11_c_2_apply, val_main_call11_v9_apply, val_main_call11_v8_apply,
    val_main_call11_c_1_apply, val_main_call11_c_3_apply]
  rfl

/-- The right neighbour's read. -/
private theorem z_read1 : val_main_v131 (F := Ideal) x0 x3 (ix3 (0 : Fin 1) k r)
    = readW (fun l => x3 (ix3 0 k l)) (IntOp.addi (cell (x0 (ix3 0 r 2))) 1#32) := by
  rw [val_main_v131_apply, val_main_v129_apply, val_main_call11_v14_apply,
    show idx_main_call11_v14 (ix3 (0 : Fin 1) k r) = ix1 r from idx1_ext _ _ rfl, z_inb1, z_valid1b,
    val_main_call11_v15_apply, val_main_call11_cst_apply]
  unfold val_main_call11_v13
  rw [gather_line, z_idx1]
  rfl

end AxisZ

/-- The z axis' interpolated value. -/
theorem axis_z (x0 : FVec Ideal SPts .f32) (x3 : FVec Ideal SLines .f32) (h : CellsOnLine x0) (k : Fin 64) (r : Fin 1048576) :
    val_main_v134 (F := Ideal) x0 x3 (ix3 (0 : Fin 1) k r) = lerp (fun l => x3 (ix3 0 k l)) (x0 (ix3 0 r 2)) := by
  have hc : (cell (x0 (ix3 0 r 2))).toNat ≤ 511 := h (ix3 0 r 2)
  rw [val_main_v134_apply, val_main_v117_apply, val_main_v133_apply, z_read0, z_w0, z_read1, z_w1,
    readW_eq _ _ (by omega), readW_eq _ _ (by rw [toNat_succ hc]; omega), toNat_succ hc]
  rfl

/-! ## The result -/

/-- The reference's result array is the specification's, when every cell is on the line. -/
theorem ref_eq_feat (x0 : FVec Ideal SPts .f32) (x1 x2 x3 : FVec Ideal SLines .f32) (x4 : FVec Ideal SBasis .f32)
    (h : CellsOnLine x0) :
    val_main_v137 (F := Ideal) x0 x1 x2 x3 x4 = feat x0 x1 x2 x3 x4 := by
  funext i
  rw [val_main_v137_apply]
  unfold feat
  refine Finset.sum_congr rfl fun c _ => ?_
  have h0 : (i 0).val < 1 := (i 0).isLt
  have hl : lidx_main_v137 i c = ix3 (0 : Fin 1) c (⟨(i 1).val, (i 1).isLt⟩ : Fin 1048576) :=
    idx3_ext _ _ _ _ (by show (i 0).val = 0; omega) rfl rfl
  have hr : ridx_main_v137 i c = ix3 (0 : Fin 1) c (⟨(i 2).val, (i 2).isLt⟩ : Fin 32) :=
    idx3_ext _ _ _ _ (by show (i 0).val = 0; omega) rfl rfl
  rw [hl, hr, val_main_v136_apply, val_main_v135_apply, axis_x x0 x1 h c, axis_y x0 x2 h c, axis_z x0 x3 h c]
  rfl

end Cert.Voxel.RefSide

end
-- ==== Proof.RangeOfPre.lean ====
/-
  From the precondition to the cells.

  The precondition says every input is finite and every point coordinate lies in [-1, 1]. Of this only the range of the
  points is used: for -1 ≤ p ≤ 1 the grid coordinate (p + 1) · ½ · 511 lies in [0, 511], so does its integer part, and
  the 32-bit word of that integer reads back a number that is at most 511.
-/
import proofs.«413230_j69423851373082_3_alg».proof.Pre_finite_inputs
import proofs.«413230_j69423851373082_3_alg».proof.Proof.Spec
import Idealize.ShloMosaic.Lib.ReduceAll
import Idealize.ShloMosaic.Lib.StableHlo.Predicate

noncomputable section

namespace Cert.Voxel

open Idealize.ShloMosaic Idealize.ShloMosaic.ValueIdx

/-- The word of 1 denotes the real 1. -/
private theorem oneW_eq : oneW = ((1 : ℝ) : EReal) := by
  simp [oneW, Ideal.ofBits, Ideal.ieee, -EReal.coe_mul]; norm_num

/-- The word of ½ denotes the real ½. -/
private theorem halfW_eq : halfW = ((1 / 2 : ℝ) : EReal) := by
  simp [halfW, Ideal.ofBits, Ideal.ieee, -EReal.coe_mul]; norm_num

/-- The word of 511 denotes the real 511. -/
private theorem lastW_eq : lastW = ((511 : ℝ) : EReal) := by
  simp [lastW, Ideal.ofBits, Ideal.ieee, -EReal.coe_mul]; norm_num

/-- The word of -1 denotes the real -1. -/
private theorem negOneW_eq : Ideal.ofBits .f32 0xBF800000#32 = ((-1 : ℝ) : EReal) := by
  simp [Ideal.ofBits, Ideal.ieee, -EReal.coe_mul]; norm_num

/-- The grid coordinate of a real coordinate is the real (r + 1) · ½ · 511. -/
private theorem coord_coe (r : ℝ) : coord (r : EReal) = (((r + 1) * (1 / 2) * 511 : ℝ) : EReal) := by
  unfold coord
  rw [oneW_eq, halfW_eq, lastW_eq, ← EReal.coe_add, ← EReal.coe_mul, ← EReal.coe_mul]

/-- The 32-bit word of an integer between 0 and 511 reads back that integer. -/
private theorem toNat_fptosi_intCast (n : ℤ) (h0 : 0 ≤ n) (h1 : n ≤ 511) :
    (Ideal.fptosi 32 (((n : ℝ)) : EReal)).toNat = n.toNat := by
  have hr : (0 : ℝ) ≤ (n : ℝ) := by exact_mod_cast h0
  rw [Ideal.fptosi, Ideal.toIntClamped_coe, if_pos hr, Int.floor_intCast, BitVec.toNat_ofInt]
  have e1 : min (((2 ^ (32 - 1) : ℕ) : ℤ) - 1) n = n := min_eq_right (by norm_num; omega)
  have e2 : max (-((2 ^ (32 - 1) : ℕ) : ℤ)) n = n := max_eq_right (by norm_num; omega)
  rw [e1, e2]
  have : n % ((2 ^ 32 : ℕ) : ℤ) = n := Int.emod_eq_of_lt h0 (by norm_num; omega)
  rw [this]

/-- A coordinate in [-1, 1] has its cell on the line. -/
theorem cell_le_of_range (p : EReal) (hlo : ((-1 : ℝ) : EReal) ≤ p) (hhi : p ≤ ((1 : ℝ) : EReal)) : (cell p).toNat ≤ 511 := by
  induction p using EReal.rec with
  | bot => exact absurd (le_bot_iff.1 hlo) (EReal.coe_ne_bot _)
  | top => exact absurd (top_le_iff.1 hhi) (EReal.coe_ne_top _)
  | coe r =>
    have h1 : (-1 : ℝ) ≤ r := EReal.coe_le_coe_iff.1 hlo
    have h2 : r ≤ 1 := EReal.coe_le_coe_iff.1 hhi
    have hx0 : (0 : ℝ) ≤ (r + 1) * (1 / 2) * 511 := by nlinarith
    have hx1 : (r + 1) * (1 / 2) * 511 ≤ (511 : ℝ) := by nlinarith
    have hf0 : 0 ≤ ⌊(r + 1) * (1 / 2) * 511⌋ := Int.floor_nonneg.2 hx0
    have hf1 : ⌊(r + 1) * (1 / 2) * 511⌋ ≤ 511 := by
      have : ⌊(r + 1) * (1 / 2) * 511⌋ ≤ ⌊(511 : ℝ)⌋ := Int.floor_le_floor hx1
      simpa using this
    have hb : base (r : EReal) = (((⌊(r + 1) * (1 / 2) * 511⌋ : ℤ) : ℝ) : EReal) := by
      unfold base; rw [coord_coe, Ideal.liftRound_coe]
    unfold cell
    rw [hb, toNat_fptosi_intCast _ hf0 hf1]
    omega

/-- The precondition puts every point coordinate's cell on the line. -/
theorem cellsOnLine_of_pre [Cert.Pre_finite_inputs.Facts]
    (a0 : FVec Ideal SPts .f32) (a1 a2 a3 : FVec Ideal SLines .f32) (a4 : FVec Ideal SBasis .f32)
    (h : Cert.Pre_finite_inputs.fn (F := Ideal) a0 a1 a2 a3 a4 = fun _ => 1#1) : CellsOnLine a0 := by
  intro i
  have h0 := congrFun h ValueIdx.ix0
  dsimp only [Cert.Pre_finite_inputs.fn, Cert.Pre_finite_inputs.fn_part1] at h0
  -- the last conjunct: the all-reduction of the range test
  have h1 := (IntOp.andi_eq_one.1 h0).2
  haveI : Subsingleton Cert.Pre_finite_inputs.S_.Idx := ⟨fun a b => funext fun d => d.elim0⟩
  have h2 := Host.reduce_andi_all _ _ _ _ _ h1 i
  -- at the index i: both comparisons hold
  obtain ⟨hge, hle⟩ := IntOp.andi_eq_one.1 h2
  -- on the extended reals a comparison is the order's, and a broadcast constant reads its word everywhere
  have hge' : Ideal.cmp .oge (a0 i) (Ideal.ofBits .f32 0xBF800000#32) = 1#1 := hge
  have hle' : Ideal.cmp .ole (a0 i) (Ideal.ofBits .f32 0x3F800000#32) = 1#1 := hle
  rw [negOneW_eq] at hge'
  rw [show Ideal.ofBits .f32 0x3F800000#32 = ((1 : ℝ) : EReal) from oneW_eq] at hle'
  exact cell_le_of_range (a0 i) (of_decide_eq_true ((StableHlo.Predicate.ofBool_eq_one_iff _).1 hge'))
    (of_decide_eq_true ((StableHlo.Predicate.ofBool_eq_one_iff _).1 hle'))

end Cert.Voxel

end
-- ==== Proof.OneHot.lean ====
/-
  A one-hot row against a line is a zero-padded tap.

  The kernel selects sample `j` of a line by multiplying the line with the row whose lane `l` is the indicator
  `l = j` (a word compare widened to 32 bits and read as a number) and summing over the 512 lanes. At most one lane
  is set, and none when `j` is off the line, so the sum is `tapAt` at `j`: a product with zero vanishes on the
  extended reals whatever the other factor. A line shifted by one sample with a zero at its end, tapped at `n`, is
  the line tapped at `n + 1`.
-/
import proofs.«413230_j69423851373082_3_alg».proof.Proof.Spec
import Idealize.ShloMosaic.Lib.StableHlo.Predicate

noncomputable section

open scoped BigOperators

namespace Cert.Voxel

open Idealize.ShloMosaic Idealize.ShloMosaic.ValueIdx

/-- The weight lane `l` gets for cell `j`: the compare `l = j`, widened, read signed. -/
def laneWeight (l : ℕ) (j : BitVec 32) : EReal :=
  ((((IntOp.cmpi .eq (BitVec.ofNat 32 l) j).setWidth 32).toInt : ℝ) : EReal)

/-- It is one on the lane of the cell and zero elsewhere. -/
theorem laneWeight_eq (l : Fin 512) (j : BitVec 32) : laneWeight l.val j = if l.val = j.toNat then 1 else 0 := by
  unfold laneWeight
  by_cases h : l.val = j.toNat
  · have hj : BitVec.ofNat 32 l.val = j := by
      apply BitVec.eq_of_toNat_eq
      rw [BitVec.toNat_ofNat, h]
      exact Nat.mod_eq_of_lt j.isLt
    have hc : IntOp.cmpi .eq (BitVec.ofNat 32 l.val) j = 1#1 := StableHlo.Predicate.cmpi_eq_iff.mpr hj
    rw [hc, if_pos h]
    norm_num
  · have hc : IntOp.cmpi .eq (BitVec.ofNat 32 l.val) j = 0#1 := by
      apply eq_zero_of_ne_one
      intro h1
      have hj := StableHlo.Predicate.cmpi_eq_iff.mp h1
      apply h
      have := congrArg BitVec.toNat hj
      simp only [BitVec.toNat_ofNat] at this
      have hl : l.val < 512 := l.isLt
      omega
    rw [hc, if_neg h]
    norm_num

/-- The one-hot row of cell `j` against a line sums to the line's tap at `j`. -/
theorem onehot_sum (j : BitVec 32) (T : Fin 512 → EReal) :
    ∑ l : Fin 512, laneWeight l.val j * T l = tapAt T j.toNat := by
  simp only [laneWeight_eq]
  unfold tapAt
  by_cases h : j.toNat < 512
  · rw [dif_pos h, Finset.sum_eq_single (⟨j.toNat, h⟩ : Fin 512)]
    · rw [if_pos rfl, one_mul]
    · intro l _ hl
      rw [if_neg (fun e => hl (Fin.ext e)), zero_mul]
    · intro hn; exact absurd (Finset.mem_univ _) hn
  · rw [dif_neg h]
    refine Finset.sum_eq_zero fun l _ => ?_
    have hl : l.val < 512 := l.isLt
    rw [if_neg (by omega), zero_mul]

/-- The line shifted by one sample, zero at its end, tapped at `n`: the line tapped at `n + 1`. -/
theorem tapAt_shift (src : Fin 512 → EReal) (n : ℕ) :
    tapAt (fun l : Fin 512 => tapAt src (l.val + 1)) n = tapAt src (n + 1) := by
  by_cases h : n < 512
  · unfold tapAt; rw [dif_pos h]
  · unfold tapAt; rw [dif_neg h, dif_neg (by omega)]

end Cert.Voxel

end
-- ==== Proof.KernelBlock.lean ====
/-
  One grid point of the kernel, at an index.

  The body takes a block of 2048 points and, per axis, forms the one-hot row of each point's cell over the 512 lanes,
  multiplies it into the table and into the shifted table (two contractions over the lanes), and mixes the two results
  with the weights 1 − frac and frac. A one-hot row against a column of a table is the zero-padded tap of that column at
  the cell. The three axes' values are multiplied and contracted with the basis over the 64 components. Changes of
  float format are the identity on the extended reals, and a contraction into a zero accumulator is the plain sum.
-/
import proofs.«413230_j69423851373082_3_alg».proof.Proof.Gen.KernelIdeal.Frame
import proofs.«413230_j69423851373082_3_alg».proof.Proof.Spec
import proofs.«413230_j69423851373082_3_alg».proof.Proof.OneHot
import Idealize.ShloMosaic.Lib.Pipeline.Value
import Idealize.ShloMosaic.Lib.ValueLayout
import Idealize.ShloMosaic.PureOps.Ideal.Laws

noncomputable section

open scoped BigOperators

namespace Cert.Voxel.KernelSide

open Idealize.ShloMosaic Idealize.ShloMosaic.TcCoe Idealize.ShloMosaic.ValueIdx Idealize.SL.Sem
open Cert.KernelIdeal Cert.KernelIdeal.Gen Cert.Voxel

/-! ## The two contractions read at an index -/

theorem lhs_lanes_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_lanes_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_lanes_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_lanes_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- A row of 512 lanes against a [512, 64] table, into a zero accumulator: the sum over the lanes. -/
theorem lanes_matmul_apply (L : FVec Ideal S2048x512 .bf16) (R : FVec Ideal S512x64 .bf16) (p : Fin 2048) (c : Fin 64) :
    matmul dot_S2048x512_S512x64_S2048x64_1_0_0_1_n_n none L R (constant S2048x64 .f32 0x00000000#32) (ix2 p c)
      = ∑ l : Fin 512, L (ix2 p l) * R (ix2 l c) := by
  show FloatOps.matmul _ _ _ _ _ _ = _
  rw [Ideal.matmul_constant_zero_apply, ← Equiv.sum_comp (contrEquiv1 dot_S2048x512_S512x64_S2048x64_1_0_0_1_n_n 512 rfl rfl).symm]
  refine Finset.sum_congr rfl fun l _ => ?_
  have hk := contrEquiv1_symm_val dot_S2048x512_S512x64_S2048x64_1_0_0_1_n_n 512 rfl rfl l
  have el : dot_S2048x512_S512x64_S2048x64_1_0_0_1_n_n.lhsIdx (ix2 p c) ((contrEquiv1 dot_S2048x512_S512x64_S2048x64_1_0_0_1_n_n 512 rfl rfl).symm l) = ix2 p l := funext fun a => Fin.ext (by
    match a with
    | ⟨0, _⟩ => exact lhs_lanes_0 _ _
    | ⟨1, _⟩ => exact (lhs_lanes_1 _ _).trans hk)
  have er : dot_S2048x512_S512x64_S2048x64_1_0_0_1_n_n.rhsIdx (ix2 p c) ((contrEquiv1 dot_S2048x512_S512x64_S2048x64_1_0_0_1_n_n 512 rfl rfl).symm l) = ix2 l c := funext fun a => Fin.ext (by
    match a with
    | ⟨0, _⟩ => exact (rhs_lanes_0 _ _).trans hk
    | ⟨1, _⟩ => exact rhs_lanes_1 _ _)
  rw [el, er]

theorem lhs_comps_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_comps_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_comps_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_comps_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- A row of 64 components against the [64, 32] basis, into a zero accumulator: the sum over the components. -/
theorem comps_matmul_apply (L : FVec Ideal S2048x64 .bf16) (R : FVec Ideal S64x32 .bf16) (p : Fin 2048) (f : Fin 32) :
    matmul dot_S2048x64_S64x32_S2048x32_1_0_0_1_n_n none L R (constant S2048x32 .f32 0x00000000#32) (ix2 p f)
      = ∑ c : Fin 64, L (ix2 p c) * R (ix2 c f) := by
  show FloatOps.matmul _ _ _ _ _ _ = _
  rw [Ideal.matmul_constant_zero_apply, ← Equiv.sum_comp (contrEquiv1 dot_S2048x64_S64x32_S2048x32_1_0_0_1_n_n 64 rfl rfl).symm]
  refine Finset.sum_congr rfl fun l _ => ?_
  have hk := contrEquiv1_symm_val dot_S2048x64_S64x32_S2048x32_1_0_0_1_n_n 64 rfl rfl l
  have el : dot_S2048x64_S64x32_S2048x32_1_0_0_1_n_n.lhsIdx (ix2 p f) ((contrEquiv1 dot_S2048x64_S64x32_S2048x32_1_0_0_1_n_n 64 rfl rfl).symm l) = ix2 p l := funext fun a => Fin.ext (by
    match a with
    | ⟨0, _⟩ => exact lhs_comps_0 _ _
    | ⟨1, _⟩ => exact (lhs_comps_1 _ _).trans hk)
  have er : dot_S2048x64_S64x32_S2048x32_1_0_0_1_n_n.rhsIdx (ix2 p f) ((contrEquiv1 dot_S2048x64_S64x32_S2048x32_1_0_0_1_n_n 64 rfl rfl).symm l) = ix2 l f := funext fun a => Fin.ext (by
    match a with
    | ⟨0, _⟩ => exact (rhs_comps_0 _ _).trans hk
    | ⟨1, _⟩ => exact rhs_comps_1 _ _)
  rw [el, er]

/-! ## One axis inside a block -/

/-- One axis' value at point `p` of a block and component `c`, from the axis' table, its shifted table and the point's
    coordinate: the two taps of column `c` at the coordinate's cell, mixed by the fractional part. -/
def blockLerp (T Ts : S512x64.Idx → EReal) (pt : EReal) (c : Fin 64) : EReal :=
  tapAt (fun l => T (ix2 l c)) (cell pt).toNat * (oneW - frac pt) + tapAt (fun l => Ts (ix2 l c)) (cell pt).toNat * frac pt

/-- A column of coordinates sent to grid coordinates, as the body spells it. -/
abbrev gridCol (px : FVec Ideal S2048x1 .f32) : FVec Ideal S2048x1 .f32 :=
  mulf (mulf (addf px (broadcast S2048x1 (FloatOps.ofBits .f32 0x3F800000#32))) (broadcast S2048x1 (FloatOps.ofBits .f32 0x3F000000#32)))
    (broadcast S2048x1 (FloatOps.ofBits .f32 0x43FF8000#32))

/-- The one-hot rows of a column of coordinates, as the body spells them. -/
abbrev hotRows (px : FVec Ideal S2048x1 .f32) : FVec Ideal S2048x512 .bf16 :=
  truncf .bf16 (sitofp .f32 (extui 32 (cmpi .eq (iota .tc S2048x512 32 [1] iota_S2048x512_d1_w32)
    (broadcastTo S2048x512 (fptosi 32 (floor (gridCol px))) broadcasts_S2048x1_S2048x512)) natLt_1_32)) bitsLt_bf16_f32

theorem col_of_lanes (p : Fin 2048) (l : Fin 512) :
    ∀ a : Fin S2048x1.rank, ((ix2 p (0 : Fin 1) : S2048x1.Idx) a).val
      = if S2048x1.size a = 1 then 0 else ((ix2 p l : S2048x512.Idx) ⟨a.val + (S2048x512.rank - S2048x1.rank), by have := a.isLt; omega⟩).val :=
  fun a => match a with
    | ⟨0, _⟩ => rfl
    | ⟨1, _⟩ => rfl

theorem col_of_comps (p : Fin 2048) (c : Fin 64) :
    ∀ a : Fin S2048x1.rank, ((ix2 p (0 : Fin 1) : S2048x1.Idx) a).val
      = if S2048x1.size a = 1 then 0 else ((ix2 p c : S2048x64.Idx) ⟨a.val + (S2048x64.rank - S2048x1.rank), by have := a.isLt; omega⟩).val :=
  fun a => match a with
    | ⟨0, _⟩ => rfl
    | ⟨1, _⟩ => rfl

/-- Lane `l` of point `p`'s one-hot row is the lane weight for the point's cell. -/
theorem hotRows_apply (px : FVec Ideal S2048x1 .f32) (p : Fin 2048) (l : Fin 512) :
    hotRows px (ix2 p l) = laneWeight l.val (cell (px (ix2 p 0))) := by
  show ((((IntOp.cmpi .eq (iota .tc S2048x512 32 [1] iota_S2048x512_d1_w32 (ix2 p l))
      (broadcastTo S2048x512 (fptosi 32 (floor (gridCol px))) broadcasts_S2048x1_S2048x512 (ix2 p l))).setWidth 32).toInt : ℝ) : EReal) = _
  rw [iota_single_apply, broadcastTo_apply _ broadcasts_S2048x1_S2048x512 (ix2 p l) (ix2 p 0) (col_of_lanes p l)]
  rfl

/-- One axis of the body at point `p` and component `c`, over a column of coordinates. -/
theorem axis_apply (px : FVec Ideal S2048x1 .f32) (T Ts : FVec Ideal S512x64 .bf16) (p : Fin 2048) (c : Fin 64) :
    addf
      (mulf (matmul dot_S2048x512_S512x64_S2048x64_1_0_0_1_n_n none (hotRows px) (shapeCast S512x64 T shapeCasts_S512x64_S512x64) (constant S2048x64 .f32 0x00000000#32))
        (broadcastTo S2048x64 (subf (broadcast S2048x1 (FloatOps.ofBits .f32 0x3F800000#32)) (subf (gridCol px) (floor (gridCol px)))) broadcasts_S2048x1_S2048x64))
      (mulf (matmul dot_S2048x512_S512x64_S2048x64_1_0_0_1_n_n none (hotRows px) (shapeCast S512x64 Ts shapeCasts_S512x64_S512x64) (constant S2048x64 .f32 0x00000000#32))
        (broadcastTo S2048x64 (subf (gridCol px) (floor (gridCol px))) broadcasts_S2048x1_S2048x64))
      (ix2 p c) = blockLerp T Ts (px (ix2 p 0)) c := by
  rw [addf_apply, mulf_apply, mulf_apply, lanes_matmul_apply, lanes_matmul_apply,
    broadcastTo_apply _ broadcasts_S2048x1_S2048x64 (ix2 p c) (ix2 p 0) (col_of_comps p c),
    broadcastTo_apply _ broadcasts_S2048x1_S2048x64 (ix2 p c) (ix2 p 0) (col_of_comps p c)]
  simp only [hotRows_apply, shapeCast_self]
  rw [onehot_sum (cell (px (ix2 p 0))) (fun l => T (ix2 l c)), onehot_sum (cell (px (ix2 p 0))) (fun l => Ts (ix2 l c))]
  rfl

/-- Column `a` of the block of points, at point `p`. -/
theorem col0_read (x0 : Vec Ideal S2048x3 .f32) (p : Fin 2048) :
    extractStridedSlice S2048x1 ![0, 0] (shapeCast S2048x3 x0 shapeCasts_S2048x3_S2048x3) slices_S2048x3_o0_0_S2048x1 (ix2 p 0)
      = x0 (ix2 p 0) := by
  rw [shapeCast_self]
  exact extractStridedSlice_apply ![0, 0] x0 slices_S2048x3_o0_0_S2048x1 (ix2 p 0) (ix2 p 0) (fun b => match b with
    | ⟨0, _⟩ => by show p.val = 0 + p.val; omega
    | ⟨1, _⟩ => by show (0 : ℕ) = 0 + 0; omega)
theorem col1_read (x0 : Vec Ideal S2048x3 .f32) (p : Fin 2048) :
    extractStridedSlice S2048x1 ![0, 1] (shapeCast S2048x3 x0 shapeCasts_S2048x3_S2048x3) slices_S2048x3_o0_1_S2048x1 (ix2 p 0)
      = x0 (ix2 p 1) := by
  rw [shapeCast_self]
  exact extractStridedSlice_apply ![0, 1] x0 slices_S2048x3_o0_1_S2048x1 (ix2 p 0) (ix2 p 1) (fun b => match b with
    | ⟨0, _⟩ => by show p.val = 0 + p.val; omega
    | ⟨1, _⟩ => by show (1 : ℕ) = 1 + 0; omega)
theorem col2_read (x0 : Vec Ideal S2048x3 .f32) (p : Fin 2048) :
    extractStridedSlice S2048x1 ![0, 2] (shapeCast S2048x3 x0 shapeCasts_S2048x3_S2048x3) slices_S2048x3_o0_2_S2048x1 (ix2 p 0)
      = x0 (ix2 p 2) := by
  rw [shapeCast_self]
  exact extractStridedSlice_apply ![0, 2] x0 slices_S2048x3_o0_2_S2048x1 (ix2 p 0) (ix2 p 2) (fun b => match b with
    | ⟨0, _⟩ => by show p.val = 0 + p.val; omega
    | ⟨1, _⟩ => by show (2 : ℕ) = 2 + 0; omega)

/-- The x axis' value in a block. -/
theorem pay4_apply (x0 : Vec Ideal S2048x3 .f32) (T Ts : Vec Ideal S512x64 .bf16) (p : Fin 2048) (c : Fin 64) :
    k0_pay4 x0 T Ts (ix2 p c) = blockLerp T Ts (x0 (ix2 p 0)) c := by
  unfold k0_pay4 k0_pay2
  try dsimp only
  refine (axis_apply _ T Ts p c).trans ?_
  rw [col0_read]

/-- The y axis' value in a block. -/
theorem pay9_apply (x0 : Vec Ideal S2048x3 .f32) (T Ts : Vec Ideal S512x64 .bf16) (p : Fin 2048) (c : Fin 64) :
    k0_pay9 (k0_pay7 x0) (k0_pay8 x0) T Ts (ix2 p c) = blockLerp T Ts (x0 (ix2 p 1)) c := by
  unfold k0_pay9 k0_pay7 k0_pay8 k0_pay6 k0_pay5 k0_pay2
  try dsimp only
  refine (axis_apply _ T Ts p c).trans ?_
  rw [col1_read]

/-- The z axis' value in a block. -/
theorem pay10_apply (x0 : Vec Ideal S2048x3 .f32) (T Ts : Vec Ideal S512x64 .bf16) (p : Fin 2048) (c : Fin 64) :
    k0_pay10 (k0_pay3 x0) (iota .tc S2048x512 32 [1] iota_S2048x512_d1_w32) T Ts (ix2 p c) = blockLerp T Ts (x0 (ix2 p 2)) c := by
  unfold k0_pay10 k0_pay3 k0_pay2
  try dsimp only
  refine (axis_apply _ T Ts p c).trans ?_
  rw [col2_read]

/-- The product of the three axes against the basis. -/
theorem pay1_apply (A B C : FVec Ideal S2048x64 .f32) (x7 : Vec Ideal S64x32 .bf16) (p : Fin 2048) (f : Fin 32) :
    k0_pay1 A B C x7 (ix2 p f) = ∑ c : Fin 64, (A (ix2 p c) * B (ix2 p c) * C (ix2 p c)) * x7 (ix2 c f) := by
  unfold k0_pay1
  try dsimp only
  rw [comps_matmul_apply, shapeCast_self]
  rfl

/-! ## The whole block -/

/-- What one grid point leaves in its output block, as one function of its input blocks. -/
def blockFeat (x0 : S2048x3.Idx → EReal) (x1 x2 x3 x4 x5 x6 : S512x64.Idx → EReal) (x7 : S64x32.Idx → EReal) : S2048x32.Idx → EReal :=
  fun j => ∑ c : Fin 64,
    (blockLerp x1 x2 (x0 (ix2 (j 0) 0)) c * blockLerp x3 x4 (x0 (ix2 (j 0) 1)) c * blockLerp x5 x6 (x0 (ix2 (j 0) 2)) c) * x7 (ix2 c (j 1))

theorem zero_offsets2 : (![0, 0] : Fin 2 → ℕ) = fun _ => 0 := by
  funext a; match a with | ⟨0, _⟩ => rfl | ⟨1, _⟩ => rfl

theorem out_block (x0 : Vec Ideal S2048x3 .f32) (x1 x2 x3 x4 x5 x6 : Vec Ideal S512x64 .bf16) (x7 : Vec Ideal S64x32 .bf16) :
    out0_8 x0 x1 x2 x3 x4 x5 x6 x7 = blockFeat x0 x1 x2 x3 x4 x5 x6 x7 := by
  unfold out0_8
  rw [View.canon_unit_zero zero_offsets2]
  simp only [View.ld_unit_zero (S := S2048x3) zero_offsets2, View.ld_unit_zero (S := S512x64) zero_offsets2, View.ld_unit_zero (S := S64x32) zero_offsets2]
  funext j
  obtain ⟨p, f, rfl⟩ : ∃ (p : Fin 2048) (f : Fin 32), j = ix2 p f := ⟨j 0, j 1, eq_ix2 j⟩
  rw [pay1_apply]
  unfold blockFeat
  refine Finset.sum_congr rfl fun c _ => ?_
  rw [pay4_apply, pay9_apply, pay10_apply]

end Cert.Voxel.KernelSide

end
-- ==== Proof.KernelTables.lean ====
/-
  What the kernel's region finds in its operand arrays.

  Before the region the host lays the inputs out for the kernel: the points as a [2^20, 3] array; each axis' lines
  transposed to [512, 64], once as they are and once shifted by one sample with a zero last row (so that row l of the
  shifted table is sample l + 1, and zero at l = 511); the basis as [64, 32]. Changes of float format are the identity
  on the extended reals.
-/
import proofs.«413230_j69423851373082_3_alg».proof.Proof.Gen.KernelIdeal.Frame
import proofs.«413230_j69423851373082_3_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

namespace Cert.Voxel.KernelSide

open Idealize.ShloMosaic Idealize.ShloMosaic.TcCoe Idealize.ShloMosaic.ValueIdx Idealize.SL.Sem
open Cert.KernelIdeal Cert.KernelIdeal.Gen Cert.Voxel

variable (m : (ℓ : Loc nD τ sig) → Buf (Elt Ideal) ℓ)

/-- The five argument arrays as launched on core `c`. -/
abbrev ptsOf (c : Dev nD) : SPts.Idx → EReal := m ((c : Thread nD τ).loc main_arg0)
abbrev vxOf (c : Dev nD) : SLines.Idx → EReal := m ((c : Thread nD τ).loc main_arg1)
abbrev vyOf (c : Dev nD) : SLines.Idx → EReal := m ((c : Thread nD τ).loc main_arg2)
abbrev vzOf (c : Dev nD) : SLines.Idx → EReal := m ((c : Thread nD τ).loc main_arg3)
abbrev basisOf (c : Dev nD) : SBasis.Idx → EReal := m ((c : Thread nD τ).loc main_arg4)

/-! ### The layout steps, each over a variable array -/

/-- Dropping a unit leading axis: the flattened array at `(a, b)` is the original at `(0, a, b)`, the two having the
    same row-major position `a * n1 + b`. -/
private theorem dropUnit_apply {n0 n1 : Nat} (x : (⟨3, ![1, n0, n1]⟩ : Shape).Idx → EReal)
    (h : (⟨3, ![1, n0, n1]⟩ : Shape).ShapeCasts ⟨2, ![n0, n1]⟩) (a : Fin n0) (b : Fin n1) :
    shapeCast ⟨2, ![n0, n1]⟩ x h (ix2 a b) = x (ix3 0 a b) := by
  refine shapeCast_apply x h (ix2 a b) (ix3 0 a b) ?_
  rw [Shape.rowMajor_val_three, Shape.rowMajor_val_two]
  show (0 * n0 + a.val) * n1 + b.val = a.val * n1 + b.val
  rw [Nat.zero_mul, Nat.zero_add]

/-- The transpose of a `[64, 512]` array at `(l, k)` is the array at `(k, l)`. -/
private theorem swap_apply (x : S64x512.Idx → EReal) (l : Fin 512) (k : Fin 64) :
    transpose S512x64 [1, 0] x transposes_S64x512_S512x64_1_0 (ix2 l k) = x (ix2 k l) := by
  refine transpose_apply [1, 0] x transposes_S64x512_S512x64_1_0 (ix2 l k) (ix2 k l) ?_
  intro b
  match b with
  | ⟨0, _⟩ => rfl
  | ⟨1, _⟩ => rfl

/-- The slice `[0:64, 1:512]` at `(k, l)` is the array at `(k, l + 1)`. -/
private theorem tail_apply (x : S64x512.Idx → EReal) (k : Fin 64) (l : Fin 511) :
    extractStridedSlice S64x511 ![0, 1] x slices_S64x512_S64x511_0_1 (ix2 k l)
      = x (ix2 k ⟨l.val + 1, by have := l.isLt; omega⟩) := by
  refine extractStridedSlice_apply ![0, 1] x slices_S64x512_S64x511_0_1 (ix2 k l) (ix2 k ⟨l.val + 1, by have := l.isLt; omega⟩) ?_
  intro a
  match a with
  | ⟨0, _⟩ => show k.val = 0 + k.val; omega
  | ⟨1, _⟩ => show l.val + 1 = 1 + l.val; omega

/-- The zero column: the scalar zero word broadcast to `[64, 1]` is `0` everywhere. -/
private theorem zeroCol_apply (i : S64x1.Idx) :
    broadcastInDim S64x1 ![] bcast_S_S64x1 (constant (F := Ideal) S_ .f32 0x00000000#32) i = (0 : EReal) := by
  rw [broadcastInDim_apply ![] bcast_S_S64x1 (constant (F := Ideal) S_ .f32 0x00000000#32) i ix0 (fun a => a.elim0)]
  exact Ideal.ofBits_zero_f32

/-- The shifted array: the tail slice with a zero column appended, at `(k, l)`, is sample `l + 1` of row `k`, and
    zero at the last column. -/
private theorem shifted_apply (x : S64x512.Idx → EReal) (k : Fin 64) (l : Fin 512) :
    concatenate S64x512 1
        [⟨S64x511, extractStridedSlice S64x511 ![0, 1] x slices_S64x512_S64x511_0_1⟩,
         ⟨S64x1, broadcastInDim S64x1 ![] bcast_S_S64x1 (constant (F := Ideal) S_ .f32 0x00000000#32)⟩]
        concatenates_S64x511_S64x1_S64x512_d1 (ix2 k l)
      = if h : l.val + 1 < 512 then x (ix2 k ⟨l.val + 1, h⟩) else 0 := by
  by_cases h : l.val + 1 < 512
  · rw [dif_pos h]
    refine (concatenate_pair_apply_left (t := S64x512) (s₁ := S64x511) (s₂ := S64x1) 1 _ _
      concatenates_S64x511_S64x1_S64x512_d1 (ix2 k l) rfl
      (ix2 k ⟨l.val, by omega⟩) (fun b => match b with | ⟨0, _⟩ => rfl | ⟨1, _⟩ => rfl)).trans ?_
    exact tail_apply x k ⟨l.val, by omega⟩
  · rw [dif_neg h]
    refine (concatenate_pair_apply_right (t := S64x512) (s₁ := S64x511) (s₂ := S64x1) 1 _ _
      concatenates_S64x511_S64x1_S64x512_d1 (ix2 k l) rfl rfl
      (ix2 k 0) (fun b => match b with | ⟨0, _⟩ => fun _ => rfl | ⟨1, _⟩ => fun hb => absurd rfl hb)
      (by have := l.isLt; show 0 + 511 = l.val; omega)).trans ?_
    exact zeroCol_apply _

/-! ### The host's pure terms -/

/-- An axis' table as the host builds it: flatten, transpose, change of format. -/
private abbrev tableOf (x : SLines.Idx → EReal) : S512x64.Idx → EReal :=
  (truncf (F := Ideal) .bf16
    (transpose S512x64 [1, 0] (shapeCast S64x512 x shapeCasts_S1x64x512_S64x512) transposes_S64x512_S512x64_1_0 : FVec Ideal S512x64 .f32)
    bitsLt_bf16_f32 : FVec Ideal S512x64 .bf16)

/-- An axis' shifted table as the host builds it: flatten, drop the first sample and append a zero, transpose, change
    of format. -/
private abbrev shiftOf (x : SLines.Idx → EReal) : S512x64.Idx → EReal :=
  (truncf (F := Ideal) .bf16
    (transpose S512x64 [1, 0]
      (concatenate S64x512 1
        [⟨S64x511, extractStridedSlice S64x511 ![0, 1] (shapeCast S64x512 x shapeCasts_S1x64x512_S64x512) slices_S64x512_S64x511_0_1⟩,
         ⟨S64x1, broadcastInDim S64x1 ![] bcast_S_S64x1 (constant (F := Ideal) S_ .f32 0x00000000#32)⟩]
        concatenates_S64x511_S64x1_S64x512_d1)
      transposes_S64x512_S512x64_1_0 : FVec Ideal S512x64 .f32)
    bitsLt_bf16_f32 : FVec Ideal S512x64 .bf16)

/-- The table at `(l, k)` is sample `l` of component `k`. -/
private theorem tableOf_apply (x : SLines.Idx → EReal) (l : Fin 512) (k : Fin 64) :
    tableOf x (ix2 l k) = x (ix3 0 k l) := by
  show transpose S512x64 [1, 0] (shapeCast S64x512 x shapeCasts_S1x64x512_S64x512) transposes_S64x512_S512x64_1_0 (ix2 l k) = _
  rw [swap_apply]
  exact dropUnit_apply x shapeCasts_S1x64x512_S64x512 k l

/-- The shifted table at `(l, k)` is sample `l + 1` of component `k`, zero past the end. -/
private theorem shiftOf_apply (x : SLines.Idx → EReal) (l : Fin 512) (k : Fin 64) :
    shiftOf x (ix2 l k) = tapAt (fun l' => x (ix3 0 k l')) (l.val + 1) := by
  show transpose S512x64 [1, 0] (concatenate S64x512 1
        [⟨S64x511, extractStridedSlice S64x511 ![0, 1] (shapeCast S64x512 x shapeCasts_S1x64x512_S64x512) slices_S64x512_S64x511_0_1⟩,
         ⟨S64x1, broadcastInDim S64x1 ![] bcast_S_S64x1 (constant (F := Ideal) S_ .f32 0x00000000#32)⟩]
        concatenates_S64x511_S64x1_S64x512_d1) transposes_S64x512_S512x64_1_0 (ix2 l k) = _
  rw [swap_apply, shifted_apply]
  unfold tapAt
  by_cases h : l.val + 1 < 512
  · rw [dif_pos h, dif_pos h]
    exact dropUnit_apply x shapeCasts_S1x64x512_S64x512 k ⟨l.val + 1, h⟩
  · rw [dif_neg h, dif_neg h]

/-! ### What the region finds -/

/-- The points array the region reads: row `r`, coordinate `a`. -/
theorem V_points (c : Dev nD) (r : Fin 1048576) (a : Fin 3) :
    (V m c main_v0 : S1048576x3.Idx → EReal) (ix2 r a) = ptsOf m c (ix3 0 r a) := by
  have e : (V m c main_v0 : S1048576x3.Idx → EReal)
      = shapeCast S1048576x3 (ptsOf m c) shapeCasts_S1x1048576x3_S1048576x3 := by
    dsimp only [Gen.V, Gen.V0]
    simp only [Gen.hostOps0, List.flatten_cons, List.flatten_nil, List.append_nil, List.cons_append, List.nil_append]
    after_results
    rfl
  rw [e]
  exact dropUnit_apply (ptsOf m c) shapeCasts_S1x1048576x3_S1048576x3 r a

/-- The x table: row `l` (sample), column `k` (component). -/
theorem V_table_x (c : Dev nD) (l : Fin 512) (k : Fin 64) :
    (V m c main_v6 : S512x64.Idx → EReal) (ix2 l k) = vxOf m c (ix3 0 k l) := by
  have e : (V m c main_v6 : S512x64.Idx → EReal) = tableOf (vxOf m c) := by
    dsimp only [Gen.V, Gen.V0]
    simp only [Gen.hostOps0, List.flatten_cons, List.flatten_nil, List.append_nil, List.cons_append, List.nil_append]
    after_results
    rfl
  rw [e]
  exact tableOf_apply (vxOf m c) l k
/-- The shifted x table: sample `l + 1`, zero past the end. -/
theorem V_shift_x (c : Dev nD) (l : Fin 512) (k : Fin 64) :
    (V m c main_v8 : S512x64.Idx → EReal) (ix2 l k) = tapAt (fun l' => vxOf m c (ix3 0 k l')) (l.val + 1) := by
  have e : (V m c main_v8 : S512x64.Idx → EReal) = shiftOf (vxOf m c) := by
    dsimp only [Gen.V, Gen.V0]
    simp only [Gen.hostOps0, List.flatten_cons, List.flatten_nil, List.append_nil, List.cons_append, List.nil_append]
    after_results
    rfl
  rw [e]
  exact shiftOf_apply (vxOf m c) l k
theorem V_table_y (c : Dev nD) (l : Fin 512) (k : Fin 64) :
    (V m c main_v14 : S512x64.Idx → EReal) (ix2 l k) = vyOf m c (ix3 0 k l) := by
  have e : (V m c main_v14 : S512x64.Idx → EReal) = tableOf (vyOf m c) := by
    dsimp only [Gen.V, Gen.V0]
    simp only [Gen.hostOps0, List.flatten_cons, List.flatten_nil, List.append_nil, List.cons_append, List.nil_append]
    after_results
    rfl
  rw [e]
  exact tableOf_apply (vyOf m c) l k
theorem V_shift_y (c : Dev nD) (l : Fin 512) (k : Fin 64) :
    (V m c main_v16 : S512x64.Idx → EReal) (ix2 l k) = tapAt (fun l' => vyOf m c (ix3 0 k l')) (l.val + 1) := by
  have e : (V m c main_v16 : S512x64.Idx → EReal) = shiftOf (vyOf m c) := by
    dsimp only [Gen.V, Gen.V0]
    simp only [Gen.hostOps0, List.flatten_cons, List.flatten_nil, List.append_nil, List.cons_append, List.nil_append]
    after_results
    rfl
  rw [e]
  exact shiftOf_apply (vyOf m c) l k
theorem V_table_z (c : Dev nD) (l : Fin 512) (k : Fin 64) :
    (V m c main_v22 : S512x64.Idx → EReal) (ix2 l k) = vzOf m c (ix3 0 k l) := by
  have e : (V m c main_v22 : S512x64.Idx → EReal) = tableOf (vzOf m c) := by
    dsimp only [Gen.V, Gen.V0]
    simp only [Gen.hostOps0, List.flatten_cons, List.flatten_nil, List.append_nil, List.cons_append, List.nil_append]
    after_results
    rfl
  rw [e]
  exact tableOf_apply (vzOf m c) l k
theorem V_shift_z (c : Dev nD) (l : Fin 512) (k : Fin 64) :
    (V m c main_v24 : S512x64.Idx → EReal) (ix2 l k) = tapAt (fun l' => vzOf m c (ix3 0 k l')) (l.val + 1) := by
  have e : (V m c main_v24 : S512x64.Idx → EReal) = shiftOf (vzOf m c) := by
    dsimp only [Gen.V, Gen.V0]
    simp only [Gen.hostOps0, List.flatten_cons, List.flatten_nil, List.append_nil, List.cons_append, List.nil_append]
    after_results
    rfl
  rw [e]
  exact shiftOf_apply (vzOf m c) l k
/-- The basis: component `k`, feature `f`. -/
theorem V_basis (c : Dev nD) (k : Fin 64) (f : Fin 32) :
    (V m c main_v26 : S64x32.Idx → EReal) (ix2 k f) = basisOf m c (ix3 0 k f) := by
  have e : (V m c main_v26 : S64x32.Idx → EReal)
      = (truncf (F := Ideal) .bf16 (shapeCast S64x32 (basisOf m c) shapeCasts_S1x64x32_S64x32 : FVec Ideal S64x32 .f32)
          bitsLt_bf16_f32 : FVec Ideal S64x32 .bf16) := by
    dsimp only [Gen.V, Gen.V0]
    simp only [Gen.hostOps0, List.flatten_cons, List.flatten_nil, List.append_nil, List.cons_append, List.nil_append]
    after_results
    rfl
  rw [e]
  exact dropUnit_apply (basisOf m c) shapeCasts_S1x64x32_S64x32 k f

end Cert.Voxel.KernelSide

end
-- ==== Proof.KernelArray.lean ====
/-
  From blocks to the array, and through the host's last reshape.

  Grid point `t` of 512 reads rows t·2048 … t·2048 + 2047 of the points, the seven tables whole, and writes rows
  t·2048 … of the [2^20, 32] result. Its output block is the specification restricted to those rows: the tables the
  region finds are the lines transposed, and the shifted tables the lines one sample on, so a block's per-axis value is
  the zero-padded interpolation. The 512 blocks tile the result, so the array ends holding the specification, and the
  host's reshape to [1, 2^20, 32] only renames the index.
-/
import proofs.«413230_j69423851373082_3_alg».proof.Proof.KernelBlock
import proofs.«413230_j69423851373082_3_alg».proof.Proof.KernelTables

set_option maxRecDepth 16384

noncomputable section

open scoped BigOperators

namespace Cert.Voxel.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.Voxel

variable (m : (ℓ : Loc nD τ sig) → Buf (Elt Ideal) ℓ) (ρ : Dev nD → PrngReg)

/-! ## The index maps, decided over the grid -/

/-- The points' and the result's blocks move with the grid point along the rows; every table's block is block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 512 := Nat.lt_of_lt_of_eq t.isLt N_0

/-- Row `p` of grid point `t`'s block is row t·2048 + p of the array. -/
abbrev rowOf (t : Fin cfg0.N) (p : Fin 2048) : Fin 1048576 :=
  ⟨t.val * 2048 + p.val, by have := point_lt t; have := p.isLt; omega⟩

/-! ## The input blocks, by their literal types -/

abbrev ptsBlk (c : Dev nD) (t : Fin cfg0.N) : S2048x3.Idx → EReal := iblk m c 0 t
abbrev txBlk (c : Dev nD) (t : Fin cfg0.N) : S512x64.Idx → EReal := iblk m c 1 t
abbrev sxBlk (c : Dev nD) (t : Fin cfg0.N) : S512x64.Idx → EReal := iblk m c 2 t
abbrev tyBlk (c : Dev nD) (t : Fin cfg0.N) : S512x64.Idx → EReal := iblk m c 3 t
abbrev syBlk (c : Dev nD) (t : Fin cfg0.N) : S512x64.Idx → EReal := iblk m c 4 t
abbrev tzBlk (c : Dev nD) (t : Fin cfg0.N) : S512x64.Idx → EReal := iblk m c 5 t
abbrev szBlk (c : Dev nD) (t : Fin cfg0.N) : S512x64.Idx → EReal := iblk m c 6 t
abbrev basBlk (c : Dev nD) (t : Fin cfg0.N) : S64x32.Idx → EReal := iblk m c 7 t

theorem ptsBlk_apply (c : Dev nD) (t : Fin cfg0.N) (p : Fin 2048) (a : Fin 3) :
    ptsBlk m c t (ix2 p a) = ptsOf m c (ix3 0 (rowOf t p) a) := by
  obtain ⟨e0, e1, -⟩ := idx_facts t
  show (V m c main_v0 : S1048576x3.Idx → EReal) (((cfg0.win 0).blk t).view.emb (ix2 p a)) = _
  have h : ((cfg0.win 0).blk t).view.emb (ix2 p a) = (ix2 (rowOf t p) a : S1048576x3.Idx) := by
    funext b; apply Fin.ext
    match b with
    | ⟨0, _⟩ => show win0_0.index t (0 : Fin 2) * 2048 + 1 * p.val = t.val * 2048 + p.val; omega
    | ⟨1, _⟩ => show win0_0.index t (1 : Fin 2) * 3 + 1 * a.val = a.val; omega
  rw [h]; exact V_points m c _ a

theorem txBlk_apply (c : Dev nD) (t : Fin cfg0.N) (l : Fin 512) (k : Fin 64) :
    txBlk m c t (ix2 l k) = vxOf m c (ix3 0 k l) := by
  obtain ⟨-, -, e0, e1, -⟩ := idx_facts t
  show (V m c main_v6 : S512x64.Idx → EReal) (((cfg0.win 1).blk t).view.emb (ix2 l k)) = _
  have h : ((cfg0.win 1).blk t).view.emb (ix2 l k) = (ix2 l k : S512x64.Idx) := by
    funext b; apply Fin.ext
    match b with
    | ⟨0, _⟩ => show win0_1.index t (0 : Fin 2) * 512 + 1 * l.val = l.val; omega
    | ⟨1, _⟩ => show win0_1.index t (1 : Fin 2) * 64 + 1 * k.val = k.val; omega
  rw [h]; exact V_table_x m c l k

theorem sxBlk_apply (c : Dev nD) (t : Fin cfg0.N) (l : Fin 512) (k : Fin 64) :
    sxBlk m c t (ix2 l k) = tapAt (fun l' => vxOf m c (ix3 0 k l')) (l.val + 1) := by
  obtain ⟨-, -, -, -, e0, e1, -⟩ := idx_facts t
  show (V m c main_v8 : S512x64.Idx → EReal) (((cfg0.win 2).blk t).view.emb (ix2 l k)) = _
  have h : ((cfg0.win 2).blk t).view.emb (ix2 l k) = (ix2 l k : S512x64.Idx) := by
    funext b; apply Fin.ext
    match b with
    | ⟨0, _⟩ => show win0_2.index t (0 : Fin 2) * 512 + 1 * l.val = l.val; omega
    | ⟨1, _⟩ => show win0_2.index t (1 : Fin 2) * 64 + 1 * k.val = k.val; omega
  rw [h]; exact V_shift_x m c l k

theorem tyBlk_apply (c : Dev nD) (t : Fin cfg0.N) (l : Fin 512) (k : Fin 64) :
    tyBlk m c t (ix2 l k) = vyOf m c (ix3 0 k l) := by
  obtain ⟨-, -, -, -, -, -, e0, e1, -⟩ := idx_facts t
  show (V m c main_v14 : S512x64.Idx → EReal) (((cfg0.win 3).blk t).view.emb (ix2 l k)) = _
  have h : ((cfg0.win 3).blk t).view.emb (ix2 l k) = (ix2 l k : S512x64.Idx) := by
    funext b; apply Fin.ext
    match b with
    | ⟨0, _⟩ => show win0_3.index t (0 : Fin 2) * 512 + 1 * l.val = l.val; omega
    | ⟨1, _⟩ => show win0_3.index t (1 : Fin 2) * 64 + 1 * k.val = k.val; omega
  rw [h]; exact V_table_y m c l k

theorem syBlk_apply (c : Dev nD) (t : Fin cfg0.N) (l : Fin 512) (k : Fin 64) :
    syBlk m c t (ix2 l k) = tapAt (fun l' => vyOf m c (ix3 0 k l')) (l.val + 1) := by
  obtain ⟨-, -, -, -, -, -, -, -, e0, e1, -⟩ := idx_facts t
  show (V m c main_v16 : S512x64.Idx → EReal) (((cfg0.win 4).blk t).view.emb (ix2 l k)) = _
  have h : ((cfg0.win 4).blk t).view.emb (ix2 l k) = (ix2 l k : S512x64.Idx) := by
    funext b; apply Fin.ext
    match b with
    | ⟨0, _⟩ => show win0_4.index t (0 : Fin 2) * 512 + 1 * l.val = l.val; omega
    | ⟨1, _⟩ => show win0_4.index t (1 : Fin 2) * 64 + 1 * k.val = k.val; omega
  rw [h]; exact V_shift_y m c l k

theorem tzBlk_apply (c : Dev nD) (t : Fin cfg0.N) (l : Fin 512) (k : Fin 64) :
    tzBlk m c t (ix2 l k) = vzOf m c (ix3 0 k l) := by
  obtain ⟨-, -, -, -, -, -, -, -, -, -, e0, e1, -⟩ := idx_facts t
  show (V m c main_v22 : S512x64.Idx → EReal) (((cfg0.win 5).blk t).view.emb (ix2 l k)) = _
  have h : ((cfg0.win 5).blk t).view.emb (ix2 l k) = (ix2 l k : S512x64.Idx) := by
    funext b; apply Fin.ext
    match b with
    | ⟨0, _⟩ => show win0_5.index t (0 : Fin 2) * 512 + 1 * l.val = l.val; omega
    | ⟨1, _⟩ => show win0_5.index t (1 : Fin 2) * 64 + 1 * k.val = k.val; omega
  rw [h]; exact V_table_z m c l k

theorem szBlk_apply (c : Dev nD) (t : Fin cfg0.N) (l : Fin 512) (k : Fin 64) :
    szBlk m c t (ix2 l k) = tapAt (fun l' => vzOf m c (ix3 0 k l')) (l.val + 1) := by
  obtain ⟨-, -, -, -, -, -, -, -, -, -, -, -, e0, e1, -⟩ := idx_facts t
  show (V m c main_v24 : S512x64.Idx → EReal) (((cfg0.win 6).blk t).view.emb (ix2 l k)) = _
  have h : ((cfg0.win 6).blk t).view.emb (ix2 l k) = (ix2 l k : S512x64.Idx) := by
    funext b; apply Fin.ext
    match b with
    | ⟨0, _⟩ => show win0_6.index t (0 : Fin 2) * 512 + 1 * l.val = l.val; omega
    | ⟨1, _⟩ => show win0_6.index t (1 : Fin 2) * 64 + 1 * k.val = k.val; omega
  rw [h]; exact V_shift_z m c l k

theorem basBlk_apply (c : Dev nD) (t : Fin cfg0.N) (k : Fin 64) (f : Fin 32) :
    basBlk m c t (ix2 k f) = basisOf m c (ix3 0 k f) := by
  obtain ⟨-, -, -, -, -, -, -, -, -, -, -, -, -, -, e0, e1, -⟩ := idx_facts t
  show (V m c main_v26 : S64x32.Idx → EReal) (((cfg0.win 7).blk t).view.emb (ix2 k f)) = _
  have h : ((cfg0.win 7).blk t).view.emb (ix2 k f) = (ix2 k f : S64x32.Idx) := by
    funext b; apply Fin.ext
    match b with
    | ⟨0, _⟩ => show win0_7.index t (0 : Fin 2) * 64 + 1 * k.val = k.val; omega
    | ⟨1, _⟩ => show win0_7.index t (1 : Fin 2) * 32 + 1 * f.val = f.val; omega
  rw [h]; exact V_basis m c k f

/-! ## A block's axis is the interpolation of the line -/

/-- When column `k` of the table is a line and column `k` of the shifted table is that line one sample on, the
    block's axis value is the line's zero-padded interpolation. -/
theorem blockLerp_eq_lerp (T Ts : S512x64.Idx → EReal) (src : Fin 512 → EReal) (pt : EReal) (k : Fin 64)
    (hT : ∀ l : Fin 512, T (ix2 l k) = src l) (hTs : ∀ l : Fin 512, Ts (ix2 l k) = tapAt src (l.val + 1)) :
    blockLerp T Ts pt k = lerp src pt := by
  unfold blockLerp lerp
  have e1 : (fun l : Fin 512 => T (ix2 l k)) = src := funext hT
  have e2 : (fun l : Fin 512 => Ts (ix2 l k)) = fun l : Fin 512 => tapAt src (l.val + 1) := funext hTs
  rw [e1, e2, tapAt_shift]

/-! ## The result array -/

/-- The [2^20, 32] array the region writes, as one function of the arguments. -/
def featRows (c : Dev nD) : S1048576x32.Idx → EReal :=
  fun j => feat (ptsOf m c) (vxOf m c) (vyOf m c) (vzOf m c) (basisOf m c) (ix3 0 (j 0) (j 1))

/-- What grid point `t` writes back is block `t` of that array. -/
theorem flushed_eq (c : Dev nD) (t : Fin cfg0.N) :
    (dats m 0 c).flushed 8 t = ((cfg0.win 8).blk t).view.read (Elt Ideal) (featRows m c) := by
  show (cfg0.win 8).cut (grid0.coords t) ((dats m 0 c).after 8 t) = _
  rw [after0_8, out_block]
  funext j
  obtain ⟨p, f, rfl⟩ : ∃ (p : Fin 2048) (f : Fin 32), j = ix2 p f := ⟨j 0, j 1, eq_ix2 j⟩
  show blockFeat (ptsBlk m c t) (txBlk m c t) (sxBlk m c t) (tyBlk m c t) (syBlk m c t) (tzBlk m c t) (szBlk m c t) (basBlk m c t) (ix2 p f)
    = featRows m c (((cfg0.win 8).blk t).view.emb (ix2 p f))
  have h : ((cfg0.win 8).blk t).view.emb (ix2 p f) = (ix2 (rowOf t p) f : S1048576x32.Idx) := by
    obtain ⟨-, -, -, -, -, -, -, -, -, -, -, -, -, -, -, -, e0, e1⟩ := idx_facts t
    funext b; apply Fin.ext
    match b with
    | ⟨0, _⟩ => show win0_8.index t (0 : Fin 2) * 2048 + 1 * p.val = t.val * 2048 + p.val; omega
    | ⟨1, _⟩ => show win0_8.index t (1 : Fin 2) * 32 + 1 * f.val = f.val; omega
  rw [h]
  unfold blockFeat featRows feat
  refine Finset.sum_congr rfl fun k _ => ?_
  rw [blockLerp_eq_lerp (txBlk m c t) (sxBlk m c t) (fun l => vxOf m c (ix3 0 k l)) _ k (fun l => txBlk_apply m c t l k) (fun l => sxBlk_apply m c t l k),
    blockLerp_eq_lerp (tyBlk m c t) (syBlk m c t) (fun l => vyOf m c (ix3 0 k l)) _ k (fun l => tyBlk_apply m c t l k) (fun l => syBlk_apply m c t l k),
    blockLerp_eq_lerp (tzBlk m c t) (szBlk m c t) (fun l => vzOf m c (ix3 0 k l)) _ k (fun l => tzBlk_apply m c t l k) (fun l => szBlk_apply m c t l k),
    ptsBlk_apply, ptsBlk_apply, ptsBlk_apply, basBlk_apply]

/-- An index of the array is in grid point `t`'s block iff each coordinate is in the block's range on its axis. -/
theorem mem_blk (t : Fin cfg0.N) (i : S1048576x32.Idx) :
    i ∈ ((cfg0.win 8).blk t).view.set ↔ ∀ a : Fin 2, win0_8.index t a * S2048x32.size a ≤ (i a).val ∧ (i a).val < win0_8.index t a * S2048x32.size a + S2048x32.size a := by
  show i ∈ ((View.whole main_v27).slice (win0_8.rect t)).set ↔ _
  rw [View.set_slice_whole, Rect.mem_set_unit]
  exact Iff.rfl

/-- The 512 blocks of 2048 rows tile the array: row `r` is in the block of grid point r / 2048. -/
theorem covered (i : S1048576x32.Idx) :
    ∃ t : Fin cfg0.N, (cfg0.win 8).flush t = true ∧ i ∈ ((cfg0.win 8).blk t).view.set := by
  have hi0 : (i 0).val < 1048576 := (i 0).isLt
  have hi1 : (i 1).val < 32 := (i 1).isLt
  let t : Fin cfg0.N := ⟨(i 0).val / 2048, Nat.lt_of_lt_of_eq (by omega) N_0.symm⟩
  obtain ⟨-, -, -, -, -, -, -, -, -, -, -, -, -, -, -, -, e0, e1⟩ := idx_facts t
  have e0' : win0_8.index t (0 : Fin 2) = (i 0).val / 2048 := e0
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 32 ≤ (i 1).val ∧ (i 1).val < win0_8.index t (1 : Fin 2) * 32 + 32; omega

/-- The array the region leaves: the specification, row by row. -/
theorem final (c : Dev nD) : (dats m 0 c).arrAt 8 cfg0.N = featRows m c :=
  (dats m 0 c).arrAt_eq_of_cover 8 (featRows m c) (fun t _ => flushed_eq m c t) covered

/-! ## The host's reshape after the region, and the run -/

/-- The result buffer after the host's last operation: the specification. -/
theorem result_eq (c : Dev nD) :
    Pipeline.afterTail₀ cfgs (dats m) 0 (V0 m) [hostOps1] c main_v28
      = feat (ptsOf m c) (vxOf m c) (vyOf m c) (vzOf m c) (basisOf m c) := by
  unfold Pipeline.afterTail₀
  show StableHlo.after hostOps1 _ (Proc.devRef .tc main_v28) = _
  after_results
  have hA : Pipeline.withArrays (cfgs 0).spec c (V0 m c) (fun w => (dats m 0 c).arrAt w (cfgs 0).N) (Proc.tc.devRef main_v27)
      = featRows m c :=
    (Pipeline.withArrays_arr spec0 launch0.win.arr_inj c _ _ 8).trans (final m c)
  funext i
  refine (congrFun (congrArg (fun X => shapeCast S1x1048576x32 X shapeCasts_S1048576x32_S1x1048576x32) hA) i).trans ?_
  have hi0 : (i 0).val < 1 := (i 0).isLt
  have hi1 : (i 1).val < 1048576 := (i 1).isLt
  have hi2 : (i 2).val < 32 := (i 2).isLt
  refine (shapeCast_apply (featRows m c) shapeCasts_S1048576x32_S1x1048576x32 i (ix2 (i 1) (i 2)) ?_).trans ?_
  · rewrite [Shape.rowMajor_val_three, Shape.rowMajor_val_two]
    show (i 1).val * 32 + (i 2).val = ((i 0).val * 1048576 + (i 1).val) * 32 + (i 2).val
    omega
  · show feat (ptsOf m c) (vxOf m c) (vyOf m c) (vzOf m c) (basisOf m c) (ix3 0 (i 1) (i 2)) = _
    refine congrArg _ (funext fun a => ?_)
    match a with
    | ⟨0, _⟩ => exact Fin.ext (by show (0 : ℕ) = (i 0).val; omega)
    | ⟨1, _⟩ => rfl
    | ⟨2, _⟩ => rfl

/-- Every weakly fair execution of the kernel's program ends with the result buffer at the specification of the
    arguments, and the arguments unchanged. -/
theorem run : θ_run defs (onTc (τ := τ) (main (F := Ideal))) ⟨m, fun _ => 0, ρ⟩ fun r => ∀ c : Dev nD,
      r.2.mem ((c : Thread nD τ).loc main_v28) = feat (ptsOf m c) (vxOf m c) (vyOf m c) (vzOf m c) (basisOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Voxel.KernelSide

end
-- ==== Proof.lean ====
/-
  The kernel interpolates three lines per point and contracts with a basis; the reference does the same.

  For a point coordinate p the grid coordinate is x = (p + 1) · ½ · 511 on a line of 512 samples, with left neighbour
  ⌊x⌋, right neighbour ⌊x⌋ + 1 and weight x − ⌊x⌋ for the right one; samples off the line count as zero. The reference
  reads the two neighbours by a clamped gather times an indicator of being on the line. The kernel reads them by a
  one-hot row over the 512 lanes against the line and against the line shifted by one sample with a zero at its end.
  A one-hot row against a line is the zero-padded sample (a product with zero vanishes on the extended reals), so the
  kernel computes the zero-padded interpolation at every input. The reference computes it when the left neighbour is
  on the line, which the points' range [-1, 1] gives; below −1 the two differ (a left neighbour −1 has the right
  neighbour 0 on the line, which the kernel's all-zero row misses). Per point the three axes' values are multiplied
  and summed against the basis over the 64 components, in both programs.

  The frames of the two kernel programs and the kernel's run are over the generated frame; the reference's frame and
  run read its list of host operations stretch by stretch. No rewrite was made by the idealization, so its sanction is trivial.
-/
import proofs.«413230_j69423851373082_3_alg».proof.Defs
import proofs.«413230_j69423851373082_3_alg».proof.Proof.Gen.Kernel
import proofs.«413230_j69423851373082_3_alg».proof.Proof.Gen.Kernel.Skeleton
import proofs.«413230_j69423851373082_3_alg».proof.Proof.Gen.Kernel.Launch
import proofs.«413230_j69423851373082_3_alg».proof.Proof.Gen.Kernel.Points
import proofs.«413230_j69423851373082_3_alg».proof.Proof.Gen.Kernel.Frame
import proofs.«413230_j69423851373082_3_alg».proof.Proof.Gen.KernelIdeal
import proofs.«413230_j69423851373082_3_alg».proof.Proof.Gen.KernelIdeal.Skeleton
import proofs.«413230_j69423851373082_3_alg».proof.Proof.Gen.KernelIdeal.Launch
import proofs.«413230_j69423851373082_3_alg».proof.Proof.Gen.KernelIdeal.Points
import proofs.«413230_j69423851373082_3_alg».proof.Proof.Gen.KernelIdeal.Frame
import proofs.«413230_j69423851373082_3_alg».proof.Proof.Gen.ReferenceIdeal
import proofs.«413230_j69423851373082_3_alg».proof.Proof.Gen.Pre_finite_inputs
import proofs.«413230_j69423851373082_3_alg».proof.Proof.RefRun
import proofs.«413230_j69423851373082_3_alg».proof.Proof.RefRead
import proofs.«413230_j69423851373082_3_alg».proof.Proof.RefRunValue
import proofs.«413230_j69423851373082_3_alg».proof.Proof.RefValue
import proofs.«413230_j69423851373082_3_alg».proof.Proof.RangeOfPre
import proofs.«413230_j69423851373082_3_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Voxel.RefRunSide.run (F := Ideal) m ρ)

/-- Both programs end at the specification of the arguments: the kernel at every input, the reference where the
    points' range puts every cell on the line. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hcells : ∀ c : Dev Cert.KernelIdeal.nD, Cert.Voxel.CellsOnLine (Cert.Voxel.KernelSide.ptsOf m c) := fun c =>
    @Cert.Voxel.cellsOnLine_of_pre Cert.Pre_finite_inputs.Gen.facts _ _ _ _ _ (hpre c)
  refine ⟨fun c => Cert.Voxel.feat (Cert.Voxel.KernelSide.ptsOf m c) (Cert.Voxel.KernelSide.vxOf m c) (Cert.Voxel.KernelSide.vyOf m c)
    (Cert.Voxel.KernelSide.vzOf m c) (Cert.Voxel.KernelSide.basisOf m c), Cert.Voxel.KernelSide.run m ρ, ?_⟩
  refine (θ_run Cert.ReferenceIdeal.defs _ _).mono (fun _ h c => ⟨(h c).1.trans ?_, (h c).2⟩)
    (Cert.Voxel.RefRunSide.run (F := Ideal) m' ρ')
  rw [(hagree c).1, (hagree c).2.1, (hagree c).2.2.1, (hagree c).2.2.2.1, (hagree c).2.2.2.2]
  exact Cert.Voxel.RefSide.ref_eq_feat _ _ _ _ _ (hcells c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
